-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x640000 32 := broadcastInDim S2x640000 ![] bcast_S_S2x640000 main_c_20
  let main_v55 : IVec S2x640000 1 := cmpi .sge main_arg1 main_v54
  let main_c_21 : IVec S_ 1 := constantI S_ 1 1#1
  let main_v56 : IVec S_ 1 := (fun x v => Host.reduce IntOp.andi x v reducesTo_S2x640000_S_d0_1 h_S_) main_v55 main_c_21
  let main_v57 : IVec S_ 1 := andi main_v53 main_v56
  let main_c_22 : IVec S_ 32 := constantI S_ 32 10000#32
  let main_v58 : IVec S2x640000 32 := broadcastInDim S2x640000 ![] bcast_S_S2x640000 main_c_22
  let main_v59 : IVec S2x640000 1 := cmpi .slt main_arg1 main_v58
  let main_c_23 : IVec S_ 1 := constantI S_ 1 1#1
  let main_v60 : IVec S_ 1 := (fun x v => Host.reduce IntOp.andi x v reducesTo_S2x640000_S_d0_1 h_S_) main_v59 main_c_23
  let main_v61 : IVec S_ 1 := andi main_v57 main_v60
  main_v61

def fn_part2 {F : FTy → Type} [FloatOps F] (main_arg1 : IVec S2x640000 32) (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x128 .f32) (main_arg1 : IVec S2x640000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S10240x128 : Shape := ⟨2, ![10240, 128]⟩
abbrev S1x640000 : Shape := ⟨2, ![1, 640000]⟩
abbrev S640000 : Shape := ⟨1, ![640000]⟩
abbrev S104857600 : Shape := ⟨1, ![104857600]⟩
abbrev S640000x1 : Shape := ⟨2, ![640000, 1]⟩
abbrev S10240x10240 : Shape := ⟨2, ![10240, 10240]⟩
abbrev S10000 : Shape := ⟨1, ![10000]⟩
abbrev S10240 : Shape := ⟨1, ![10240]⟩
abbrev S10240x1 : Shape := ⟨2, ![10240, 1]⟩
abbrev S1x128 : Shape := ⟨2, ![1, 128]⟩
abbrev S2560x128 : Shape := ⟨2, ![2560, 128]⟩
abbrev S512x10240 : Shape := ⟨2, ![512, 10240]⟩
abbrev S512x128 : Shape := ⟨2, ![512, 128]⟩
abbrev S2560x1 : Shape := ⟨2, ![2560, 1]⟩
abbrev S2560 : Shape := ⟨1, ![2560]⟩

abbrev nBuf : Space → Nat
  | .hbm => 65
  | .vmem => 50
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S_, .f32⟩
  | .hbm, ⟨14, _⟩ => ⟨S10240x128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S104857600, .f32⟩
  | .hbm, ⟨27, _⟩ => ⟨S640000x1, .i32⟩
  | .hbm, ⟨28, _⟩ => ⟨S104857600, .f32⟩
  | .hbm, ⟨29, _⟩ => ⟨S10240x10240, .f32⟩
  | .hbm, ⟨30, _⟩ => ⟨S10240x10240, .bf16⟩
  | .hbm, ⟨31, _⟩ => ⟨S_, .f32⟩
  | .hbm, ⟨32, _⟩ => ⟨S640000, .f32⟩
  | .hbm, ⟨33, _⟩ => ⟨S_, .f32⟩
  | .hbm, ⟨34, _⟩ => ⟨S10000, .f32⟩
  | .hbm, ⟨35, _⟩ => ⟨S640000x1, .i32⟩
  | .hbm, ⟨36, _⟩ => ⟨S10000, .f32⟩
  | .hbm, ⟨37, _⟩ => ⟨S_, .i32⟩
  | .hbm, ⟨38, _⟩ => ⟨S_, .f32⟩
  | .hbm, ⟨39, _⟩ => ⟨S10240, .f32⟩
  | .hbm, ⟨40, _⟩ => ⟨S_, .f32⟩
  | .hbm, ⟨41, _⟩ => ⟨S_, .f32⟩
  | .hbm, ⟨42, _⟩ => ⟨S10240, .f32⟩
  | .hbm, ⟨43, _⟩ => ⟨S10240, .f32⟩
  | .hbm, ⟨44, _⟩ => ⟨S_, .f32⟩
  | .hbm, ⟨45, _⟩ => ⟨S10240, .f32⟩
  | .hbm, ⟨46, _⟩ => ⟨S10240, .f32⟩
  | .hbm, ⟨47, _⟩ => ⟨S10240x1, .f32⟩
  | .hbm, ⟨48, _⟩ => ⟨S_, .f32⟩
  | .hbm, ⟨49, _⟩ => ⟨S10240x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S10240x128, .bf16⟩
  | .hbm, ⟨58, _⟩ => ⟨S10240x128, .f32⟩
  | .hbm, ⟨59, _⟩ => ⟨S10240x128, .f32⟩
  | .hbm, ⟨60, _⟩ => ⟨S10240x128, .bf16⟩
  | .hbm, ⟨61, _⟩ => ⟨S10240x128, .f32⟩
  | .hbm, ⟨62, _⟩ => ⟨S10240x128, .f32⟩
  | .hbm, ⟨63, _⟩ => ⟨S10240x128, .f32⟩
  | .hbm, ⟨64, _⟩ => ⟨S10000x128, .f32⟩
  | .local _ .vmem, ⟨0, _⟩ => ⟨S2560x128, .f32⟩
  | .local _ .vmem, ⟨1, _⟩ => ⟨S2560x128, .f32⟩
  | .local _ .vmem, ⟨2, _⟩ => ⟨S128x128, .f32⟩
  | .local _ .vmem, ⟨3, _⟩ => ⟨S1x128, .f32⟩
  | .local _ .vmem, ⟨4, _⟩ => ⟨S2560x128, .bf16⟩
  | .local _ .vmem, ⟨5, _⟩ => ⟨S2560x128, .bf16⟩
  | .local _ .vmem, ⟨6, _⟩ => ⟨S512x10240, .bf16⟩
  | .local _ .vmem, ⟨7, _⟩ => ⟨S512x10240, .bf16⟩
  | .local _ .vmem, ⟨8, _⟩ => ⟨S10240x128, .bf16⟩
  | .local _ .vmem, ⟨9, _⟩ => ⟨S512x128, .f32⟩
  | .local _ .vmem, ⟨10, _⟩ => ⟨S512x128, .f32⟩
  | .local _ .vmem, ⟨11, _⟩ => ⟨S2560x128, .f32⟩
  | .local _ .vmem, ⟨12, _⟩ => ⟨S2560x128, .f32⟩
  | .local _ .vmem, ⟨13, _⟩ => ⟨S2560x1, .f32⟩
  | .local _ .vmem, ⟨14, _⟩ => ⟨S2560x1, .f32⟩
  | .local _ .vmem, ⟨15, _⟩ => ⟨S2560x128, .f32⟩
  | .local _ .vmem, ⟨16, _⟩ => ⟨S2560x128, .f32⟩
  | .local _ .vmem, ⟨17, _⟩ => ⟨S1x128, .f32⟩
  | .local _ .vmem, ⟨18, _⟩ => ⟨S1x128, .f32⟩
  | .local _ .vmem, ⟨19, _⟩ => ⟨S2560x128, .f32⟩
  | .local _ .vmem, ⟨20, _⟩ => ⟨S2560x128, .f32⟩
  | .local _ .vmem, ⟨21, _⟩ => ⟨S2560x128, .f32⟩
  | .local _ .vmem, ⟨22, _⟩ => ⟨S2560x128, .f32⟩
  | .local _ .vmem, ⟨23, _⟩ => ⟨S128x128, .f32⟩
  | .local _ .vmem, ⟨24, _⟩ => ⟨S1x128, .f32⟩
  | .local _ .vmem, ⟨25, _⟩ => ⟨S2560x128, .bf16⟩
  | .local _ .vmem, ⟨26, _⟩ => ⟨S2560x128, .bf16⟩
  | .local _ .vmem, ⟨27, _⟩ => ⟨S512x10240, .bf16⟩
  | .local _ .vmem, ⟨28, _⟩ => ⟨S512x10240, .bf16⟩
  | .local _ .vmem, ⟨29, _⟩ => ⟨S10240x128, .bf16⟩
  | .local _ .vmem, ⟨30, _⟩ => ⟨S512x128, .f32⟩
  | .local _ .vmem, ⟨31, _⟩ => ⟨S512x128, .f32⟩
  | .local _ .vmem, ⟨32, _⟩ => ⟨S2560x128, .f32⟩
  | .local _ .vmem, ⟨33, _⟩ => ⟨S2560x128, .f32⟩
  | .local _ .vmem, ⟨34, _⟩ => ⟨S2560x1, .f32⟩
  | .local _ .vmem, ⟨35, _⟩ => ⟨S2560x1, .f32⟩
  | .local _ .vmem, ⟨36, _⟩ => ⟨S2560x128, .f32⟩
  | .local _ .vmem, ⟨37, _⟩ => ⟨S2560x128, .f32⟩
  | .local _ .vmem, ⟨38, _⟩ => ⟨S1x128, .f32⟩
  | .local _ .vmem, ⟨39, _⟩ => ⟨S1x128, .f32⟩
  | .local _ .vmem, ⟨40, _⟩ => ⟨S2560x128, .f32⟩
  | .local _ .vmem, ⟨41, _⟩ => ⟨S2560x128, .f32⟩
  | .local _ .vmem, ⟨42, _⟩ => ⟨S2560x128, .f32⟩
  | .local _ .vmem, ⟨43, _⟩ => ⟨S2560x128, .f32⟩
  | .local _ .vmem, ⟨44, _⟩ => ⟨S128x128, .f32⟩
  | .local _ .vmem, ⟨45, _⟩ => ⟨S1x128, .f32⟩
  | .local _ .vmem, ⟨46, _⟩ => ⟨S2560x128, .f32⟩
  | .local _ .vmem, ⟨47, _⟩ => ⟨S2560x128, .f32⟩
  | .local _ .vmem, ⟨48, _⟩ => ⟨S2560x128, .f32⟩
  | .local _ .vmem, ⟨49, _⟩ => ⟨S2560x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_call1_v0 : Ref sig .tc := ⟨.hbm, 38, rfl⟩
abbrev main_v18 : Ref sig .tc := ⟨.hbm, 39, rfl⟩
abbrev main_cst_5 : Ref sig .tc := ⟨.hbm, 40, rfl⟩
abbrev main_call2_v0 : Ref sig .tc := ⟨.hbm, 41, rfl⟩
abbrev main_call2_v1 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc6_sem4_0 : DmaSem sig := 48
abbrev cc6_sem4_1 : DmaSem sig := 49

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2560x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2560x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2560x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2560x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2560x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2560x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x10240 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10240x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2560x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2560x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2560x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2560x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2560x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2560x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2560x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  pads_S10000x128_S10240x128_02400_000 : S10000x128.Pads (![0, 0] : Fin 2 → Nat) ![240, 0] ![0, 0] S10240x128
  h_S_ : 0 < S_.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S104857600 : S_.BroadcastsInDim S104857600 (![] : Fin 0 → Fin S104857600.rank)
  bcast_S640000_S640000x1_0 : S640000.BroadcastsInDim S640000x1 (![0] : Fin 1 → Fin S640000x1.rank)
  shapeCasts_S104857600_S10240x10240 : S104857600.ShapeCasts S10240x10240
  bitsLt_bf16_f32 : FTy.bits .bf16 < FTy.bits .f32
  bcast_S_S10000 : S_.BroadcastsInDim S10000 (![] : Fin 0 → Fin S10000.rank)
  pads_S10000_S10240_02400 : S10000.Pads (![0] : Fin 1 → Nat) ![240] ![0] S10240
  bcast_S_S10240 : S_.BroadcastsInDim S10240 (![] : Fin 0 → Fin S10240.rank)
  shapeCasts_S10240_S10240x1 : S10240.ShapeCasts S10240x1
  bcast_S_S10240x128 : S_.BroadcastsInDim S10240x128 (![] : Fin 0 → Fin S10240x128.rank)
  shapeCasts_S128_S1x128 : S128.ShapeCasts S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  packedbf16_S2560x128_S2560x128_0_0 : (Rect.unit (s := S2560x128) ![0, 0] S2560x128.size inb_S2560x128_S2560x128_0_0).PackedRows (EltTy.packing .bf16)
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S512x128_S512x128_0_0 : ∀ a, (![0, 0] : Fin 2 → Nat) a + S512x128.size a ≤ S512x128.size a
  h_S512x128 : 0 < S512x128.numel
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  broadcasts_S2560x1_S2560x128 : S2560x1.Broadcasts S2560x128
  reduces_S2560x128_S2560 : S2560x128.Reduces [1] S2560
  shapeCasts_S2560_S2560x1 : S2560.ShapeCasts S2560x1
  slices_S10240x128_S10000x128_0_0 : S10240x128.Slices ![0, 0] S10000x128
  scatter_S104857600_S640000x1_S640000_n_0_0_1_wf : ScatterDims.WF S104857600 S640000x1 S640000 [] [0] [0] 1
  scatter_S10000_S640000x1_S640000_n_0_0_1_wf : ScatterDims.WF S10000 S640000x1 S640000 [] [0] [0] 1
  dot_S2560x128_S128x128_S2560x128_1_0_0_1_n_n_wf : DotDims.WF S2560x128 S128x128 S2560x128 [1] [0] [0] [1] [] []
  dot_S512x10240_S10240x128_S512x128_1_0_0_1_n_n_wf : DotDims.WF S512x10240 S10240x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S10240x128.size a
  hwx0_0 : ∀ i : grid0.Coords, EltTy.bits .f32 = 32 ∨ (Rect.block (s := S10240x128) S2560x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x128.size a ≤ S10240x128.size a
  hwx0_3 : ∀ i : grid0.Coords, EltTy.bits .bf16 = 32 ∨ (Rect.block (s := S10240x128) S2560x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S10240x128.size a
  hwx1_2 : ∀ i : grid1.Coords, EltTy.bits .f32 = 32 ∨ (Rect.block (s := S10240x128) S512x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x128.size a ≤ S10240x128.size a
  hwx2_0 : ∀ i : grid2.Coords, EltTy.bits .f32 = 32 ∨ (Rect.block (s := S10240x128) S2560x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x1.size a ≤ S10240x1.size a
  hwx2_1 : ∀ i : grid2.Coords, EltTy.bits .f32 = 32 ∨ (Rect.block (s := S10240x1) S2560x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2560x128.size a ≤ S10240x128.size a
  hwx2_2 : ∀ i : grid2.Coords, EltTy.bits .f32 = 32 ∨ (Rect.block (s := S10240x128) S2560x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2560x128.size a ≤ S10240x128.size a
  hwx2_5 : ∀ i : grid2.Coords, EltTy.bits .f32 = 32 ∨ (Rect.block (s := S10240x128) S2560x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2560x128.size a ≤ S10240x128.size a
  hwx3_0 : ∀ i : grid3.Coords, EltTy.bits .f32 = 32 ∨ (Rect.block (s := S10240x128) S2560x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2560x128.size a ≤ S10240x128.size a
  hwx3_3 : ∀ i : grid3.Coords, EltTy.bits .bf16 = 32 ∨ (Rect.block (s := S10240x128) S2560x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x10240.size a ≤ S10240x10240.size a
  hwx4_0 : ∀ i : grid4.Coords, EltTy.bits .bf16 = 32 ∨ (Rect.block (s := S10240x10240) S512x10240.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x128.size a ≤ S10240x128.size a
  hwx4_1 : ∀ i : grid4.Coords, EltTy.bits .bf16 = 32 ∨ (Rect.block (s := S10240x128) S10240x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S10240x128.size a
  hwx4_2 : ∀ i : grid4.Coords, EltTy.bits .f32 = 32 ∨ (Rect.block (s := S10240x128) S512x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2560x128.size a ≤ S10240x128.size a
  hwx5_0 : ∀ i : grid5.Coords, EltTy.bits .f32 = 32 ∨ (Rect.block (s := S10240x128) S2560x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2560x1.size a ≤ S10240x1.size a
  hwx5_1 : ∀ i : grid5.Coords, EltTy.bits .f32 = 32 ∨ (Rect.block (s := S10240x1) S2560x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2560x128.size a ≤ S10240x128.size a
  hwx5_2 : ∀ i : grid5.Coords, EltTy.bits .f32 = 32 ∨ (Rect.block (s := S10240x128) S2560x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2560x128.size a ≤ S10240x128.size a
  hwx5_5 : ∀ i : grid5.Coords, EltTy.bits .f32 = 32 ∨ (Rect.block (s := S10240x128) S2560x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2560x128.size a ≤ S10240x128.size a
  hwx6_0 : ∀ i : grid6.Coords, EltTy.bits .f32 = 32 ∨ (Rect.block (s := S10240x128) S2560x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2560x128.size a ≤ S10240x128.size a
  hwx6_3 : ∀ i : grid6.Coords, EltTy.bits .f32 = 32 ∨ (Rect.block (s := S10240x128) S2560x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2560x128.size a ≤ S10240x128.size a
  hwx6_4 : ∀ i : grid6.Coords, EltTy.bits .f32 = 32 ∨ (Rect.block (s := S10240x128) S2560x128.size (cc6_transform_4 i) (hinb6_4 i)).WholeWords (EltTy.packing .f32)

variable [Facts₀]

def scatter_S104857600_S640000x1_S640000_n_0_0_1 : ScatterDims S104857600 S640000x1 S640000 where
  updateWindowDims := []
  insertedWindowDims := [0]
  scatterDimsToOperandDims := [0]
  indexVectorDim := 1
  wf := scatter_S104857600_S640000x1_S640000_n_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf

abbrev win0_0 : Pipeline.Window sig grid0 :=
  Pipeline.Window.ofSpec (Memref.whole main_v0) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2560x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S2560x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2560x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2560x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S2560x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33) S2560x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S2560x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v13) S512x10240.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S10240x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S512x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v35) S2560x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S2560x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v33) S2560x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v28) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v29) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v36) S2560x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v36) S2560x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v30) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v0) S2560x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v37) S2560x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩

abbrev nBuf : Space → Nat
  | .hbm => 146
  | .vmem => 0
  | .smem => 0
  | _ => 0

abbrev hbmTy0_0 (i : Nat) : BufTy := match i % 128 with
  | 0 => ⟨S10000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S1x640000, .i32⟩
  | 13 => ⟨S640000, .i32⟩
  | 14 => ⟨S1x640000, .i32⟩
  | 15 => ⟨S640000, .i32⟩
  | 16 => ⟨S10000x128, .f32⟩
  | 17 => ⟨S1x128, .f32⟩
  | 18 => ⟨S10000x128, .f32⟩
  | 19 => ⟨S10000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .f32⟩
  | 30 => ⟨S10000x128, .f32⟩
  | 31 => ⟨S640000x1, .i32⟩
  | 32 => ⟨S10000x128, .f32⟩
  | 33 => ⟨S_, .f32⟩
  | 34 => ⟨S640000, .f32⟩
  | 35 => ⟨S_, .f32⟩
  | 36 => ⟨S10000, .f32⟩
  | 37 => ⟨S640000x1, .i32⟩
  | 38 => ⟨S10000, .f32⟩
  | 39 => ⟨S_, .f32⟩
  | 40 => ⟨S_, .f32⟩
  | 41 => ⟨S10000, .f32⟩
  | 42 => ⟨S10000, .f32⟩
  | 43 => ⟨S10000x1, .f32⟩
  | 44 => ⟨S10000x128, .f32⟩
  | 45 => ⟨S10000x128, .f32⟩
  | 46 => ⟨S_, .f32⟩
  | 47 => ⟨S10000, .f32⟩
  | 48 => ⟨S10000x1, .f32⟩
  | 49 => ⟨S_, .f32⟩
  | 50 => ⟨S10000x1, .f32⟩
  | 51 => ⟨S10000x1, .f32⟩
  | 52 => ⟨S10000x128, .f32⟩
  | 53 => ⟨S10000x128, .f32⟩
  | 54 => ⟨S10000x128, .f32⟩
  | 55 => ⟨S_, .f32⟩
  | 56 => ⟨S10000, .f32⟩
  | 57 => ⟨S10000x1, .f32⟩
  | 58 => ⟨S_, .f32⟩
  | 59 => ⟨S10000x1, .f32⟩
  | 60 => ⟨S10000x1, .f32⟩
  | 61 => ⟨S10000x128, .f32⟩
  | 62 => ⟨S10000x128, .f32⟩
  | 63 => ⟨S_, .f32⟩
  | 64 => ⟨S10000x1, .f32⟩
  | 65 => ⟨S10000x1, .f32⟩
  | 66 => ⟨S10000x1, .f32⟩
  | 67 => ⟨S10000x128, .f32⟩
  | 68 => ⟨S10000x128, .f32⟩
  | 69 => ⟨S1x128, .f32⟩
  | 70 => ⟨S10000x128, .f32⟩
  | 71 => ⟨S10000x128, .f32⟩
  | 72 => ⟨S1x128, .f32⟩
  | 73 => ⟨S10000x128, .f32⟩
  | 74 => ⟨S10000x128, .f32⟩
  | 75 => ⟨S_, .f32⟩
  | 76 => ⟨S10000x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000x128, .f32⟩
  | 91 => ⟨S_, .f32⟩
  | 92 => ⟨S10000x128, .f32⟩
  | 93 => ⟨S640000x1, .i32⟩
  | 94 => ⟨S10000x128, .f32⟩
  | 95 => ⟨S_, .f32⟩
  | 96 => ⟨S640000, .f32⟩
  | 97 => ⟨S_, .f32⟩
  | 98 => ⟨S10000, .f32⟩
  | 99 => ⟨S640000x1, .i32⟩
  | 100 => ⟨S10000, .f32⟩
  | 101 => ⟨S_, .f32⟩
  | 102 => ⟨S_, .f32⟩
  | 103 => ⟨S10000, .f32⟩
  | 104 => ⟨S10000, .f32⟩
  | 105 => ⟨S10000x1, .f32⟩
  | 106 => ⟨S10000x128, .f32⟩
  | 107 => ⟨S10000x128, .f32⟩
  | 108 => ⟨S10000x128, .f32⟩
  | 109 => ⟨S_, .f32⟩
  | 110 => ⟨S10000, .f32⟩
  | 111 => ⟨S10000x1, .f32⟩
  | 112 => ⟨S_, .f32⟩
  | 113 => ⟨S10000x1, .f32⟩
  | 114 => ⟨S10000x1, .f32⟩
  | 115 => ⟨S10000x128, .f32⟩
  | 116 => ⟨S10000x128, .f32⟩
  | 117 => ⟨S10000x128, .f32⟩
  | 118 => ⟨S_, .f32⟩
  | 119 => ⟨S10000, .f32⟩
  | 120 => ⟨S10000x1, .f32⟩
  | 121 => ⟨S_, .f32⟩
  | 122 => ⟨S10000x1, .f32⟩
  | 123 => ⟨S10000x1, .f32⟩
  | 124 => ⟨S10000x128, .f32⟩
  | 125 => ⟨S10000x128, .f32⟩
  | 126 => ⟨S_, .f32⟩
  | 127 => ⟨S10000x1, .f32⟩
  | _ => ⟨S10000x128, .f32⟩

abbrev hbmTy0_1 (i : Nat) : BufTy := match i % 128 with
  | 0 => ⟨S10000x1, .f32⟩
  | 1 => ⟨S10000x1, .f32⟩
  | 2 => ⟨S10000x128, .f32⟩
  | 3 => ⟨S10000x128, .f32⟩
  | 4 => ⟨S1x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | 10 => ⟨S_, .f32⟩
  | 11 => ⟨S10000x128, .f32⟩
  | 12 => ⟨S10000x128, .f32⟩
  | 13 => ⟨S10000x128, .f32⟩
  | 14 => ⟨S1x128, .f32⟩
  | 15 => ⟨S10000x128, .f32⟩
  | 16 => ⟨S10000x128, .f32⟩
  | 17 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.Spec.lean ====
/-
  The mathematics both programs compute, stated once over the extended reals.

  A two-layer message-passing network on a graph of 10000 nodes and 640000 directed edges: each layer applies a dense
  map to every node's 128 features, averages the mapped features of a node's in-neighbours (sum over the edges that
  end at the node, divided by the in-degree clamped below at one), layer-normalises the result (plus the layer's
  input, in the second layer), scales, shifts and applies ReLU; a last dense map plus the network's input is the result.

  One program gathers and scatter-adds along the edge list; the other multiplies by the dense matrix of edge counts
  `adj d s = #{e | dst e = d ∧ src e = s}` over node arrays padded to 10240 rows. The row-level pieces below
  (`dense`, `lnRelu`) are shared by both; `meanAgg` is the edge-list form and `adj`, `invDeg` the matrix form.
-/
import Idealize.ShloMosaic.PureOps.Ideal
import Idealize.ShloMosaic.Lib.ValueIdx

noncomputable section

namespace Cert.Gnn

open Idealize.ShloMosaic Idealize.ShloMosaic.ValueIdx

/-- Index types of the rank-2 and rank-1 arrays of literal extents. -/
abbrev Idx2 (a b : Nat) : Type := (⟨2, ![a, b]⟩ : Shape).Idx
abbrev Idx1 (a : Nat) : Type := (⟨1, ![a]⟩ : Shape).Idx

/-- The float literals of the layer normalisation, kept as their patterns: the feature count 128 and the
    variance offset (the single-precision number nearest 1e-5). -/
abbrev c128 : EReal := Ideal.ofBits .f32 0x43000000#32
abbrev cEps : EReal := Ideal.ofBits .f32 0x3727C5AC#32

/-- A node as a row of the padded arrays. -/
def up (r : Fin 10000) : Fin 10240 := ⟨r.val, Nat.lt_trans r.isLt (by decide)⟩

/-! ## One row -/

/-- Feature `h` of a dense layer applied to one row: `(∑ k, x k · W[k, h]) + b h`. -/
def dense (x : Fin 128 → EReal) (W : Idx2 128 128 → EReal) (b : Fin 128 → EReal) (h : Fin 128) : EReal :=
  (∑ k : Fin 128, x k * W (ix2 k h)) + b h

/-- The mean of a row's 128 features. -/
def rowMean (v : Fin 128 → EReal) : EReal := Ideal.div (∑ k : Fin 128, v k) c128

/-- The (biased) variance of a row's 128 features. -/
def rowVar (v : Fin 128 → EReal) : EReal :=
  Ideal.div (∑ k : Fin 128, (v k - rowMean v) * (v k - rowMean v)) c128

/-- Feature `h` of a row after layer normalisation, scale `g`, shift `be` and ReLU. -/
def lnRelu (v g be : Fin 128 → EReal) (h : Fin 128) : EReal :=
  max ((v h - rowMean v) * Ideal.rsqrt (rowVar v + cEps) * g h + be h) 0

/-! ## The edge list -/

/-- The node a 32-bit edge word names: its value (node 0 for a word outside the node range, which the
    precondition excludes). -/
def node (w : BitVec 32) : Fin 10000 := if h : w.toNat < 10000 then ⟨w.toNat, h⟩ else ⟨0, by omega⟩

/-- Every edge word names a node. -/
def InRange (E : Idx2 2 640000 → BitVec 32) : Prop := ∀ i, (E i).toNat < 10000

/-- Edge `e`'s source and destination: rows 0 and 1 of the edge array. -/
def src (E : Idx2 2 640000 → BitVec 32) (e : Fin 640000) : Fin 10000 := node (E (ix2 0 e))
def dst (E : Idx2 2 640000 → BitVec 32) (e : Fin 640000) : Fin 10000 := node (E (ix2 1 e))

/-- A node's in-degree, as a sum of ones over the edges that end at it. -/
def deg (E : Idx2 2 640000 → BitVec 32) (d : Fin 10000) : EReal :=
  ∑ e ∈ Finset.univ.filter (fun e : Fin 640000 => dst E e = d), (1 : EReal)

/-- Mean aggregation along the edge list: the sum of `R` at the sources of the edges that end at `d`, over the
    in-degree clamped below at one. -/
def meanAgg (E : Idx2 2 640000 → BitVec 32) (R : Fin 10000 → Fin 128 → EReal) (d : Fin 10000) (h : Fin 128) : EReal :=
  Ideal.div (∑ e ∈ Finset.univ.filter (fun e : Fin 640000 => dst E e = d), R (src E e) h) (max 1 (deg E d))

/-- The dense matrix of edge counts over the padded node range: the number of edges from `s` to `d`, as a sum of ones. -/
def adj (E : Idx2 2 640000 → BitVec 32) (d s : Fin 10240) : EReal :=
  ∑ e ∈ Finset.univ.filter (fun e : Fin 640000 => (dst E e).val = d.val ∧ (src E e).val = s.val), (1 : EReal)

/-- The in-degree over the padded node range: zero on the 240 padding rows. -/
def degP (E : Idx2 2 640000 → BitVec 32) (r : Fin 10240) : EReal :=
  if h : r.val < 10000 then deg E ⟨r.val, h⟩ else 0

/-- The reciprocal of the clamped in-degree over the padded node range. -/
def invDeg (E : Idx2 2 640000 → BitVec 32) (r : Fin 10240) : EReal := Ideal.div 1 (max 1 (degP E r))

/-! ## The reference: arrays of 10000 rows, the edge list -/

/-- The reference's result, curried: `x0` the node features, `E` the edge array, then the three dense layers' and
    the two normalisations' parameters. -/
def refLayer1 (x0 : Fin 10000 → Fin 128 → EReal) (E : Idx2 2 640000 → BitVec 32) (W1 : Idx2 128 128 → EReal)
    (b1 g1 be1 : Fin 128 → EReal) (r : Fin 10000) (h : Fin 128) : EReal :=
  lnRelu (fun k => meanAgg E (fun r' h' => dense (x0 r') W1 b1 h') r k) g1 be1 h

def refLayer2 (X1 : Fin 10000 → Fin 128 → EReal) (E : Idx2 2 640000 → BitVec 32) (W2 : Idx2 128 128 → EReal)
    (b2 g2 be2 : Fin 128 → EReal) (r : Fin 10000) (h : Fin 128) : EReal :=
  lnRelu (fun k => X1 r k + meanAgg E (fun r' h' => dense (X1 r') W2 b2 h') r k) g2 be2 h

def refOut (x0 : Fin 10000 → Fin 128 → EReal) (E : Idx2 2 640000 → BitVec 32)
    (W1 : Idx2 128 128 → EReal) (b1 g1 be1 : Fin 128 → EReal)
    (W2 : Idx2 128 128 → EReal) (b2 g2 be2 : Fin 128 → EReal)
    (Wo : Idx2 128 128 → EReal) (bo : Fin 128 → EReal) (r : Fin 10000) (h : Fin 128) : EReal :=
  dense (refLayer2 (refLayer1 x0 E W1 b1 g1 be1) E W2 b2 g2 be2 r) Wo bo h + x0 r h

/-! ## The kernel program: arrays padded to 10240 rows, the count matrix -/

/-- A dense layer over the padded rows, the bias a `[1, 128]` array. -/
def linP (X : Idx2 10240 128 → EReal) (W : Idx2 128 128 → EReal) (b : Idx2 1 128 → EReal) : Idx2 10240 128 → EReal :=
  fun i => dense (fun k => X (ix2 (i 0) k)) W (fun h => b (ix2 0 h)) (i 1)

/-- The product with the count matrix. -/
def aggP (A : Idx2 10240 10240 → EReal) (XT : Idx2 10240 128 → EReal) : Idx2 10240 128 → EReal :=
  fun i => ∑ s : Fin 10240, A (ix2 (i 0) s) * XT (ix2 s (i 1))

/-- Scale by the reciprocal degree, add the residual, normalise, scale, shift, ReLU. -/
def lnP (AG : Idx2 10240 128 → EReal) (inv : Idx2 10240 1 → EReal) (res : Idx2 10240 128 → EReal)
    (g be : Idx2 1 128 → EReal) : Idx2 10240 128 → EReal :=
  fun i => lnRelu (fun k => AG (ix2 (i 0) k) * inv (ix2 (i 0) 0) + res (ix2 (i 0) k))
    (fun h => g (ix2 0 h)) (fun h => be (ix2 0 h)) (i 1)

/-- A dense layer plus a residual array. -/
def linResP (X : Idx2 10240 128 → EReal) (W : Idx2 128 128 → EReal) (b : Idx2 1 128 → EReal)
    (res : Idx2 10240 128 → EReal) : Idx2 10240 128 → EReal :=
  fun i => linP X W b i + res i

/-- The kernel program's padded result from the arrays its first region finds: the padded features `X0p`, the count
    matrix `A`, the reciprocal degrees `inv`, a zero array `Z`, and the parameters as `[1, 128]` rows. -/
def kerOutP (X0p : Idx2 10240 128 → EReal) (A : Idx2 10240 10240 → EReal) (inv : Idx2 10240 1 → EReal)
    (Z : Idx2 10240 128 → EReal)
    (W1 : Idx2 128 128 → EReal) (b1 g1 be1 : Idx2 1 128 → EReal)
    (W2 : Idx2 128 128 → EReal) (b2 g2 be2 : Idx2 1 128 → EReal)
    (Wo : Idx2 128 128 → EReal) (bo : Idx2 1 128 → EReal) : Idx2 10240 128 → EReal :=
  let X := lnP (aggP A (linP X0p W1 b1)) inv Z g1 be1
  let X2 := lnP (aggP A (linP X W2 b2)) inv X g2 be2
  linResP X2 Wo bo X0p

end Cert.Gnn

end
-- ==== Proof.KLin.lean ====
import proofs.«423882_j12249246728934_2_alg».proof.Proof.Gen.KernelIdeal.Frame
import proofs.«423882_j12249246728934_2_alg».proof.Proof.Spec
import Idealize.ShloMosaic.Lib.Pipeline.Value
import Idealize.ShloMosaic.Lib.ValueIdx
import Idealize.ShloMosaic.PureOps.Ideal.Laws
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KLin
variable (V : (c : Dev nD) → (b : Ref sig .tc) → Buf (Elt Ideal) ((c : Thread nD τ).loc b))

/-! ## The matrix product's index maps, axis by axis -/

theorem lhs_mm_0 (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
theorem lhs_mm_1 (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
theorem rhs_mm_0 (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
theorem rhs_mm_1 (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-- The product of a row block with the weights into a zero accumulator, at an index: the sum over the 128 features. -/
theorem mm_apply (l : FVec Ideal S2560x128 .bf16) (r : FVec Ideal S128x128 .bf16) (p : Fin 2560) (q : Fin 128) :
    matmul dot_S2560x128_S128x128_S2560x128_1_0_0_1_n_n none l r (constant (F := Ideal) S2560x128 .f32 0x00000000#32) (ix2 p q)
      = ∑ k : Fin 128, l (ix2 p k) * r (ix2 k q) := by
  show FloatOps.matmul dot_S2560x128_S128x128_S2560x128_1_0_0_1_n_n none l r (constant (F := Ideal) S2560x128 .f32 0x00000000#32) (ix2 p q) = _
  rw [Ideal.matmul_constant_zero_apply, ← Equiv.sum_comp (ValueIdx.contrEquiv1 dot_S2560x128_S128x128_S2560x128_1_0_0_1_n_n 128 rfl rfl).symm]
  refine Finset.sum_congr rfl fun k _ => ?_
  have hk := ValueIdx.contrEquiv1_symm_val dot_S2560x128_S128x128_S2560x128_1_0_0_1_n_n 128 rfl rfl k
  have el : dot_S2560x128_S128x128_S2560x128_1_0_0_1_n_n.lhsIdx (ix2 p q) ((ValueIdx.contrEquiv1 dot_S2560x128_S128x128_S2560x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2560x128_S128x128_S2560x128_1_0_0_1_n_n.rhsIdx (ix2 p q) ((ValueIdx.contrEquiv1 dot_S2560x128_S128x128_S2560x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The bias row broadcast over the rows, at an index. -/
theorem bias_apply (b : FVec Ideal S1x128 .f32) (p : Fin 2560) (q : Fin 128) :
    broadcastTo S2560x128 b broadcasts_S1x128_S2560x128 (ix2 p q) = b (ix2 0 q) :=
  broadcastTo_apply b broadcasts_S1x128_S2560x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The zero offsets of a whole-buffer access. -/
theorem hz : (![0, 0] : Fin 2 → Nat) = fun _ => 0 := funext fun a => by fin_cases a <;> rfl

/-! ## Region 0: from blocks to the array -/

/-- The body's stored value of region 0 at an index of its block: the dense layer of the block's row. -/
theorem pay0_apply (x : Vec Ideal S2560x128 .f32) (w : Vec Ideal S128x128 .f32) (b : Vec Ideal S1x128 .f32) (p : Fin 2560) (q : Fin 128) :
    k0_pay1 x w b (ix2 p q) = dense (fun k => x (ix2 p k)) w (fun h => b (ix2 0 h)) q := by
  unfold k0_pay1
  simp only [shapeCast_self]
  rw [truncf_apply, addf_apply, mm_apply, bias_apply]
  rfl

/-- The stored value at an index of the block, by the index's coordinates. -/
theorem pay0_at (x : Vec Ideal S2560x128 .f32) (w : Vec Ideal S128x128 .f32) (b : Vec Ideal S1x128 .f32) (j : S2560x128.Idx) :
    k0_pay1 x w b j = dense (fun k => x (ix2 (j 0) k)) w (fun h => b (ix2 0 h)) (j 1) := by
  obtain ⟨p, q, rfl⟩ : ∃ (p : Fin 2560) (q : Fin 128), j = ix2 p q := ⟨j 0, j 1, eq_ix2 j⟩
  exact pay0_apply x w b p q

/-- The stored value at an index of a block whose row is row `i 0` of the array `X`, whose weights and bias are `W` and
    `B`: the dense layer of the arrays at the array's index `i`. -/
theorem pay0_point (X : Idx2 10240 128 → EReal) (W : Idx2 128 128 → EReal) (B : Idx2 1 128 → EReal)
    (x : Vec Ideal S2560x128 .f32) (w : Vec Ideal S128x128 .f32) (b : Vec Ideal S1x128 .f32)
    (j : S2560x128.Idx) (i : S10240x128.Idx)
    (hx : ∀ k : Fin 128, x (ix2 (j 0) k) = X (ix2 (i 0) k)) (hw : w = W)
    (hb : ∀ h : Fin 128, b (ix2 0 h) = B (ix2 0 h)) (hi : i 1 = j 1) :
    k0_pay1 x w b j = linP X W B i := by
  rw [pay0_at]
  subst hw
  unfold linP
  rw [hi]
  simp only [hx, hb]

/-- The printed index maps over the grid: the row blocks of the input and of the output move together; the weights
    and the bias stay at block 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the dense layer of the arrays the region finds. -/
theorem flushed0_eq (c : Dev nD) (t : Fin cfg0.N) :
    (dat0 (F := Ideal) V c).flushed 3 t = ((cfg0.win 3).blk t).view.read (Elt Ideal) (linP (V c main_v0) (V c main_arg2) (V c main_v24)) := by
  show (cfg0.win 3).cut (grid0.coords t) ((dat0 V c).after 3 t) = _
  rw [after0_3]
  unfold out0_3
  rw [View.canon_unit_zero hz]
  simp only [View.ld_unit_zero (S := S2560x128) hz, View.ld_unit_zero (S := S128x128) hz, View.ld_unit_zero (S := S1x128) hz]
  obtain ⟨e0, e1, e2, e3, e4, e5, e6, e7⟩ := idx_facts0 t
  funext j
  show k0_pay1 (iblk0 V c 0 t) (iblk0 V c 1 t) (iblk0 V c 2 t) j
    = linP (V c main_v0) (V c main_arg2) (V c main_v24) (((cfg0.win 3).blk t).view.emb j)
  refine pay0_point _ _ _ _ _ _ j _ (fun k => ?_) ?_ (fun h => ?_) ?_
  · show V c main_v0 (((cfg0.win 0).blk t).view.emb (ix2 (j 0) k)) = V c main_v0 (ix2 ((((cfg0.win 3).blk t).view.emb j) 0) k)
    refine congrArg _ (funext fun a => Fin.ext ?_)
    match a with
    | ⟨0, _⟩ => show win0_0.index t (0 : Fin 2) * 2560 + 1 * (j 0).val = win0_3.index t (0 : Fin 2) * 2560 + 1 * (j 0).val; omega
    | ⟨1, _⟩ => show win0_0.index t (1 : Fin 2) * 128 + 1 * k.val = k.val; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show V c main_v24 (((cfg0.win 2).blk t).view.emb (ix2 0 h)) = V c main_v24 (ix2 0 h)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * h.val = h.val; omega
  · apply Fin.ext
    show win0_3.index t (1 : Fin 2) * 128 + 1 * (j 1).val = (j 1).val
    omega

/-- An index of the output array is in point `t`'s block iff each coordinate is in the block's range on its axis. -/
theorem mem_blk0 (t : Fin cfg0.N) (i : S10240x128.Idx) :
    i ∈ ((cfg0.win 3).blk t).view.set ↔ ∀ a : Fin 2, win0_3.index t a * S2560x128.size a ≤ (i a).val ∧ (i a).val < win0_3.index t a * S2560x128.size a + S2560x128.size a := by
  show i ∈ ((View.whole main_v31).slice (win0_3.rect t)).set ↔ _
  rw [View.set_slice_whole, Rect.mem_set_unit]
  exact Iff.rfl

/-- Every index of the output array is in the block of the point its row's quotient by 2560 names. -/
theorem cover0 (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  have hN : cfg0.N = 4 := N_0
  let t : Fin cfg0.N := ⟨(i 0).val / 2560, by rw [hN]; omega⟩
  have ht : t.val = (i 0).val / 2560 := rfl
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 2560 ≤ (i 0).val ∧ (i 0).val < win0_3.index t (0 : Fin 2) * 2560 + 2560; omega
  | ⟨1, _⟩ => show win0_3.index t (1 : Fin 2) * 128 ≤ (i 1).val ∧ (i 1).val < win0_3.index t (1 : Fin 2) * 128 + 128; omega

/-- Region 0 (the first dense layer): its output array after the run is the dense layer of the arrays the region finds. -/
theorem arr0 (c : Dev nD) : (dat0 (F := Ideal) V c).arrAt 3 cfg0.N = linP (V c main_v0) (V c main_arg2) (V c main_v24) :=
  (dat0 (F := Ideal) V c).arrAt_eq_of_cover 3 _ (fun t _ => flushed0_eq V c t) cover0

/-! ## Region 3: from blocks to the array -/

/-- The body's stored value of region 3 at an index of its block: the dense layer of the block's row. -/
theorem pay3_apply (x : Vec Ideal S2560x128 .f32) (w : Vec Ideal S128x128 .f32) (b : Vec Ideal S1x128 .f32) (p : Fin 2560) (q : Fin 128) :
    k3_pay1 x w b (ix2 p q) = dense (fun k => x (ix2 p k)) w (fun h => b (ix2 0 h)) q := by
  unfold k3_pay1
  simp only [shapeCast_self]
  rw [truncf_apply, addf_apply, mm_apply, bias_apply]
  rfl

/-- The stored value at an index of the block, by the index's coordinates. -/
theorem pay3_at (x : Vec Ideal S2560x128 .f32) (w : Vec Ideal S128x128 .f32) (b : Vec Ideal S1x128 .f32) (j : S2560x128.Idx) :
    k3_pay1 x w b j = dense (fun k => x (ix2 (j 0) k)) w (fun h => b (ix2 0 h)) (j 1) := by
  obtain ⟨p, q, rfl⟩ : ∃ (p : Fin 2560) (q : Fin 128), j = ix2 p q := ⟨j 0, j 1, eq_ix2 j⟩
  exact pay3_apply x w b p q

/-- The stored value at an index of a block whose row is row `i 0` of the array `X`, whose weights and bias are `W` and
    `B`: the dense layer of the arrays at the array's index `i`. -/
theorem pay3_point (X : Idx2 10240 128 → EReal) (W : Idx2 128 128 → EReal) (B : Idx2 1 128 → EReal)
    (x : Vec Ideal S2560x128 .f32) (w : Vec Ideal S128x128 .f32) (b : Vec Ideal S1x128 .f32)
    (j : S2560x128.Idx) (i : S10240x128.Idx)
    (hx : ∀ k : Fin 128, x (ix2 (j 0) k) = X (ix2 (i 0) k)) (hw : w = W)
    (hb : ∀ h : Fin 128, b (ix2 0 h) = B (ix2 0 h)) (hi : i 1 = j 1) :
    k3_pay1 x w b j = linP X W B i := by
  rw [pay3_at]
  subst hw
  unfold linP
  rw [hi]
  simp only [hx, hb]

/-- The printed index maps over the grid: the row blocks of the input and of the output move together; the weights
    and the bias stay at block 0. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point `t` writes back is block `t` of the dense layer of the arrays the region finds. -/
theorem flushed3_eq (c : Dev nD) (t : Fin cfg3.N) :
    (dat3 (F := Ideal) V c).flushed 3 t = ((cfg3.win 3).blk t).view.read (Elt Ideal) (linP (V c main_v33) (V c main_arg6) (V c main_v27)) := by
  show (cfg3.win 3).cut (grid3.coords t) ((dat3 V c).after 3 t) = _
  rw [after3_3]
  unfold out3_3
  rw [View.canon_unit_zero hz]
  simp only [View.ld_unit_zero (S := S2560x128) hz, View.ld_unit_zero (S := S128x128) hz, View.ld_unit_zero (S := S1x128) hz]
  obtain ⟨e0, e1, e2, e3, e4, e5, e6, e7⟩ := idx_facts3 t
  funext j
  show k3_pay1 (iblk3 V c 0 t) (iblk3 V c 1 t) (iblk3 V c 2 t) j
    = linP (V c main_v33) (V c main_arg6) (V c main_v27) (((cfg3.win 3).blk t).view.emb j)
  refine pay3_point _ _ _ _ _ _ j _ (fun k => ?_) ?_ (fun h => ?_) ?_
  · show V c main_v33 (((cfg3.win 0).blk t).view.emb (ix2 (j 0) k)) = V c main_v33 (ix2 ((((cfg3.win 3).blk t).view.emb j) 0) k)
    refine congrArg _ (funext fun a => Fin.ext ?_)
    match a with
    | ⟨0, _⟩ => show win3_0.index t (0 : Fin 2) * 2560 + 1 * (j 0).val = win3_3.index t (0 : Fin 2) * 2560 + 1 * (j 0).val; omega
    | ⟨1, _⟩ => show win3_0.index t (1 : Fin 2) * 128 + 1 * k.val = k.val; omega
  · funext y
    show V c main_arg6 (((cfg3.win 1).blk t).view.emb y) = V c main_arg6 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · show V c main_v27 (((cfg3.win 2).blk t).view.emb (ix2 0 h)) = V c main_v27 (ix2 0 h)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * h.val = h.val; omega
  · apply Fin.ext
    show win3_3.index t (1 : Fin 2) * 128 + 1 * (j 1).val = (j 1).val
    omega

/-- An index of the output array is in point `t`'s block iff each coordinate is in the block's range on its axis. -/
theorem mem_blk3 (t : Fin cfg3.N) (i : S10240x128.Idx) :
    i ∈ ((cfg3.win 3).blk t).view.set ↔ ∀ a : Fin 2, win3_3.index t a * S2560x128.size a ≤ (i a).val ∧ (i a).val < win3_3.index t a * S2560x128.size a + S2560x128.size a := by
  show i ∈ ((View.whole main_v34).slice (win3_3.rect t)).set ↔ _
  rw [View.set_slice_whole, Rect.mem_set_unit]
  exact Iff.rfl

/-- Every index of the output array is in the block of the point its row's quotient by 2560 names. -/
theorem cover3 (i : S10240x128.Idx) :
    ∃ t : Fin cfg3.N, (cfg3.win 3).flush t = true ∧ i ∈ ((cfg3.win 3).blk t).view.set := by
  have hi0 : (i 0).val < 10240 := (i 0).isLt
  have hi1 : (i 1).val < 128 := (i 1).isLt
  have hN : cfg3.N = 4 := N_3
  let t : Fin cfg3.N := ⟨(i 0).val / 2560, by rw [hN]; omega⟩
  have ht : t.val = (i 0).val / 2560 := rfl
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 2560 ≤ (i 0).val ∧ (i 0).val < win3_3.index t (0 : Fin 2) * 2560 + 2560; omega
  | ⟨1, _⟩ => show win3_3.index t (1 : Fin 2) * 128 ≤ (i 1).val ∧ (i 1).val < win3_3.index t (1 : Fin 2) * 128 + 128; omega

/-- Region 3 (the second dense layer): its output array after the run is the dense layer of the arrays the region finds. -/
theorem arr3 (c : Dev nD) : (dat3 (F := Ideal) V c).arrAt 3 cfg3.N = linP (V c main_v33) (V c main_arg6) (V c main_v27) :=
  (dat3 (F := Ideal) V c).arrAt_eq_of_cover 3 _ (fun t _ => flushed3_eq V c t) cover3

/-! ## Region 6: from blocks to the array -/

/-- The body's stored value of region 6 at an index of its block: the dense layer of the block's row plus the
    residual block's element. -/
theorem pay6_apply (x : Vec Ideal S2560x128 .f32) (w : Vec Ideal S128x128 .f32) (b : Vec Ideal S1x128 .f32)
    (r : Vec Ideal S2560x128 .f32) (p : Fin 2560) (q : Fin 128) :
    k6_pay1 x w b r (ix2 p q) = dense (fun k => x (ix2 p k)) w (fun h => b (ix2 0 h)) q + r (ix2 p q) := by
  unfold k6_pay1
  simp only [shapeCast_self]
  rw [addf_apply, addf_apply, mm_apply, bias_apply]
  rfl

/-- The stored value at an index of the block, by the index's coordinates. -/
theorem pay6_at (x : Vec Ideal S2560x128 .f32) (w : Vec Ideal S128x128 .f32) (b : Vec Ideal S1x128 .f32)
    (r : Vec Ideal S2560x128 .f32) (j : S2560x128.Idx) :
    k6_pay1 x w b r j = dense (fun k => x (ix2 (j 0) k)) w (fun h => b (ix2 0 h)) (j 1) + r j := by
  obtain ⟨p, q, rfl⟩ : ∃ (p : Fin 2560) (q : Fin 128), j = ix2 p q := ⟨j 0, j 1, eq_ix2 j⟩
  exact pay6_apply x w b r p q

/-- The stored value at an index of a block whose row is row `i 0` of the array `X`, whose weights and bias are `W` and
    `B` and whose residual element is `R i`: the dense layer plus the residual at the array's index `i`. -/
theorem pay6_point (X : Idx2 10240 128 → EReal) (W : Idx2 128 128 → EReal) (B : Idx2 1 128 → EReal) (R : Idx2 10240 128 → EReal)
    (x : Vec Ideal S2560x128 .f32) (w : Vec Ideal S128x128 .f32) (b : Vec Ideal S1x128 .f32) (r : Vec Ideal S2560x128 .f32)
    (j : S2560x128.Idx) (i : S10240x128.Idx)
    (hx : ∀ k : Fin 128, x (ix2 (j 0) k) = X (ix2 (i 0) k)) (hw : w = W)
    (hb : ∀ h : Fin 128, b (ix2 0 h) = B (ix2 0 h)) (hr : r j = R i) (hi : i 1 = j 1) :
    k6_pay1 x w b r j = linResP X W B R i := by
  rw [pay6_at, hr]
  subst hw
  unfold linResP linP
  rw [hi]
  simp only [hx, hb]

/-- The printed index maps over the grid: the row blocks of the input, of the residual and of the output move
    together; the weights and the bias stay at block 0. -/
theorem idx_facts6 : ∀ t : Fin cfg6.N, win6_0.index t (0 : Fin 2) = win6_4.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = win6_4.index t (0 : Fin 2) ∧ win6_3.index t (1 : Fin 2) = 0
    ∧ win6_4.index t (0 : Fin 2) = t.val ∧ win6_4.index t (1 : Fin 2) = 0 :=
  (by decide +kernel : ∀ t : Fin grid6.N, _)

/-- What grid point `t` writes back is block `t` of the dense layer plus the residual of the arrays the region finds. -/
theorem flushed6_eq (c : Dev nD) (t : Fin cfg6.N) :
    (dat6 (F := Ideal) V c).flushed 4 t = ((cfg6.win 4).blk t).view.read (Elt Ideal) (linResP (V c main_v36) (V c main_arg10) (V c main_v30) (V c main_v0)) := by
  show (cfg6.win 4).cut (grid6.coords t) ((dat6 V c).after 4 t) = _
  rw [after6_4]
  unfold out6_4
  rw [View.canon_unit_zero hz]
  simp only [View.ld_unit_zero (S := S2560x128) hz, View.ld_unit_zero (S := S128x128) hz, View.ld_unit_zero (S := S1x128) hz]
  obtain ⟨e0, e1, e2, e3, e4, e5, e6, e7, e8, e9⟩ := idx_facts6 t
  funext j
  show k6_pay1 (iblk6 V c 0 t) (iblk6 V c 1 t) (iblk6 V c 2 t) (iblk6 V c 3 t) j
    = linResP (V c main_v36) (V c main_arg10) (V c main_v30) (V c main_v0) (((cfg6.win 4).blk t).view.emb j)
  refine pay6_point _ _ _ _ _ _ _ _ j _ (fun k => ?_) ?_ (fun h => ?_) ?_ ?_
  · show V c main_v36 (((cfg6.win 0).blk t).view.emb (ix2 (j 0) k)) = V c main_v36 (ix2 ((((cfg6.win 4).blk t).view.emb j) 0) k)
    refine congrArg _ (funext fun a => Fin.ext ?_)
    match a with
    | ⟨0, _⟩ => show win6_0.index t (0 : Fin 2) * 2560 + 1 * (j 0).val = win6_4.index t (0 : Fin 2) * 2560 + 1 * (j 0).val; omega
    | ⟨1, _⟩ => show win6_0.index t (1 : Fin 2) * 128 + 1 * k.val = k.val; omega
  · funext y
    show V c main_arg10 (((cfg6.win 1).blk t).view.emb y) = V c main_arg10 y
    refine congrArg _ (funext fun a => Fin.ext ?_)
    match a with
    | ⟨0, _⟩ => show win6_1.index t (0 : Fin 2) * 128 + 1 * (y 0).val = (y 0).val; omega
    | ⟨1, _⟩ => show win6_1.index t (1 : Fin 2) * 128 + 1 * (y 1).val = (y 1).val; omega
  · show V c main_v30 (((cfg6.win 2).blk t).view.emb (ix2 0 h)) = V c main_v30 (ix2 0 h)
    refine congrArg _ (funext fun a => Fin.ext ?_)
    match a with
    | ⟨0, _⟩ => show win6_2.index t (0 : Fin 2) * 1 + 1 * 0 = 0; omega
    | ⟨1, _⟩ => show win6_2.index t (1 : Fin 2) * 128 + 1 * h.val = h.val; omega
  · show V c main_v0 (((cfg6.win 3).blk t).view.emb j) = V c main_v0 (((cfg6.win 4).blk t).view.emb j)
    refine congrArg _ (funext fun a => Fin.ext ?_)
    match a with
    | ⟨0, _⟩ => show win6_3.index t (0 : Fin 2) * 2560 + 1 * (j 0).val = win6_4.index t (0 : Fin 2) * 2560 + 1 * (j 0).val; omega
    | ⟨1, _⟩ => show win6_3.index t (1 : Fin 2) * 128 + 1 * (j 1).val = win6_4.index t (1 : Fin 2) * 128 + 1 * (j 1).val; omega
  · apply Fin.ext
    show win6_4.index t (1 : Fin 2) * 128 + 1 * (j 1).val = (j 1).val
    omega

/-- An index of the output array is in point `t`'s block iff each coordinate is in the block's range on its axis. -/
theorem mem_blk6 (t : Fin cfg6.N) (i : S10240x128.Idx) :
    i ∈ ((cfg6.win 4).blk t).view.set ↔ ∀ a : Fin 2, win6_4.index t a * S2560x128.size a ≤ (i a).val ∧ (i a).val < win6_4.index t a * S2560x128.size a + S2560x128.size a := by
  show i ∈ ((View.whole main_v37).slice (win6_4.rect t)).set ↔ _
  rw [View.set_slice_whole, Rect.mem_set_unit]
  exact Iff.rfl

/-- Every index of the output array is in the block of the point its row's quotient by 2560 names. -/
theorem cover6 (i : S10240x128.Idx) :
    ∃ t : Fin cfg6.N, (cfg6.win 4).flush t = true ∧ i ∈ ((cfg6.win 4).blk t).view.set := by
  have hi0 : (i 0).val < 10240 := (i 0).isLt
  have hi1 : (i 1).val < 128 := (i 1).isLt
  have hN : cfg6.N = 4 := N_6
  let t : Fin cfg6.N := ⟨(i 0).val / 2560, by rw [hN]; omega⟩
  have ht : t.val = (i 0).val / 2560 := rfl
  obtain ⟨e0, e1, e2, e3, e4, e5, e6, e7, e8, e9⟩ := idx_facts6 t
  refine ⟨t, flush6_4 t, ?_⟩
  rw [mem_blk6]
  intro a
  match a with
  | ⟨0, _⟩ => show win6_4.index t (0 : Fin 2) * 2560 ≤ (i 0).val ∧ (i 0).val < win6_4.index t (0 : Fin 2) * 2560 + 2560; omega
  | ⟨1, _⟩ => show win6_4.index t (1 : Fin 2) * 128 ≤ (i 1).val ∧ (i 1).val < win6_4.index t (1 : Fin 2) * 128 + 128; omega

/-- Region 6 (the output dense layer plus the residual input). -/
theorem arr6 (c : Dev nD) : (dat6 (F := Ideal) V c).arrAt 4 cfg6.N = linResP (V c main_v36) (V c main_arg10) (V c main_v30) (V c main_v0) :=
  (dat6 (F := Ideal) V c).arrAt_eq_of_cover 4 _ (fun t _ => flushed6_eq V c t) cover6

end Cert.Gnn.KLin
end
-- ==== Proof.KAgg.lean ====
/-
  The two aggregation regions. Each multiplies the 10240 × 10240 count matrix, 512 rows at a time over a grid of 20
  points, by the whole 10240 × 128 array of mapped features, into a zero accumulator: the output array ends holding
  entry (r, q) = ∑ s, A (r, s) · XT (s, q), row r written by grid point r / 512.
-/
import proofs.«423882_j12249246728934_2_alg».proof.Proof.Gen.KernelIdeal.Frame
import proofs.«423882_j12249246728934_2_alg».proof.Proof.Spec
import Idealize.ShloMosaic.Lib.Pipeline.Value
import Idealize.ShloMosaic.Lib.ValueIdx
import Idealize.ShloMosaic.PureOps.Ideal.Laws
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KAgg
variable (V : (c : Dev nD) → (b : Ref sig .tc) → Buf (Elt Ideal) ((c : Thread nD τ).loc b))

/-! ## The block product at an index

The body multiplies a 512 × 10240 block of the count matrix by the whole 10240 × 128 feature array into a zero
accumulator: entry (p, q) of the result is the sum over s of block entry (p, s) times feature entry (s, q). -/

private theorem hz : (![0, 0] : Fin 2 → Nat) = fun _ => 0 := funext fun a => by fin_cases a <;> rfl

/-- The product's left operand index: its row is the output's row, -/
private theorem lhs_agg_0 (i : S512x128.Idx) (q : dot_S512x10240_S10240x128_S512x128_1_0_0_1_n_n.contr.Idx) :
    (dot_S512x10240_S10240x128_S512x128_1_0_0_1_n_n.lhsIdx i q 0).val = (i 0).val := by
  unfold DotDims.lhsIdx
  rw [dif_neg (show ¬(0 : Fin S512x10240.rank) ∈ dot_S512x10240_S10240x128_S512x128_1_0_0_1_n_n.lhsBatch by decide), dif_pos (show (0 : Fin S512x10240.rank) ∈ dot_S512x10240_S10240x128_S512x128_1_0_0_1_n_n.lhsNonContracting by decide)]
  rfl
/-- its column the summation index; -/
private theorem lhs_agg_1 (i : S512x128.Idx) (q : dot_S512x10240_S10240x128_S512x128_1_0_0_1_n_n.contr.Idx) :
    (dot_S512x10240_S10240x128_S512x128_1_0_0_1_n_n.lhsIdx i q 1).val = (q ⟨0, by decide⟩).val :=
  dot_S512x10240_S10240x128_S512x128_1_0_0_1_n_n.lhsIdx_val_of_single rfl i q
/-- the right operand's row is the summation index, -/
private theorem rhs_agg_0 (i : S512x128.Idx) (q : dot_S512x10240_S10240x128_S512x128_1_0_0_1_n_n.contr.Idx) :
    (dot_S512x10240_S10240x128_S512x128_1_0_0_1_n_n.rhsIdx i q 0).val = (q ⟨0, by decide⟩).val :=
  dot_S512x10240_S10240x128_S512x128_1_0_0_1_n_n.rhsIdx_val_of_single rfl i q
/-- its column the output's column. -/
private theorem rhs_agg_1 (i : S512x128.Idx) (q : dot_S512x10240_S10240x128_S512x128_1_0_0_1_n_n.contr.Idx) :
    (dot_S512x10240_S10240x128_S512x128_1_0_0_1_n_n.rhsIdx i q 1).val = (i 1).val := by
  unfold DotDims.rhsIdx
  rw [dif_neg (show ¬(1 : Fin S10240x128.rank) ∈ dot_S512x10240_S10240x128_S512x128_1_0_0_1_n_n.rhsBatch by decide), dif_pos (show (1 : Fin S10240x128.rank) ∈ dot_S512x10240_S10240x128_S512x128_1_0_0_1_n_n.rhsNonContracting by decide)]
  rfl

/-- The product into the zero accumulator, at an index. -/
private theorem mm_apply (a : FVec Ideal S512x10240 .bf16) (x : FVec Ideal S10240x128 .bf16) (p : Fin 512) (q : Fin 128) :
    FloatOps.matmul dot_S512x10240_S10240x128_S512x128_1_0_0_1_n_n none a x (constant S512x128 .f32 0x00000000#32) (ix2 p q)
      = ∑ s : Fin 10240, a (ix2 p s) * x (ix2 s q) := by
  rw [Ideal.matmul_constant_zero_apply, ← Equiv.sum_comp (ValueIdx.contrEquiv1 dot_S512x10240_S10240x128_S512x128_1_0_0_1_n_n 10240 rfl rfl).symm]
  refine Finset.sum_congr rfl fun k _ => ?_
  have hk := ValueIdx.contrEquiv1_symm_val dot_S512x10240_S10240x128_S512x128_1_0_0_1_n_n 10240 rfl rfl k
  have el : dot_S512x10240_S10240x128_S512x128_1_0_0_1_n_n.lhsIdx (ix2 p q) ((ValueIdx.contrEquiv1 dot_S512x10240_S10240x128_S512x128_1_0_0_1_n_n 10240 rfl rfl).symm k) = ix2 p k := funext fun a => Fin.ext (by
    match a with
    | ⟨0, _⟩ => exact lhs_agg_0 _ _
    | ⟨1, _⟩ => exact (lhs_agg_1 _ _).trans hk)
  have er : dot_S512x10240_S10240x128_S512x128_1_0_0_1_n_n.rhsIdx (ix2 p q) ((ValueIdx.contrEquiv1 dot_S512x10240_S10240x128_S512x128_1_0_0_1_n_n 10240 rfl rfl).symm k) = ix2 k q := funext fun a => Fin.ext (by
    match a with
    | ⟨0, _⟩ => exact (rhs_agg_0 _ _).trans hk
    | ⟨1, _⟩ => exact rhs_agg_1 _ _)
  rw [el, er]

/-- Region 1's payload at an index. -/
private theorem pay1_apply (a : Vec Ideal S512x10240 .bf16) (x : Vec Ideal S10240x128 .bf16) (p : Fin 512) (q : Fin 128) :
    k1_pay1 (F := Ideal) a x (ix2 p q) = ∑ s : Fin 10240, a (ix2 p s) * x (ix2 s q) := by
  unfold k1_pay1
  rw [shapeCast_self, shapeCast_self]
  exact mm_apply a x p q

/-- Region 4's payload at an index. -/
private theorem pay4_apply (a : Vec Ideal S512x10240 .bf16) (x : Vec Ideal S10240x128 .bf16) (p : Fin 512) (q : Fin 128) :
    k4_pay1 (F := Ideal) a x (ix2 p q) = ∑ s : Fin 10240, a (ix2 p s) * x (ix2 s q) := by
  unfold k4_pay1
  rw [shapeCast_self, shapeCast_self]
  exact mm_apply a x p q

/-! ## Region 1: from the blocks to the array

Grid point t multiplies rows 512·t … 512·t + 511 of the count matrix by the whole feature array and writes the
512 × 128 result over the same rows of the output; row r of the output is written by point r / 512. -/

/-- The printed index maps over the 20 grid points: the count matrix's block and the output's block are at block
    row t, the feature array's one block at the origin. -/
private theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The payload of a block whose row p is row r of the count matrix, against the whole feature array, is the
    product's entry (r, q). -/
private theorem blk1_eq (A : Idx2 10240 10240 → EReal) (X : Idx2 10240 128 → EReal)
    (a : Vec Ideal S512x10240 .bf16) (x : Vec Ideal S10240x128 .bf16) (p : Fin 512) (q : Fin 128) (r : Fin 10240)
    (ha : ∀ s : Fin 10240, a (ix2 p s) = A (ix2 r s)) (hx : ∀ s : Fin 10240, x (ix2 s q) = X (ix2 s q)) :
    k1_pay1 (F := Ideal) a x (ix2 p q) = aggP A X (ix2 r q) := by
  rw [pay1_apply]
  show _ = ∑ s : Fin 10240, A (ix2 r s) * X (ix2 s q)
  exact Finset.sum_congr rfl fun s _ => by rw [ha s, hx s]

/-- What point t writes back is block t of the product. -/
private theorem flushed1_eq (c : Dev nD) (t : Fin cfg1.N) :
    (dat1 (F := Ideal) V c).flushed 2 t = ((cfg1.win 2).blk t).view.read (Elt Ideal) (aggP (V c main_v13) (V c main_v31)) := by
  show (cfg1.win 2).cut (grid1.coords t) ((dat1 V c).after 2 t) = _
  rw [after1_2]
  unfold out1_2
  rw [View.canon_unit_zero hz]
  simp only [View.ld_unit_zero (S := S512x10240) hz, View.ld_unit_zero (S := S10240x128) hz]
  obtain ⟨e0, e1, e2, e3, e4, e5⟩ := idx_facts1 t
  have ht : t.val < 20 := lt_of_lt_of_eq t.isLt N_1
  funext j
  obtain ⟨p, q, rfl⟩ : ∃ (p : Fin 512) (q : Fin 128), j = ix2 p q := ⟨j 0, j 1, eq_ix2 j⟩
  have hemb : ((cfg1.win 2).blk t).view.emb (ix2 p q) = ix2 (⟨t.val * 512 + p.val, by omega⟩ : Fin 10240) q := by
    funext a; apply Fin.ext
    match a with
    | ⟨0, _⟩ => show win1_2.index t (0 : Fin 2) * 512 + 1 * p.val = t.val * 512 + p.val; omega
    | ⟨1, _⟩ => show win1_2.index t (1 : Fin 2) * 128 + 1 * q.val = q.val; omega
  show k1_pay1 (F := Ideal) (iblk1 V c 0 t) (iblk1 V c 1 t) (ix2 p q) = aggP (V c main_v13) (V c main_v31) (((cfg1.win 2).blk t).view.emb (ix2 p q))
  refine (blk1_eq (V c main_v13) (V c main_v31) (iblk1 V c 0 t) (iblk1 V c 1 t) p q ⟨t.val * 512 + p.val, by omega⟩ ?_ ?_).trans
    (congrArg (aggP (V c main_v13) (V c main_v31)) hemb.symm)
  · intro s
    show V c main_v13 (((cfg1.win 0).blk t).view.emb (ix2 p s)) = V c main_v13 (ix2 (⟨t.val * 512 + p.val, by omega⟩ : Fin 10240) s)
    refine congrArg _ (funext fun a => Fin.ext ?_)
    match a with
    | ⟨0, _⟩ => show win1_0.index t (0 : Fin 2) * 512 + 1 * p.val = t.val * 512 + p.val; omega
    | ⟨1, _⟩ => show win1_0.index t (1 : Fin 2) * 10240 + 1 * s.val = s.val; omega
  · intro s
    show V c main_v31 (((cfg1.win 1).blk t).view.emb (ix2 s q)) = V c main_v31 (ix2 s q)
    refine congrArg _ (funext fun a => Fin.ext ?_)
    match a with
    | ⟨0, _⟩ => show win1_1.index t (0 : Fin 2) * 10240 + 1 * s.val = s.val; omega
    | ⟨1, _⟩ => show win1_1.index t (1 : Fin 2) * 128 + 1 * q.val = q.val; omega

/-- An index of the output array is in point t's block iff each coordinate is in the block's range on its axis. -/
private theorem mem_blk1 (t : Fin cfg1.N) (i : S10240x128.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v32).slice (win1_2.rect t)).set ↔ _
  rw [View.set_slice_whole, Rect.mem_set_unit]
  exact Iff.rfl

/-- Every index of the output array is in the block of the point its row divided by 512 names. -/
private theorem cover1 (i : S10240x128.Idx) :
    ∃ t : Fin cfg1.N, (cfg1.win 2).flush t = true ∧ i ∈ ((cfg1.win 2).blk t).view.set := by
  have hi0 : (i 0).val < 10240 := (i 0).isLt
  have hi1 : (i 1).val < 128 := (i 1).isLt
  obtain ⟨t, ht⟩ : ∃ t : Fin cfg1.N, t.val = (i 0).val / 512 :=
    ⟨⟨(i 0).val / 512, lt_of_lt_of_eq (show (i 0).val / 512 < 20 by omega) N_1.symm⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 128 ≤ (i 1).val ∧ (i 1).val < win1_2.index t (1 : Fin 2) * 128 + 128; omega

/-- Region 1: the product of the count matrix with the mapped features. -/
theorem arr1 (c : Dev nD) : (dat1 (F := Ideal) V c).arrAt 2 cfg1.N = aggP (V c main_v13) (V c main_v31) :=
  (dat1 (F := Ideal) V c).arrAt_eq_of_cover 2 _ (fun t _ => flushed1_eq V c t) (fun i => cover1 i)

/-! ## Region 4: from the blocks to the array

Grid point t multiplies rows 512·t … 512·t + 511 of the count matrix by the whole feature array and writes the
512 × 128 result over the same rows of the output; row r of the output is written by point r / 512. -/

/-- The printed index maps over the 20 grid points: the count matrix's block and the output's block are at block
    row t, the feature array's one block at the origin. -/
private theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The payload of a block whose row p is row r of the count matrix, against the whole feature array, is the
    product's entry (r, q). -/
private theorem blk4_eq (A : Idx2 10240 10240 → EReal) (X : Idx2 10240 128 → EReal)
    (a : Vec Ideal S512x10240 .bf16) (x : Vec Ideal S10240x128 .bf16) (p : Fin 512) (q : Fin 128) (r : Fin 10240)
    (ha : ∀ s : Fin 10240, a (ix2 p s) = A (ix2 r s)) (hx : ∀ s : Fin 10240, x (ix2 s q) = X (ix2 s q)) :
    k4_pay1 (F := Ideal) a x (ix2 p q) = aggP A X (ix2 r q) := by
  rw [pay4_apply]
  show _ = ∑ s : Fin 10240, A (ix2 r s) * X (ix2 s q)
  exact Finset.sum_congr rfl fun s _ => by rw [ha s, hx s]

/-- What point t writes back is block t of the product. -/
private theorem flushed4_eq (c : Dev nD) (t : Fin cfg4.N) :
    (dat4 (F := Ideal) V c).flushed 2 t = ((cfg4.win 2).blk t).view.read (Elt Ideal) (aggP (V c main_v13) (V c main_v34)) := by
  show (cfg4.win 2).cut (grid4.coords t) ((dat4 V c).after 2 t) = _
  rw [after4_2]
  unfold out4_2
  rw [View.canon_unit_zero hz]
  simp only [View.ld_unit_zero (S := S512x10240) hz, View.ld_unit_zero (S := S10240x128) hz]
  obtain ⟨e0, e1, e2, e3, e4, e5⟩ := idx_facts4 t
  have ht : t.val < 20 := lt_of_lt_of_eq t.isLt N_4
  funext j
  obtain ⟨p, q, rfl⟩ : ∃ (p : Fin 512) (q : Fin 128), j = ix2 p q := ⟨j 0, j 1, eq_ix2 j⟩
  have hemb : ((cfg4.win 2).blk t).view.emb (ix2 p q) = ix2 (⟨t.val * 512 + p.val, by omega⟩ : Fin 10240) q := by
    funext a; apply Fin.ext
    match a with
    | ⟨0, _⟩ => show win4_2.index t (0 : Fin 2) * 512 + 1 * p.val = t.val * 512 + p.val; omega
    | ⟨1, _⟩ => show win4_2.index t (1 : Fin 2) * 128 + 1 * q.val = q.val; omega
  show k4_pay1 (F := Ideal) (iblk4 V c 0 t) (iblk4 V c 1 t) (ix2 p q) = aggP (V c main_v13) (V c main_v34) (((cfg4.win 2).blk t).view.emb (ix2 p q))
  refine (blk4_eq (V c main_v13) (V c main_v34) (iblk4 V c 0 t) (iblk4 V c 1 t) p q ⟨t.val * 512 + p.val, by omega⟩ ?_ ?_).trans
    (congrArg (aggP (V c main_v13) (V c main_v34)) hemb.symm)
  · intro s
    show V c main_v13 (((cfg4.win 0).blk t).view.emb (ix2 p s)) = V c main_v13 (ix2 (⟨t.val * 512 + p.val, by omega⟩ : Fin 10240) s)
    refine congrArg _ (funext fun a => Fin.ext ?_)
    match a with
    | ⟨0, _⟩ => show win4_0.index t (0 : Fin 2) * 512 + 1 * p.val = t.val * 512 + p.val; omega
    | ⟨1, _⟩ => show win4_0.index t (1 : Fin 2) * 10240 + 1 * s.val = s.val; omega
  · intro s
    show V c main_v34 (((cfg4.win 1).blk t).view.emb (ix2 s q)) = V c main_v34 (ix2 s q)
    refine congrArg _ (funext fun a => Fin.ext ?_)
    match a with
    | ⟨0, _⟩ => show win4_1.index t (0 : Fin 2) * 10240 + 1 * s.val = s.val; omega
    | ⟨1, _⟩ => show win4_1.index t (1 : Fin 2) * 128 + 1 * q.val = q.val; omega

/-- An index of the output array is in point t's block iff each coordinate is in the block's range on its axis. -/
private theorem mem_blk4 (t : Fin cfg4.N) (i : S10240x128.Idx) :
    i ∈ ((cfg4.win 2).blk t).view.set ↔ ∀ a : Fin 2, win4_2.index t a * S512x128.size a ≤ (i a).val ∧ (i a).val < win4_2.index t a * S512x128.size a + S512x128.size a := by
  show i ∈ ((View.whole main_v35).slice (win4_2.rect t)).set ↔ _
  rw [View.set_slice_whole, Rect.mem_set_unit]
  exact Iff.rfl

/-- Every index of the output array is in the block of the point its row divided by 512 names. -/
private theorem cover4 (i : S10240x128.Idx) :
    ∃ t : Fin cfg4.N, (cfg4.win 2).flush t = true ∧ i ∈ ((cfg4.win 2).blk t).view.set := by
  have hi0 : (i 0).val < 10240 := (i 0).isLt
  have hi1 : (i 1).val < 128 := (i 1).isLt
  obtain ⟨t, ht⟩ : ∃ t : Fin cfg4.N, t.val = (i 0).val / 512 :=
    ⟨⟨(i 0).val / 512, lt_of_lt_of_eq (show (i 0).val / 512 < 20 by omega) N_4.symm⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 128 ≤ (i 1).val ∧ (i 1).val < win4_2.index t (1 : Fin 2) * 128 + 128; omega

/-- Region 4: the same product in the second layer. -/
theorem arr4 (c : Dev nD) : (dat4 (F := Ideal) V c).arrAt 2 cfg4.N = aggP (V c main_v13) (V c main_v34) :=
  (dat4 (F := Ideal) V c).arrAt_eq_of_cover 2 _ (fun t _ => flushed4_eq V c t) (fun i => cover4 i)
end Cert.Gnn.KAgg
end
-- ==== Proof.KLn.lean ====
import proofs.«423882_j12249246728934_2_alg».proof.Proof.Gen.KernelIdeal.Frame
import proofs.«423882_j12249246728934_2_alg».proof.Proof.Spec
import Idealize.ShloMosaic.Lib.Pipeline.Value
import Idealize.ShloMosaic.PureOps.Ideal.Laws
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KLn
variable (V : (c : Dev nD) → (b : Ref sig .tc) → Buf (Elt Ideal) ((c : Thread nD τ).loc b))

/-! ## Layout operations of the body read at an index -/

/-- A [2560,1] column spread along the 128 lanes reads, at (p, q), the column's entry of row p. -/
theorem bcol_apply {α : Type} (x : S2560x1.Idx → α) (p : Fin 2560) (q : Fin 128) :
    broadcastTo S2560x128 x broadcasts_S2560x1_S2560x128 (ix2 p q) = x (ix2 p 0) :=
  broadcastTo_apply x _ (ix2 p q) (ix2 p 0) (fun a => match a with | ⟨0, _⟩ => rfl | ⟨1, _⟩ => rfl)

/-- A [1,128] row spread along the 2560 rows reads, at (p, q), the row's entry of lane q. -/
theorem brow_apply {α : Type} (x : S1x128.Idx → α) (p : Fin 2560) (q : Fin 128) :
    broadcastTo S2560x128 x broadcasts_S1x128_S2560x128 (ix2 p q) = x (ix2 0 q) :=
  broadcastTo_apply x _ (ix2 p q) (ix2 0 q) (fun a => match a with | ⟨0, _⟩ => rfl | ⟨1, _⟩ => rfl)

/-- A [2560] vector viewed as a [2560,1] column reads, at (p, 0), its entry p. -/
theorem keep_apply {α : Type} (x : S2560.Idx → α) (p : Fin 2560) (z : Fin 1) :
    shapeCast S2560x1 x shapeCasts_S2560_S2560x1 (ix2 p z) = x (ix1 p) :=
  shapeCast_apply x _ (ix2 p z) (ix1 p) (by
    rw [Shape.rowMajor_val_one, Shape.rowMajor_val_two]
    show p.val = p.val * 1 + z.val
    omega)

/-- The sum over the 128 lanes, kept as a column: at (p, 0) the sum of row p. -/
theorem rowsum_apply (x : FVec Ideal S2560x128 .f32) (hφ : FTy.f32 = FTy.f32 ∨ FTy.f32 = FTy.bf16)
    (hacc : (0x00000000#32 : BitVec 32) = 0x00000000#32) (p : Fin 2560) (z : Fin 1) :
    shapeCast S2560x1 (multiReduction (F := Ideal) .add [1] S2560 x 0x00000000#32 reduces_S2560x128_S2560 hφ hacc)
      shapeCasts_S2560_S2560x1 (ix2 p z) = ∑ k : Fin 128, x (ix2 p k) := by
  refine (keep_apply _ p z).trans ?_
  refine (Ideal.multiReduction_add_single x 0x00000000#32 reduces_S2560x128_S2560 hφ hacc (ix1 p)).trans ?_
  refine Finset.sum_congr rfl fun k _ => congrArg x ?_
  funext a
  match a with
  | ⟨0, _⟩ => rfl
  | ⟨1, _⟩ => rfl

/-- A reciprocal square root at an index is that of the element. -/
theorem rsqrt_apply {s : Shape} {φ : FTy} (x : FVec Ideal s φ) (i : s.Idx) : rsqrt x i = Ideal.rsqrt (x i) := rfl

/-! ## The body at one element -/

/-- The body's result at (p, q): row p scaled by its reciprocal degree plus the residual, normalised over the 128
    lanes, scaled, shifted and clamped below at zero. -/
theorem pay2_apply (a : Vec Ideal S2560x128 .f32) (iv : Vec Ideal S2560x1 .f32) (rs : Vec Ideal S2560x128 .f32)
    (g b : Vec Ideal S1x128 .f32) (p : Fin 2560) (q : Fin 128) :
    k2_pay1 (F := Ideal) a iv rs g b (ix2 p q)
      = lnRelu (fun k => a (ix2 p k) * iv (ix2 p 0) + rs (ix2 p k)) (fun h => g (ix2 0 h)) (fun h => b (ix2 0 h)) q := by
  unfold k2_pay1
  simp only [shapeCast_self]
  simp only [maximumf_apply, addf_apply, mulf_apply, subf_apply, divf_apply, broadcast_apply, rsqrt_apply,
    bcol_apply, brow_apply, Ideal.ofBits_def, Ideal.ofBits_zero_f32]
  rw [rowsum_apply, rowsum_apply]
  simp only [addf_apply, mulf_apply, subf_apply, divf_apply, broadcast_apply, bcol_apply, Ideal.ofBits_def]
  rw [rowsum_apply]
  simp only [addf_apply, mulf_apply, bcol_apply]
  rfl

/-- The second layer's body is the same function of its five blocks. -/
theorem k5_pay1_eq (a : Vec Ideal S2560x128 .f32) (iv : Vec Ideal S2560x1 .f32) (rs : Vec Ideal S2560x128 .f32)
    (g b : Vec Ideal S1x128 .f32) : k5_pay1 (F := Ideal) a iv rs g b = k2_pay1 (F := Ideal) a iv rs g b := rfl

/-- When row p of the three row-blocked blocks is row r of three arrays and the two parameter blocks are the parameter
    rows, the body's result at (p, q) is the normalised array at (r, q). -/
theorem pay2_point (A : Idx2 10240 128 → EReal) (I : Idx2 10240 1 → EReal) (R : Idx2 10240 128 → EReal)
    (G B : Idx2 1 128 → EReal)
    (a : Vec Ideal S2560x128 .f32) (iv : Vec Ideal S2560x1 .f32) (rs : Vec Ideal S2560x128 .f32)
    (g b : Vec Ideal S1x128 .f32) (p : Fin 2560) (q : Fin 128) (r : Fin 10240)
    (ha : ∀ k, a (ix2 p k) = A (ix2 r k)) (hi : iv (ix2 p 0) = I (ix2 r 0)) (hr : ∀ k, rs (ix2 p k) = R (ix2 r k))
    (hg : ∀ h, g (ix2 0 h) = G (ix2 0 h)) (hb : ∀ h, b (ix2 0 h) = B (ix2 0 h)) :
    k2_pay1 (F := Ideal) a iv rs g b (ix2 p q) = lnP A I R G B (ix2 r q) := by
  rw [pay2_apply]
  show _ = lnRelu (fun k => A (ix2 r k) * I (ix2 r 0) + R (ix2 r k)) (fun h => G (ix2 0 h)) (fun h => B (ix2 0 h)) q
  simp only [ha, hi, hr, hg, hb]

/-- The zero offsets of a whole-buffer access, however spelt. -/
theorem hz : (![0, 0] : Fin 2 → Nat) = fun _ => 0 := funext fun a => by fin_cases a <;> rfl

/-! ## Region 2 -/

/-- The windows' block indices at grid point t: the three row-blocked inputs and the output sit at row block t,
    the two parameter rows at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the aggregated features is rows 2560 t … 2560 t + 2559 of the array. -/
theorem blk2_0 (c : Dev nD) (t : Fin cfg2.N) (x : S2560x128.Idx) (i : S10240x128.Idx)
    (h0 : (i 0).val = t.val * 2560 + (x 0).val) (h1 : (i 1).val = (x 1).val) :
    (iblk2 V c 0 t : Vec Ideal S2560x128 .f32) x = (V c main_v32 : S10240x128.Idx → EReal) i := by
  obtain ⟨e0, e1, -⟩ := idx2 t
  unfold iblk2
  rw [View.read_apply]
  show V c main_v32 _ = V c main_v32 _
  congr 1
  funext a; apply Fin.ext
  match a with
  | ⟨0, _⟩ => show win2_0.index t (0 : Fin 2) * 2560 + 1 * (x 0).val = (i 0).val; omega
  | ⟨1, _⟩ => show win2_0.index t (1 : Fin 2) * 128 + 1 * (x 1).val = (i 1).val; omega

/-- Block t of the reciprocal degrees is rows 2560 t … 2560 t + 2559 of the column. -/
theorem blk2_1 (c : Dev nD) (t : Fin cfg2.N) (x : S2560x1.Idx) (i : S10240x1.Idx)
    (h0 : (i 0).val = t.val * 2560 + (x 0).val) (h1 : (i 1).val = (x 1).val) :
    (iblk2 V c 1 t : Vec Ideal S2560x1 .f32) x = (V c main_v22 : S10240x1.Idx → EReal) i := by
  obtain ⟨-, -, e0, e1, -⟩ := idx2 t
  unfold iblk2
  rw [View.read_apply]
  show V c main_v22 _ = V c main_v22 _
  congr 1
  funext a; apply Fin.ext
  match a with
  | ⟨0, _⟩ => show win2_1.index t (0 : Fin 2) * 2560 + 1 * (x 0).val = (i 0).val; omega
  | ⟨1, _⟩ => show win2_1.index t (1 : Fin 2) * 1 + 1 * (x 1).val = (i 1).val; omega

/-- Block t of the residual is rows 2560 t … 2560 t + 2559 of the array. -/
theorem blk2_2 (c : Dev nD) (t : Fin cfg2.N) (x : S2560x128.Idx) (i : S10240x128.Idx)
    (h0 : (i 0).val = t.val * 2560 + (x 0).val) (h1 : (i 1).val = (x 1).val) :
    (iblk2 V c 2 t : Vec Ideal S2560x128 .f32) x = (V c main_v23 : S10240x128.Idx → EReal) i := by
  obtain ⟨-, -, -, -, e0, e1, -⟩ := idx2 t
  unfold iblk2
  rw [View.read_apply]
  show V c main_v23 _ = V c main_v23 _
  congr 1
  funext a; apply Fin.ext
  match a with
  | ⟨0, _⟩ => show win2_2.index t (0 : Fin 2) * 2560 + 1 * (x 0).val = (i 0).val; omega
  | ⟨1, _⟩ => show win2_2.index t (1 : Fin 2) * 128 + 1 * (x 1).val = (i 1).val; omega

/-- The scale row's block is the whole row at every point. -/
theorem blk2_3 (c : Dev nD) (t : Fin cfg2.N) (x : S1x128.Idx) :
    (iblk2 V c 3 t : Vec Ideal S1x128 .f32) x = (V c main_v25 : S1x128.Idx → EReal) x := by
  obtain ⟨-, -, -, -, -, -, e0, e1, -⟩ := idx2 t
  unfold iblk2
  rw [View.read_apply]
  show V c main_v25 _ = V c main_v25 _
  congr 1
  funext a; apply Fin.ext
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- The shift row's block is the whole row at every point. -/
theorem blk2_4 (c : Dev nD) (t : Fin cfg2.N) (x : S1x128.Idx) :
    (iblk2 V c 4 t : Vec Ideal S1x128 .f32) x = (V c main_v26 : S1x128.Idx → EReal) x := by
  obtain ⟨-, -, -, -, -, -, -, -, e0, e1, -⟩ := idx2 t
  unfold iblk2
  rw [View.read_apply]
  show V c main_v26 _ = V c main_v26 _
  congr 1
  funext a; apply Fin.ext
  match a with
  | ⟨0, _⟩ => show win2_4.index t (0 : Fin 2) * 1 + 1 * (x 0).val = (x 0).val; omega
  | ⟨1, _⟩ => show win2_4.index t (1 : Fin 2) * 128 + 1 * (x 1).val = (x 1).val; omega

/-- What grid point t writes back is row block t of the normalised array. -/
theorem flushed2 (c : Dev nD) (t : Fin cfg2.N) :
    (dat2 V c).flushed 5 t = ((cfg2.win 5).blk t).view.read (Elt Ideal)
      (lnP (V c main_v32) (V c main_v22) (V c main_v23) (V c main_v25) (V c main_v26)) := by
  show (cfg2.win 5).cut (grid2.coords t) ((dat2 V c).after 5 t) = _
  rw [after2_5]
  unfold out2_5
  rw [View.canon_unit_zero hz]
  simp only [View.ld_unit_zero (S := S2560x128) hz, View.ld_unit_zero (S := S2560x1) hz, View.ld_unit_zero (S := S1x128) hz]
  obtain ⟨-, -, -, -, -, -, -, -, -, -, e0, e1⟩ := idx2 t
  funext j
  have hj0 : (j 0).val < 2560 := (j 0).isLt
  have hj1 : (j 1).val < 128 := (j 1).isLt
  have ht : t.val < 4 := lt_of_lt_of_eq t.isLt N_2
  obtain ⟨p, hp⟩ : ∃ p : Fin 2560, p.val = (j 0).val := ⟨⟨_, hj0⟩, rfl⟩
  obtain ⟨q, hq⟩ : ∃ q : Fin 128, q.val = (j 1).val := ⟨⟨_, hj1⟩, rfl⟩
  obtain ⟨r, hr⟩ : ∃ r : Fin 10240, r.val = t.val * 2560 + (j 0).val := ⟨⟨_, by omega⟩, rfl⟩
  have hy : (cfg2.win 5).xinj (grid2.coords t) j = ix2 p q := by
    funext a; apply Fin.ext
    match a with
    | ⟨0, _⟩ => exact hp.symm
    | ⟨1, _⟩ => exact hq.symm
  have he : ((cfg2.win 5).blk t).view.emb j = ix2 r q := by
    funext a; apply Fin.ext
    match a with
    | ⟨0, _⟩ => show win2_5.index t (0 : Fin 2) * 2560 + 1 * (j 0).val = r.val; omega
    | ⟨1, _⟩ => show win2_5.index t (1 : Fin 2) * 128 + 1 * (j 1).val = q.val; omega
  have hrp : r.val = t.val * 2560 + p.val := by omega
  refine (congrArg (k2_pay1 (F := Ideal) (iblk2 V c 0 t) (iblk2 V c 1 t) (iblk2 V c 2 t) (iblk2 V c 3 t) (iblk2 V c 4 t)) hy).trans ?_
  rw [View.read_apply]
  show _ = lnP (V c main_v32) (V c main_v22) (V c main_v23) (V c main_v25) (V c main_v26) (((cfg2.win 5).blk t).view.emb j)
  rw [he]
  exact pay2_point (V c main_v32) (V c main_v22) (V c main_v23) (V c main_v25) (V c main_v26)
    (iblk2 V c 0 t) (iblk2 V c 1 t) (iblk2 V c 2 t) (iblk2 V c 3 t) (iblk2 V c 4 t) p q r
    (fun k => blk2_0 V c t (ix2 p k) (ix2 r k) hrp rfl) (blk2_1 V c t (ix2 p 0) (ix2 r 0) hrp rfl)
    (fun k => blk2_2 V c t (ix2 p k) (ix2 r k) hrp rfl)
    (fun h => blk2_3 V c t (ix2 0 h)) (fun h => blk2_4 V c t (ix2 0 h))

/-- Every row of the array lies in the block of the grid point that is its row number over 2560. -/
theorem cover2 (i : S10240x128.Idx) :
    ∃ t : Fin cfg2.N, (cfg2.win 5).flush t = true ∧ i ∈ ((cfg2.win 5).blk t).view.set := by
  have hi0 : (i 0).val < 10240 := (i 0).isLt
  have hi1 : (i 1).val < 128 := (i 1).isLt
  obtain ⟨t, ht⟩ : ∃ t : Fin cfg2.N, t.val = (i 0).val / 2560 :=
    ⟨⟨(i 0).val / 2560, lt_of_lt_of_eq (by omega : (i 0).val / 2560 < 4) N_2.symm⟩, rfl⟩
  obtain ⟨-, -, -, -, -, -, -, -, -, -, e0, e1⟩ := idx2 t
  refine ⟨t, flush2_5 t, ?_⟩
  show i ∈ ((View.whole main_v33).slice (win2_5.rect t)).set
  rw [View.set_slice_whole, Rect.mem_set_unit]
  intro a
  match a with
  | ⟨0, _⟩ => show win2_5.index t (0 : Fin 2) * 2560 ≤ (i 0).val ∧ (i 0).val < win2_5.index t (0 : Fin 2) * 2560 + 2560; omega
  | ⟨1, _⟩ => show win2_5.index t (1 : Fin 2) * 128 ≤ (i 1).val ∧ (i 1).val < win2_5.index t (1 : Fin 2) * 128 + 128; omega

/-- Region 2: scale by the reciprocal degree, add the residual, normalise, scale, shift, ReLU. -/
theorem arr2 (c : Dev nD) : (dat2 (F := Ideal) V c).arrAt 5 cfg2.N = lnP (V c main_v32) (V c main_v22) (V c main_v23) (V c main_v25) (V c main_v26) :=
  (dat2 V c).arrAt_eq_of_cover 5 _ (fun t _ => flushed2 V c t) (fun i => cover2 i)

/-! ## Region 5 -/

/-- The windows' block indices at grid point t: the three row-blocked inputs and the output sit at row block t,
    the two parameter rows at block (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Block t of the aggregated features is rows 2560 t … 2560 t + 2559 of the array. -/
theorem blk5_0 (c : Dev nD) (t : Fin cfg5.N) (x : S2560x128.Idx) (i : S10240x128.Idx)
    (h0 : (i 0).val = t.val * 2560 + (x 0).val) (h1 : (i 1).val = (x 1).val) :
    (iblk5 V c 0 t : Vec Ideal S2560x128 .f32) x = (V c main_v35 : S10240x128.Idx → EReal) i := by
  obtain ⟨e0, e1, -⟩ := idx5 t
  unfold iblk5
  rw [View.read_apply]
  show V c main_v35 _ = V c main_v35 _
  congr 1
  funext a; apply Fin.ext
  match a with
  | ⟨0, _⟩ => show win5_0.index t (0 : Fin 2) * 2560 + 1 * (x 0).val = (i 0).val; omega
  | ⟨1, _⟩ => show win5_0.index t (1 : Fin 2) * 128 + 1 * (x 1).val = (i 1).val; omega

/-- Block t of the reciprocal degrees is rows 2560 t … 2560 t + 2559 of the column. -/
theorem blk5_1 (c : Dev nD) (t : Fin cfg5.N) (x : S2560x1.Idx) (i : S10240x1.Idx)
    (h0 : (i 0).val = t.val * 2560 + (x 0).val) (h1 : (i 1).val = (x 1).val) :
    (iblk5 V c 1 t : Vec Ideal S2560x1 .f32) x = (V c main_v22 : S10240x1.Idx → EReal) i := by
  obtain ⟨-, -, e0, e1, -⟩ := idx5 t
  unfold iblk5
  rw [View.read_apply]
  show V c main_v22 _ = V c main_v22 _
  congr 1
  funext a; apply Fin.ext
  match a with
  | ⟨0, _⟩ => show win5_1.index t (0 : Fin 2) * 2560 + 1 * (x 0).val = (i 0).val; omega
  | ⟨1, _⟩ => show win5_1.index t (1 : Fin 2) * 1 + 1 * (x 1).val = (i 1).val; omega

/-- Block t of the residual is rows 2560 t … 2560 t + 2559 of the array. -/
theorem blk5_2 (c : Dev nD) (t : Fin cfg5.N) (x : S2560x128.Idx) (i : S10240x128.Idx)
    (h0 : (i 0).val = t.val * 2560 + (x 0).val) (h1 : (i 1).val = (x 1).val) :
    (iblk5 V c 2 t : Vec Ideal S2560x128 .f32) x = (V c main_v33 : S10240x128.Idx → EReal) i := by
  obtain ⟨-, -, -, -, e0, e1, -⟩ := idx5 t
  unfold iblk5
  rw [View.read_apply]
  show V c main_v33 _ = V c main_v33 _
  congr 1
  funext a; apply Fin.ext
  match a with
  | ⟨0, _⟩ => show win5_2.index t (0 : Fin 2) * 2560 + 1 * (x 0).val = (i 0).val; omega
  | ⟨1, _⟩ => show win5_2.index t (1 : Fin 2) * 128 + 1 * (x 1).val = (i 1).val; omega

/-- The scale row's block is the whole row at every point. -/
theorem blk5_3 (c : Dev nD) (t : Fin cfg5.N) (x : S1x128.Idx) :
    (iblk5 V c 3 t : Vec Ideal S1x128 .f32) x = (V c main_v28 : S1x128.Idx → EReal) x := by
  obtain ⟨-, -, -, -, -, -, e0, e1, -⟩ := idx5 t
  unfold iblk5
  rw [View.read_apply]
  show V c main_v28 _ = V c main_v28 _
  congr 1
  funext a; apply Fin.ext
  match a with
  | ⟨0, _⟩ => show win5_3.index t (0 : Fin 2) * 1 + 1 * (x 0).val = (x 0).val; omega
  | ⟨1, _⟩ => show win5_3.index t (1 : Fin 2) * 128 + 1 * (x 1).val = (x 1).val; omega

/-- The shift row's block is the whole row at every point. -/
theorem blk5_4 (c : Dev nD) (t : Fin cfg5.N) (x : S1x128.Idx) :
    (iblk5 V c 4 t : Vec Ideal S1x128 .f32) x = (V c main_v29 : S1x128.Idx → EReal) x := by
  obtain ⟨-, -, -, -, -, -, -, -, e0, e1, -⟩ := idx5 t
  unfold iblk5
  rw [View.read_apply]
  show V c main_v29 _ = V c main_v29 _
  congr 1
  funext a; apply Fin.ext
  match a with
  | ⟨0, _⟩ => show win5_4.index t (0 : Fin 2) * 1 + 1 * (x 0).val = (x 0).val; omega
  | ⟨1, _⟩ => show win5_4.index t (1 : Fin 2) * 128 + 1 * (x 1).val = (x 1).val; omega

/-- What grid point t writes back is row block t of the normalised array. -/
theorem flushed5 (c : Dev nD) (t : Fin cfg5.N) :
    (dat5 V c).flushed 5 t = ((cfg5.win 5).blk t).view.read (Elt Ideal)
      (lnP (V c main_v35) (V c main_v22) (V c main_v33) (V c main_v28) (V c main_v29)) := by
  show (cfg5.win 5).cut (grid5.coords t) ((dat5 V c).after 5 t) = _
  rw [after5_5]
  unfold out5_5
  rw [View.canon_unit_zero hz]
  simp only [View.ld_unit_zero (S := S2560x128) hz, View.ld_unit_zero (S := S2560x1) hz, View.ld_unit_zero (S := S1x128) hz]
  obtain ⟨-, -, -, -, -, -, -, -, -, -, e0, e1⟩ := idx5 t
  funext j
  have hj0 : (j 0).val < 2560 := (j 0).isLt
  have hj1 : (j 1).val < 128 := (j 1).isLt
  have ht : t.val < 4 := lt_of_lt_of_eq t.isLt N_5
  obtain ⟨p, hp⟩ : ∃ p : Fin 2560, p.val = (j 0).val := ⟨⟨_, hj0⟩, rfl⟩
  obtain ⟨q, hq⟩ : ∃ q : Fin 128, q.val = (j 1).val := ⟨⟨_, hj1⟩, rfl⟩
  obtain ⟨r, hr⟩ : ∃ r : Fin 10240, r.val = t.val * 2560 + (j 0).val := ⟨⟨_, by omega⟩, rfl⟩
  have hy : (cfg5.win 5).xinj (grid5.coords t) j = ix2 p q := by
    funext a; apply Fin.ext
    match a with
    | ⟨0, _⟩ => exact hp.symm
    | ⟨1, _⟩ => exact hq.symm
  have he : ((cfg5.win 5).blk t).view.emb j = ix2 r q := by
    funext a; apply Fin.ext
    match a with
    | ⟨0, _⟩ => show win5_5.index t (0 : Fin 2) * 2560 + 1 * (j 0).val = r.val; omega
    | ⟨1, _⟩ => show win5_5.index t (1 : Fin 2) * 128 + 1 * (j 1).val = q.val; omega
  have hrp : r.val = t.val * 2560 + p.val := by omega
  refine (congrArg (k5_pay1 (F := Ideal) (iblk5 V c 0 t) (iblk5 V c 1 t) (iblk5 V c 2 t) (iblk5 V c 3 t) (iblk5 V c 4 t)) hy).trans ?_
  rw [View.read_apply]
  show _ = lnP (V c main_v35) (V c main_v22) (V c main_v33) (V c main_v28) (V c main_v29) (((cfg5.win 5).blk t).view.emb j)
  rw [he]
  exact (congrFun (k5_pay1_eq _ _ _ _ _) _).trans <| pay2_point (V c main_v35) (V c main_v22) (V c main_v33) (V c main_v28) (V c main_v29)
    (iblk5 V c 0 t) (iblk5 V c 1 t) (iblk5 V c 2 t) (iblk5 V c 3 t) (iblk5 V c 4 t) p q r
    (fun k => blk5_0 V c t (ix2 p k) (ix2 r k) hrp rfl) (blk5_1 V c t (ix2 p 0) (ix2 r 0) hrp rfl)
    (fun k => blk5_2 V c t (ix2 p k) (ix2 r k) hrp rfl)
    (fun h => blk5_3 V c t (ix2 0 h)) (fun h => blk5_4 V c t (ix2 0 h))

/-- Every row of the array lies in the block of the grid point that is its row number over 2560. -/
theorem cover5 (i : S10240x128.Idx) :
    ∃ t : Fin cfg5.N, (cfg5.win 5).flush t = true ∧ i ∈ ((cfg5.win 5).blk t).view.set := by
  have hi0 : (i 0).val < 10240 := (i 0).isLt
  have hi1 : (i 1).val < 128 := (i 1).isLt
  obtain ⟨t, ht⟩ : ∃ t : Fin cfg5.N, t.val = (i 0).val / 2560 :=
    ⟨⟨(i 0).val / 2560, lt_of_lt_of_eq (by omega : (i 0).val / 2560 < 4) N_5.symm⟩, rfl⟩
  obtain ⟨-, -, -, -, -, -, -, -, -, -, e0, e1⟩ := idx5 t
  refine ⟨t, flush5_5 t, ?_⟩
  show i ∈ ((View.whole main_v36).slice (win5_5.rect t)).set
  rw [View.set_slice_whole, Rect.mem_set_unit]
  intro a
  match a with
  | ⟨0, _⟩ => show win5_5.index t (0 : Fin 2) * 2560 ≤ (i 0).val ∧ (i 0).val < win5_5.index t (0 : Fin 2) * 2560 + 2560; omega
  | ⟨1, _⟩ => show win5_5.index t (1 : Fin 2) * 128 ≤ (i 1).val ∧ (i 1).val < win5_5.index t (1 : Fin 2) * 128 + 128; omega

/-- Region 5: the same in the second layer, the residual the first layer's output. -/
theorem arr5 (c : Dev nD) : (dat5 (F := Ideal) V c).arrAt 5 cfg5.N = lnP (V c main_v35) (V c main_v22) (V c main_v33) (V c main_v28) (V c main_v29) :=
  (dat5 V c).arrAt_eq_of_cover 5 _ (fun t _ => flushed5 V c t) (fun i => cover5 i)
end Cert.Gnn.KLn
end
-- ==== Proof.KChain.lean ====
import proofs.«423882_j12249246728934_2_alg».proof.Proof.Gen.KernelIdeal.Frame
import proofs.«423882_j12249246728934_2_alg».proof.Proof.Spec
import proofs.«423882_j12249246728934_2_alg».proof.Proof.KLin
import proofs.«423882_j12249246728934_2_alg».proof.Proof.KAgg
import proofs.«423882_j12249246728934_2_alg».proof.Proof.KLn
import Idealize.ShloMosaic.Lib.Pipeline.Value
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KChain
variable (m : (ℓ : Loc nD τ sig) → Buf (Elt Ideal) ℓ) (ρ : Dev nD → PrngReg)

/-! ## A region changes its output array only

A buffer that is none of a region's arrays is left as entered; an input array is never written back, so it too holds
after the region what it held before. -/

private theorem keep0 (c : Dev nD) (b : Ref sig .tc) (h : b ≠ main_v31) : V8 m ρ c b = V7 m ρ c b := by
  by_cases hb : ∀ w, Pipeline.arrRef spec0 w ≠ b
  · exact W8_of_ne m ρ c b hb
  · obtain ⟨w, rfl⟩ := not_forall_not.mp hb
    have hin : ∀ w : Fin cfg0.W, Pipeline.arrRef spec0 w ≠ main_v31 → (cfg0.win w).isOut = false := by decide
    show W8 m ρ c (Proc.devRef .tc (Pipeline.arrRef spec0 w)) = W7 m ρ c (Proc.devRef .tc (Pipeline.arrRef spec0 w))
    rw [W8_arr, Pipeline.Dat.arrAt_in (dat0 (V7 m ρ) c) w (hin w h), A_eq0]

private theorem keep1 (c : Dev nD) (b : Ref sig .tc) (h : b ≠ main_v32) : V9 m ρ c b = V8 m ρ c b := by
  by_cases hb : ∀ w, Pipeline.arrRef spec1 w ≠ b
  · exact W9_of_ne m ρ c b hb
  · obtain ⟨w, rfl⟩ := not_forall_not.mp hb
    have hin : ∀ w : Fin cfg1.W, Pipeline.arrRef spec1 w ≠ main_v32 → (cfg1.win w).isOut = false := by decide
    show W9 m ρ c (Proc.devRef .tc (Pipeline.arrRef spec1 w)) = W8 m ρ c (Proc.devRef .tc (Pipeline.arrRef spec1 w))
    rw [W9_arr, Pipeline.Dat.arrAt_in (dat1 (V8 m ρ) c) w (hin w h), A_eq1]

private theorem keep2 (c : Dev nD) (b : Ref sig .tc) (h : b ≠ main_v33) : V10 m ρ c b = V9 m ρ c b := by
  by_cases hb : ∀ w, Pipeline.arrRef spec2 w ≠ b
  · exact W10_of_ne m ρ c b hb
  · obtain ⟨w, rfl⟩ := not_forall_not.mp hb
    have hin : ∀ w : Fin cfg2.W, Pipeline.arrRef spec2 w ≠ main_v33 → (cfg2.win w).isOut = false := by decide
    show W10 m ρ c (Proc.devRef .tc (Pipeline.arrRef spec2 w)) = W9 m ρ c (Proc.devRef .tc (Pipeline.arrRef spec2 w))
    rw [W10_arr, Pipeline.Dat.arrAt_in (dat2 (V9 m ρ) c) w (hin w h), A_eq2]

private theorem keep3 (c : Dev nD) (b : Ref sig .tc) (h : b ≠ main_v34) : V11 m ρ c b = V10 m ρ c b := by
  by_cases hb : ∀ w, Pipeline.arrRef spec3 w ≠ b
  · exact W11_of_ne m ρ c b hb
  · obtain ⟨w, rfl⟩ := not_forall_not.mp hb
    have hin : ∀ w : Fin cfg3.W, Pipeline.arrRef spec3 w ≠ main_v34 → (cfg3.win w).isOut = false := by decide
    show W11 m ρ c (Proc.devRef .tc (Pipeline.arrRef spec3 w)) = W10 m ρ c (Proc.devRef .tc (Pipeline.arrRef spec3 w))
    rw [W11_arr, Pipeline.Dat.arrAt_in (dat3 (V10 m ρ) c) w (hin w h), A_eq3]

private theorem keep4 (c : Dev nD) (b : Ref sig .tc) (h : b ≠ main_v35) : V12 m ρ c b = V11 m ρ c b := by
  by_cases hb : ∀ w, Pipeline.arrRef spec4 w ≠ b
  · exact W12_of_ne m ρ c b hb
  · obtain ⟨w, rfl⟩ := not_forall_not.mp hb
    have hin : ∀ w : Fin cfg4.W, Pipeline.arrRef spec4 w ≠ main_v35 → (cfg4.win w).isOut = false := by decide
    show W12 m ρ c (Proc.devRef .tc (Pipeline.arrRef spec4 w)) = W11 m ρ c (Proc.devRef .tc (Pipeline.arrRef spec4 w))
    rw [W12_arr, Pipeline.Dat.arrAt_in (dat4 (V11 m ρ) c) w (hin w h), A_eq4]

private theorem keep5 (c : Dev nD) (b : Ref sig .tc) (h : b ≠ main_v36) : V13 m ρ c b = V12 m ρ c b := by
  by_cases hb : ∀ w, Pipeline.arrRef spec5 w ≠ b
  · exact W13_of_ne m ρ c b hb
  · obtain ⟨w, rfl⟩ := not_forall_not.mp hb
    have hin : ∀ w : Fin cfg5.W, Pipeline.arrRef spec5 w ≠ main_v36 → (cfg5.win w).isOut = false := by decide
    show W13 m ρ c (Proc.devRef .tc (Pipeline.arrRef spec5 w)) = W12 m ρ c (Proc.devRef .tc (Pipeline.arrRef spec5 w))
    rw [W13_arr, Pipeline.Dat.arrAt_in (dat5 (V12 m ρ) c) w (hin w h), A_eq5]

private theorem keep6 (c : Dev nD) (b : Ref sig .tc) (h : b ≠ main_v37) : V14 m ρ c b = V13 m ρ c b := by
  by_cases hb : ∀ w, Pipeline.arrRef spec6 w ≠ b
  · exact W14_of_ne m ρ c b hb
  · obtain ⟨w, rfl⟩ := not_forall_not.mp hb
    have hin : ∀ w : Fin cfg6.W, Pipeline.arrRef spec6 w ≠ main_v37 → (cfg6.win w).isOut = false := by decide
    show W14 m ρ c (Proc.devRef .tc (Pipeline.arrRef spec6 w)) = W13 m ρ c (Proc.devRef .tc (Pipeline.arrRef spec6 w))
    rw [W14_arr, Pipeline.Dat.arrAt_in (dat6 (V13 m ρ) c) w (hin w h), A_eq6]

/-! ## Each region's output array from the arrays the first region finds and the outputs before it -/

private theorem x31 (c : Dev nD) : V8 m ρ c main_v31 = linP (V7 m ρ c main_v0) (V7 m ρ c main_arg2) (V7 m ρ c main_v24) :=
  (W8_arr m ρ c 3).trans (KLin.arr0 (V7 m ρ) c)

private theorem x32 (c : Dev nD) : V9 m ρ c main_v32 = aggP (V7 m ρ c main_v13) (V8 m ρ c main_v31) := by
  have h : V9 m ρ c main_v32 = aggP (V8 m ρ c main_v13) (V8 m ρ c main_v31) :=
    (W9_arr m ρ c 2).trans (KAgg.arr1 (V8 m ρ) c)
  rw [h, keep0 m ρ c main_v13 (by decide)]

private theorem x33 (c : Dev nD) : V10 m ρ c main_v33
    = lnP (V9 m ρ c main_v32) (V7 m ρ c main_v22) (V7 m ρ c main_v23) (V7 m ρ c main_v25) (V7 m ρ c main_v26) := by
  have h : V10 m ρ c main_v33
      = lnP (V9 m ρ c main_v32) (V9 m ρ c main_v22) (V9 m ρ c main_v23) (V9 m ρ c main_v25) (V9 m ρ c main_v26) :=
    (W10_arr m ρ c 5).trans (KLn.arr2 (V9 m ρ) c)
  rw [h, keep1 m ρ c main_v22 (by decide), keep0 m ρ c main_v22 (by decide),
    keep1 m ρ c main_v23 (by decide), keep0 m ρ c main_v23 (by decide),
    keep1 m ρ c main_v25 (by decide), keep0 m ρ c main_v25 (by decide),
    keep1 m ρ c main_v26 (by decide), keep0 m ρ c main_v26 (by decide)]

private theorem x34 (c : Dev nD) : V11 m ρ c main_v34 = linP (V10 m ρ c main_v33) (V7 m ρ c main_arg6) (V7 m ρ c main_v27) := by
  have h : V11 m ρ c main_v34 = linP (V10 m ρ c main_v33) (V10 m ρ c main_arg6) (V10 m ρ c main_v27) :=
    (W11_arr m ρ c 3).trans (KLin.arr3 (V10 m ρ) c)
  rw [h, keep2 m ρ c main_arg6 (by decide), keep1 m ρ c main_arg6 (by decide), keep0 m ρ c main_arg6 (by decide),
    keep2 m ρ c main_v27 (by decide), keep1 m ρ c main_v27 (by decide), keep0 m ρ c main_v27 (by decide)]

private theorem x35 (c : Dev nD) : V12 m ρ c main_v35 = aggP (V7 m ρ c main_v13) (V11 m ρ c main_v34) := by
  have h : V12 m ρ c main_v35 = aggP (V11 m ρ c main_v13) (V11 m ρ c main_v34) :=
    (W12_arr m ρ c 2).trans (KAgg.arr4 (V11 m ρ) c)
  rw [h, keep3 m ρ c main_v13 (by decide), keep2 m ρ c main_v13 (by decide), keep1 m ρ c main_v13 (by decide), keep0 m ρ c main_v13 (by decide)]

private theorem x36 (c : Dev nD) : V13 m ρ c main_v36
    = lnP (V12 m ρ c main_v35) (V7 m ρ c main_v22) (V10 m ρ c main_v33) (V7 m ρ c main_v28) (V7 m ρ c main_v29) := by
  have h : V13 m ρ c main_v36
      = lnP (V12 m ρ c main_v35) (V12 m ρ c main_v22) (V12 m ρ c main_v33) (V12 m ρ c main_v28) (V12 m ρ c main_v29) :=
    (W13_arr m ρ c 5).trans (KLn.arr5 (V12 m ρ) c)
  rw [h, keep4 m ρ c main_v22 (by decide), keep3 m ρ c main_v22 (by decide), keep2 m ρ c main_v22 (by decide), keep1 m ρ c main_v22 (by decide), keep0 m ρ c main_v22 (by decide),
    keep4 m ρ c main_v33 (by decide), keep3 m ρ c main_v33 (by decide),
    keep4 m ρ c main_v28 (by decide), keep3 m ρ c main_v28 (by decide), keep2 m ρ c main_v28 (by decide), keep1 m ρ c main_v28 (by decide), keep0 m ρ c main_v28 (by decide),
    keep4 m ρ c main_v29 (by decide), keep3 m ρ c main_v29 (by decide), keep2 m ρ c main_v29 (by decide), keep1 m ρ c main_v29 (by decide), keep0 m ρ c main_v29 (by decide)]

private theorem x37 (c : Dev nD) : V14 m ρ c main_v37
    = linResP (V13 m ρ c main_v36) (V7 m ρ c main_arg10) (V7 m ρ c main_v30) (V7 m ρ c main_v0) := by
  have h : V14 m ρ c main_v37
      = linResP (V13 m ρ c main_v36) (V13 m ρ c main_arg10) (V13 m ρ c main_v30) (V13 m ρ c main_v0) :=
    (W14_arr m ρ c 4).trans (KLin.arr6 (V13 m ρ) c)
  rw [h, keep5 m ρ c main_arg10 (by decide), keep4 m ρ c main_arg10 (by decide), keep3 m ρ c main_arg10 (by decide), keep2 m ρ c main_arg10 (by decide), keep1 m ρ c main_arg10 (by decide), keep0 m ρ c main_arg10 (by decide),
    keep5 m ρ c main_v30 (by decide), keep4 m ρ c main_v30 (by decide), keep3 m ρ c main_v30 (by decide), keep2 m ρ c main_v30 (by decide), keep1 m ρ c main_v30 (by decide), keep0 m ρ c main_v30 (by decide),
    keep5 m ρ c main_v0 (by decide), keep4 m ρ c main_v0 (by decide), keep3 m ρ c main_v0 (by decide), keep2 m ρ c main_v0 (by decide), keep1 m ρ c main_v0 (by decide), keep0 m ρ c main_v0 (by decide)]

/-- The last region's output array is the padded result of the arrays the first region finds. -/
private theorem chain (c : Dev nD) : V14 m ρ c main_v37 = kerOutP (V7 m ρ c main_v0) (V7 m ρ c main_v13) (V7 m ρ c main_v22) (V7 m ρ c main_v23)
      (V7 m ρ c main_arg2) (V7 m ρ c main_v24) (V7 m ρ c main_v25) (V7 m ρ c main_v26)
      (V7 m ρ c main_arg6) (V7 m ρ c main_v27) (V7 m ρ c main_v28) (V7 m ρ c main_v29)
      (V7 m ρ c main_arg10) (V7 m ρ c main_v30) := by
  rw [x37, x36, x35, x34, x33, x32, x31]
  rfl

/-- The kernel program's result buffer at the end of the run: the first 10000 rows of the padded result computed, region
    by region, from the arrays the first region finds. -/
theorem result_eq (c : Dev nD) : W15 (F := Ideal) m ρ c (Proc.devRef .tc main_v38) = fun i : Idx2 10000 128 =>
    kerOutP (V7 m ρ c main_v0) (V7 m ρ c main_v13) (V7 m ρ c main_v22) (V7 m ρ c main_v23)
      (V7 m ρ c main_arg2) (V7 m ρ c main_v24) (V7 m ρ c main_v25) (V7 m ρ c main_v26)
      (V7 m ρ c main_arg6) (V7 m ρ c main_v27) (V7 m ρ c main_v28) (V7 m ρ c main_v29)
      (V7 m ρ c main_arg10) (V7 m ρ c main_v30) (ix2 (up (i 0)) (i 1)) := by
  have h38 : W15 (F := Ideal) m ρ c (Proc.devRef .tc main_v38)
      = extractStridedSlice S10000x128 ![0, 0] (W14 m ρ c (Proc.devRef .tc main_v37)) slices_S10240x128_S10000x128_0_0 := by
    show StableHlo.after hostOps7 (W14 m ρ c) (Proc.devRef .tc main_v38) = _
    after_results
  rw [h38]
  refine funext fun i : Idx2 10000 128 => ?_
  refine (extractStridedSlice_apply (s := S10240x128) ![0, 0] (W14 m ρ c (Proc.devRef .tc main_v37))
    slices_S10240x128_S10000x128_0_0 i (ix2 (up (i 0)) (i 1)) ?_).trans (congrFun (chain m ρ c) _)
  intro a
  fin_cases a <;> simp [up]
end Cert.Gnn.KChain
end
-- ==== Proof.KHost.lean ====
import proofs.«423882_j12249246728934_2_alg».proof.Proof.Gen.KernelIdeal.Frame
import proofs.«423882_j12249246728934_2_alg».proof.Proof.Spec
import Idealize.ShloMosaic.Lib.KernelVsHost
import Idealize.ShloMosaic.Lib.ValueLayout
import Idealize.ShloMosaic.Lib.IdealHost
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KHost
variable (m : (ℓ : Loc nD τ sig) → Buf (Elt Ideal) ℓ) (ρ : Dev nD → PrngReg)

/-- A vector of 128 entries reshaped to one row reads the vector at the column. -/
private theorem reshape_row (x : (⟨1, ![128]⟩ : Shape).Idx → EReal)
    (h : (⟨1, ![128]⟩ : Shape).ShapeCasts ⟨2, ![1, 128]⟩) :
    shapeCast ⟨2, ![1, 128]⟩ x h = fun i : Idx2 1 128 => x (ix1 (i 1)) := by
  funext i
  rw [eq_ix2 i]
  exact shapeCast_a_1a_apply x h (i 0) (i 1)

/-- The features padded by 240 rows of the padding value: the features on the first 10000 rows, the value below. -/
private theorem pad_rows (x : (⟨2, ![10000, 128]⟩ : Shape).Idx → EReal) (v : (⟨0, ![]⟩ : Shape).Idx → EReal)
    (h : (⟨2, ![10000, 128]⟩ : Shape).Pads ![0, 0] ![240, 0] ![0, 0] ⟨2, ![10240, 128]⟩)
    (hu : 0 < (⟨0, ![]⟩ : Shape).numel) (hv : v ix0 = 0) :
    pad ⟨2, ![10240, 128]⟩ ![0, 0] ![240, 0] ![0, 0] x v h hu = fun i : Idx2 10240 128 =>
      if hlt : (i 0).val < 10000 then x (ix2 ⟨(i 0).val, hlt⟩ (i 1)) else (0 : EReal) := by
  funext i
  by_cases hlt : (i 0).val < 10000
  · rw [dif_pos hlt]
    refine pad_apply_of_inside _ _ _ x v h hu i (ix2 ⟨(i 0).val, hlt⟩ (i 1)) (fun a => ?_)
    match a with
    | ⟨0, _⟩ => show (i 0).val = 0 + (i 0).val * (0 + 1); omega
    | ⟨1, _⟩ => show (i 1).val = 0 + (i 1).val * (0 + 1); omega
  · rw [dif_neg hlt]
    refine (pad_apply_of_not_inside _ _ _ x v h hu i ⟨0, by decide⟩ (fun hin => hlt ?_)).trans ?_
    · have h3 : ((i 0).val - 0) / (0 + 1) < 10000 := hin.2.2
      omega
    · rw [eq_ix0 (Shape.Idx.first hu)]; exact hv

/-- The integer zero converted to a float is zero. -/
private theorem sitofp_zero_ix0 :
    (sitofp (F := Ideal) .f32 (constantI ⟨0, ![]⟩ 32 0#32) : (⟨0, ![]⟩ : Shape).Idx → EReal) ix0 = 0 := by
  show ((((0#32 : BitVec 32).toInt : ℤ) : ℝ) : EReal) = 0
  simp

/-- The padded features: the input on the first 10000 rows, zero on the 240 padding rows. -/
theorem v0_eq (c : Dev nD) : V7 (F := Ideal) m ρ c main_v0 = fun i : Idx2 10240 128 =>
    if h : (i 0).val < 10000 then m ((c : Thread nD τ).loc main_arg0) (ix2 ⟨(i 0).val, h⟩ (i 1)) else (0 : EReal) := by
  have e : (V7 (F := Ideal) m ρ c main_v0 : Idx2 10240 128 → EReal) =
      pad S10240x128 ![0, 0] ![240, 0] ![0, 0] (m ((c : Thread nD τ).loc main_arg0))
        (sitofp (F := Ideal) .f32 (constantI S_ 32 0#32)) pads_S10000x128_S10240x128_02400_000 h_S_ := by
    show StableHlo.after hostOps0_6 (W6 m ρ c) (Proc.devRef .tc main_v0) = _
    dsimp only [hostOps0_6]
    after_results <;> rfl
  rw [e]
  exact pad_rows _ _ _ _ sitofp_zero_ix0
/-- The zero residual of the first layer. -/
theorem v23_eq (c : Dev nD) : V7 (F := Ideal) m ρ c main_v23 = fun _ : Idx2 10240 128 => (0 : EReal) := by
  have e : (V7 (F := Ideal) m ρ c main_v23 : Idx2 10240 128 → EReal) =
      broadcastInDim S10240x128 ![] bcast_S_S10240x128 (constant (F := Ideal) S_ .f32 0x00000000#32) := by
    show StableHlo.after hostOps0_6 (W6 m ρ c) (Proc.devRef .tc main_v23) = _
    dsimp only [hostOps0_6]
    after_results <;> rfl
  rw [e]
  funext i
  rw [broadcastInDim_scalar_apply, constant_apply, Ideal.ofBits_zero_f32]
/-- The parameter vectors as `[1, 128]` rows. -/
theorem v24_eq (c : Dev nD) : V7 (F := Ideal) m ρ c main_v24 = fun i : Idx2 1 128 => m ((c : Thread nD τ).loc main_arg3) (ix1 (i 1)) := by
  have e : (V7 (F := Ideal) m ρ c main_v24 : Idx2 1 128 → EReal) =
      shapeCast S1x128 (m ((c : Thread nD τ).loc main_arg3)) shapeCasts_S128_S1x128 := by
    show StableHlo.after hostOps0_6 (W6 m ρ c) (Proc.devRef .tc main_v24) = _
    dsimp only [hostOps0_6]
    after_results <;> rfl
  rw [e]
  exact reshape_row _ _
theorem v25_eq (c : Dev nD) : V7 (F := Ideal) m ρ c main_v25 = fun i : Idx2 1 128 => m ((c : Thread nD τ).loc main_arg4) (ix1 (i 1)) := by
  have e : (V7 (F := Ideal) m ρ c main_v25 : Idx2 1 128 → EReal) =
      shapeCast S1x128 (m ((c : Thread nD τ).loc main_arg4)) shapeCasts_S128_S1x128 := by
    show StableHlo.after hostOps0_6 (W6 m ρ c) (Proc.devRef .tc main_v25) = _
    dsimp only [hostOps0_6]
    after_results <;> rfl
  rw [e]
  exact reshape_row _ _
theorem v26_eq (c : Dev nD) : V7 (F := Ideal) m ρ c main_v26 = fun i : Idx2 1 128 => m ((c : Thread nD τ).loc main_arg5) (ix1 (i 1)) := by
  have e : (V7 (F := Ideal) m ρ c main_v26 : Idx2 1 128 → EReal) =
      shapeCast S1x128 (m ((c : Thread nD τ).loc main_arg5)) shapeCasts_S128_S1x128 := by
    show StableHlo.after hostOps0_6 (W6 m ρ c) (Proc.devRef .tc main_v26) = _
    dsimp only [hostOps0_6]
    after_results <;> rfl
  rw [e]
  exact reshape_row _ _
theorem v27_eq (c : Dev nD) : V7 (F := Ideal) m ρ c main_v27 = fun i : Idx2 1 128 => m ((c : Thread nD τ).loc main_arg7) (ix1 (i 1)) := by
  have e : (V7 (F := Ideal) m ρ c main_v27 : Idx2 1 128 → EReal) =
      shapeCast S1x128 (m ((c : Thread nD τ).loc main_arg7)) shapeCasts_S128_S1x128 := by
    show StableHlo.after hostOps0_6 (W6 m ρ c) (Proc.devRef .tc main_v27) = _
    dsimp only [hostOps0_6]
    after_results <;> rfl
  rw [e]
  exact reshape_row _ _
theorem v28_eq (c : Dev nD) : V7 (F := Ideal) m ρ c main_v28 = fun i : Idx2 1 128 => m ((c : Thread nD τ).loc main_arg8) (ix1 (i 1)) := by
  have e : (V7 (F := Ideal) m ρ c main_v28 : Idx2 1 128 → EReal) =
      shapeCast S1x128 (m ((c : Thread nD τ).loc main_arg8)) shapeCasts_S128_S1x128 := by
    show StableHlo.after hostOps0_6 (W6 m ρ c) (Proc.devRef .tc main_v28) = _
    dsimp only [hostOps0_6]
    after_results <;> rfl
  rw [e]
  exact reshape_row _ _
theorem v29_eq (c : Dev nD) : V7 (F := Ideal) m ρ c main_v29 = fun i : Idx2 1 128 => m ((c : Thread nD τ).loc main_arg9) (ix1 (i 1)) := by
  have e : (V7 (F := Ideal) m ρ c main_v29 : Idx2 1 128 → EReal) =
      shapeCast S1x128 (m ((c : Thread nD τ).loc main_arg9)) shapeCasts_S128_S1x128 := by
    show StableHlo.after hostOps0_6 (W6 m ρ c) (Proc.devRef .tc main_v29) = _
    dsimp only [hostOps0_6]
    after_results <;> rfl
  rw [e]
  exact reshape_row _ _
theorem v30_eq (c : Dev nD) : V7 (F := Ideal) m ρ c main_v30 = fun i : Idx2 1 128 => m ((c : Thread nD τ).loc main_arg11) (ix1 (i 1)) := by
  have e : (V7 (F := Ideal) m ρ c main_v30 : Idx2 1 128 → EReal) =
      shapeCast S1x128 (m ((c : Thread nD τ).loc main_arg11)) shapeCasts_S128_S1x128 := by
    show StableHlo.after hostOps0_6 (W6 m ρ c) (Proc.devRef .tc main_v30) = _
    dsimp only [hostOps0_6]
    after_results <;> rfl
  rw [e]
  exact reshape_row _ _
/-- The weight matrices are the arguments. -/
theorem arg2_eq (c : Dev nD) : V7 (F := Ideal) m ρ c main_arg2 = m ((c : Thread nD τ).loc main_arg2) := by
  show StableHlo.after hostOps0_6 (W6 m ρ c) (Proc.devRef .tc main_arg2) = _
  dsimp only [hostOps0_6]
  after_results <;> rfl
theorem arg6_eq (c : Dev nD) : V7 (F := Ideal) m ρ c main_arg6 = m ((c : Thread nD τ).loc main_arg6) := by
  show StableHlo.after hostOps0_6 (W6 m ρ c) (Proc.devRef .tc main_arg6) = _
  dsimp only [hostOps0_6]
  after_results <;> rfl
theorem arg10_eq (c : Dev nD) : V7 (F := Ideal) m ρ c main_arg10 = m ((c : Thread nD τ).loc main_arg10) := by
  show StableHlo.after hostOps0_6 (W6 m ρ c) (Proc.devRef .tc main_arg10) = _
  dsimp only [hostOps0_6]
  after_results <;> rfl
end Cert.Gnn.KHost
end
-- ==== Proof.KGraph.lean ====
import proofs.«423882_j12249246728934_2_alg».proof.Proof.Gen.KernelIdeal.Frame
import proofs.«423882_j12249246728934_2_alg».proof.Proof.Spec
import Idealize.ShloMosaic.Lib.Pipeline.Value
import Idealize.ShloMosaic.Lib.StableHlo.Predicate
import Idealize.ShloMosaic.Lib.IdealHost
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KGraph
variable (m : (ℓ : Loc nD τ sig) → Buf (Elt Ideal) ℓ) (ρ : Dev nD → PrngReg)

section ScatterIdx
variable {N M : Nat}

/-- One scattered axis, the index vector on the indices' second axis, no window: update `e` lands at operand
    entry `k` exactly when its start index, read signed, is `k`. -/
theorem resultIdx_iff (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ 32) (e : Fin M) (k : Fin N) :
    d.resultIdx? (ix1 e) idx = some (ix1 k) ↔ (idx (ix2 e 0)).toInt = (k.val : Int) := by
  obtain ⟨uw, iw, sd, iv, wf⟩ := d
  dsimp only at h1 h2 h3 h4
  subst h1 h2 h3 h4
  have hX : ∀ X : Fin (Shape.rank ⟨1, ![M]⟩), ((ix1 e) X).val = e.val := fun X => by
    have hx : X = 0 := Subsingleton.elim _ _
    subst hx; rfl
  have hstart : ∀ a, ScatterDims.start ⟨[], [0], [0], 1, wf⟩ (ix1 e) idx a = (idx (ix2 e 0)).toInt := by
    intro a
    have ha : a = 0 := Subsingleton.elim _ _
    subst ha
    unfold ScatterDims.start
    rw [dif_pos (List.mem_singleton.mpr rfl)]
    congr 2
    funext b
    match b with
    | ⟨0, _⟩ =>
      unfold ScatterDims.siIdx
      rw [dif_neg (show ¬ ((0 : Nat) = 1) by decide)]
      unfold ScatterDims.siCoord
      apply Fin.ext
      exact hX _
    | ⟨1, _⟩ =>
      unfold ScatterDims.siIdx
      rw [dif_pos rfl]
      apply Fin.ext
      exact (by decide : List.idxOf (0 : Fin 1) [(0 : Fin 1)] = 0)
  have hwin : ∀ a, ScatterDims.window ⟨[], [0], [0], 1, wf⟩ (ix1 e) a = 0 := by
    intro a
    have ha : a = 0 := Subsingleton.elim _ _
    subst ha
    unfold ScatterDims.window
    have hn : ¬ ((0 : Fin (Shape.rank ⟨1, ![N]⟩)) ∈ ScatterDims.sKept ⟨[], [0], [0], 1, wf⟩) :=
      show ¬ ((0 : Fin 1) ∈ (List.finRange 1).filter (fun x => x ∉ [(0 : Fin 1)])) by decide
    rw [dif_neg hn]
  unfold ScatterDims.resultIdx?
  split
  · next h =>
    have h0 := h 0
    rw [hstart, hwin] at h0
    constructor
    · intro hh
      have h2 := congrArg (fun f => (f 0).val) (Option.some.inj hh)
      change (ScatterDims.start ⟨[], [0], [0], 1, wf⟩ (ix1 e) idx 0 + ((ScatterDims.window ⟨[], [0], [0], 1, wf⟩ (ix1 e) 0 : Nat) : Int)).toNat = k.val at h2
      rw [hstart, hwin] at h2
      omega
    · intro hT
      refine congrArg some (funext fun a => ?_)
      have ha : a = 0 := Subsingleton.elim _ _
      subst ha
      apply Fin.ext
      show (ScatterDims.start ⟨[], [0], [0], 1, wf⟩ (ix1 e) idx 0 + ((ScatterDims.window ⟨[], [0], [0], 1, wf⟩ (ix1 e) 0 : Nat) : Int)).toNat = k.val
      rw [hstart, hwin, hT]
      omega
  · next h =>
    constructor
    · intro hh; cases hh
    · intro hT
      exfalso
      apply h
      intro a
      have ha : a = 0 := Subsingleton.elim _ _
      subst ha
      rw [hstart, hwin, hT]
      refine ⟨by omega, ?_⟩
      show ((k.val : Int) + ((0 : Nat) : Int)) < ((N : Nat) : Int)
      have := k.isLt
      omega
end ScatterIdx

/-- Two node words packed as `a · 10240 + b` in 32 bits: no wrap, and the signed reading is the natural number. -/
private theorem flat_toInt (a b : BitVec 32) (ha : a.toNat < 10000) (hb : b.toNat < 10000) :
    (IntOp.addi (IntOp.muli a 10240#32) b).toInt = ((a.toNat * 10240 + b.toNat : Nat) : Int) := by
  have h1 : (a * 10240#32).toNat = a.toNat * 10240 := by
    rw [BitVec.toNat_mul]
    show (a.toNat * 10240) % 2 ^ 32 = _
    exact Nat.mod_eq_of_lt (by omega)
  have h2 : (a * 10240#32 + b).toNat = a.toNat * 10240 + b.toNat := by
    rw [BitVec.toNat_add, h1]
    exact Nat.mod_eq_of_lt (by omega)
  show (a * 10240#32 + b).toInt = _
  rw [StableHlo.Predicate.toInt_eq_toNat_of_lt (by rw [h2]; omega), h2]

/-- A node word in range names the node of its value. -/
private theorem node_val (w : BitVec 32) (h : w.toNat < 10000) : (node w).val = w.toNat := by
  unfold node; rw [dif_pos h]

/-- A vector's index set is its one coordinate's range. -/
private def idx1Equiv (M : Nat) : (⟨1, ![M]⟩ : Shape).Idx ≃ Fin M where
  toFun j := j 0
  invFun e := ix1 e
  left_inv j := (eq_ix1 j).symm
  right_inv _ := rfl

/-- Row `row` of the edge array, sliced out and flattened, read at edge `e`. -/
private theorem edge_read (E : Idx2 2 640000 → BitVec 32) (o : Nat) (row : Fin 2) (ho : row.val = o) (e : Fin 640000)
    (hs : S2x640000.Slices ![o, 0] S1x640000) (hc : S1x640000.ShapeCasts S640000) :
    shapeCast S640000 (extractStridedSlice S1x640000 ![o, 0] E hs) hc (ix1 e) = E (ix2 row e) := by
  refine (shapeCast_apply _ hc (ix1 e) (ix2 0 e) ?_).trans ?_
  · rw [Shape.rowMajor_val_one, Shape.rowMajor_val_two]
    show (0 : Nat) * 640000 + e.val = e.val
    omega
  · refine extractStridedSlice_apply ![o, 0] E hs (ix2 0 e) (ix2 row e) (fun a => ?_)
    match a with
    | ⟨0, _⟩ => show row.val = o + 0; omega
    | ⟨1, _⟩ => show e.val = 0 + e.val; omega

/-- Scatter-adding ones from zero at the packed words `dst · 10240 + src`: entry `r · 10240 + s` counts the edges
    from `s` to `r`. -/
private theorem count_core (d : ScatterDims ⟨1, ![104857600]⟩ ⟨2, ![640000, 1]⟩ ⟨1, ![640000]⟩)
    (h1 : d.updateWindowDims = []) (h2 : d.insertedWindowDims = [0]) (h3 : d.scatterDimsToOperandDims = [0])
    (h4 : d.indexVectorDim = 1)
    (x : (⟨1, ![104857600]⟩ : Shape).Idx → EReal) (idx : IVec ⟨2, ![640000, 1]⟩ 32)
    (upd : (⟨1, ![640000]⟩ : Shape).Idx → EReal)
    (hx : ∀ j, x j = 0) (hu : ∀ j, upd j = 1) (E : Idx2 2 640000 → BitVec 32) (hE : InRange E)
    (hidx : ∀ e : Fin 640000, idx (ix2 e 0) = IntOp.addi (IntOp.muli (E (ix2 1 e)) 10240#32) (E (ix2 0 e)))
    (r s : Fin 10240) (hk : r.val * 10240 + s.val < 104857600) :
    Host.scatterAdd (F := Ideal) (φ := .f32) d x idx upd (ix1 ⟨r.val * 10240 + s.val, hk⟩) = adj E r s := by
  show x _ + ∑ j ∈ Finset.univ.filter (fun j => d.resultIdx? j idx = some (ix1 ⟨r.val * 10240 + s.val, hk⟩)), upd j = _
  rw [hx, zero_add]
  unfold adj
  refine Finset.sum_equiv (idx1Equiv 640000) (fun j => ?_) (fun j _ => hu j)
  obtain ⟨e, rfl⟩ : ∃ e, j = ix1 e := ⟨j 0, eq_ix1 j⟩
  simp only [Finset.mem_filter, Finset.mem_univ, true_and]
  show _ ↔ (dst E e).val = r.val ∧ (src E e).val = s.val
  rw [resultIdx_iff d h1 h2 h3 h4 idx e ⟨_, hk⟩, hidx e, flat_toInt _ _ (hE _) (hE _)]
  unfold dst src
  rw [node_val _ (hE _), node_val _ (hE _)]
  have hs := s.isLt
  have hb := hE (ix2 0 e)
  show ((((E (ix2 1 e)).toNat * 10240 + (E (ix2 0 e)).toNat : Nat) : Int) = ((r.val * 10240 + s.val : Nat) : Int)) ↔ _
  omega

/-- The packed word vector read at an edge. -/
private theorem flat_word (D C S : IVec S640000 32) (j : S640000.Idx) :
    addi (muli D C) S j = IntOp.addi (IntOp.muli (D j) (C j)) (S j) := rfl

set_option maxHeartbeats 1000000 in
/-- The count matrix the host builds by scatter-adding ones at `dst · 10240 + src`: entry `(d, s)` is the number of edges from `s` to `d`. -/
theorem v13_eq (c : Dev nD) (hE : InRange (m ((c : Thread nD τ).loc main_arg1))) :
    V7 (F := Ideal) m ρ c main_v13 = fun i : Idx2 10240 10240 => adj (m ((c : Thread nD τ).loc main_arg1)) (i 0) (i 1) := by
  funext i
  obtain ⟨r, s, rfl⟩ : ∃ r s, i = ix2 r s := ⟨i 0, i 1, eq_ix2 i⟩
  show StableHlo.after hostOps0_6 (W6 (F := Ideal) m ρ c) (Proc.devRef .tc main_v13) (ix2 r s) = adj _ r s
  dsimp only [hostOps0_6]
  open StableHlo in after_results
  rw [truncf_apply]
  have hr := r.isLt
  have hs := s.isLt
  have hk : r.val * 10240 + s.val < 104857600 := by omega
  refine (shapeCast_apply (s := S104857600) (t := S10240x10240) _ shapeCasts_S104857600_S10240x10240 (ix2 r s)
    (ix1 ⟨r.val * 10240 + s.val, hk⟩) ?_).trans ?_
  · rw [Shape.rowMajor_val_one, Shape.rowMajor_val_two]; rfl
  · refine count_core _ rfl rfl rfl rfl _ _ _ (fun j => ?_) (fun j => ?_) _ hE (fun e => ?_) r s hk
    · exact Ideal.ofBits_zero_f32
    · exact Ideal.ofBits_one_f32
    · refine (broadcastInDim_apply _ _ _ (ix2 e 0) (ix1 e) (fun a => ?_)).trans ?_
      · have ha : a = 0 := Subsingleton.elim _ _
        subst ha
        show e.val = if (640000 : Nat) = 1 then 0 else e.val
        rw [if_neg (by decide)]
      · refine (flat_word _ _ _ (ix1 e)).trans ?_
        refine congrArg₂ IntOp.addi (congrArg₂ IntOp.muli ?_ ?_) ?_
        · exact edge_read _ 1 1 rfl e _ _
        · rfl
        · exact edge_read _ 0 0 rfl e _ _
end Cert.Gnn.KGraph
end
-- ==== Proof.KScatter.lean ====
import proofs.«423882_j12249246728934_2_alg».proof.Proof.Gen.KernelIdeal
import proofs.«423882_j12249246728934_2_alg».proof.Proof.Spec
import proofs.«423882_j12249246728934_2_alg».proof.KernelIdeal
import Idealize.ShloMosaic.Lib.StableHlo.Predicate
set_option maxRecDepth 16384

noncomputable section

open Idealize.ShloMosaic Idealize.ShloMosaic.TcCoe Idealize.ShloMosaic.ValueIdx Idealize.SL.Sem
open Cert.KernelIdeal Cert.Gnn

namespace Cert.Gnn.KScatter

section Generic
variable {N n : Nat} (wf : ScatterDims.WF (⟨1, ![N]⟩ : Shape) ⟨2, ![n, 1]⟩ ⟨1, ![n]⟩ [] [0] [0] 1)

/-- The dimension numbers of a scatter of `n` scalars into a vector of length `N`, one index word per update. -/
private abbrev dims1 (N n : Nat) (wf : ScatterDims.WF (⟨1, ![N]⟩ : Shape) ⟨2, ![n, 1]⟩ ⟨1, ![n]⟩ [] [0] [0] 1) :
    ScatterDims ⟨1, ![N]⟩ ⟨2, ![n, 1]⟩ ⟨1, ![n]⟩ := ⟨[], [0], [0], 1, wf⟩

/-- Update `j`'s start on the one operand axis is its index word, read signed. -/
private theorem start_eq (j : (⟨1, ![n]⟩ : Shape).Idx) (idx : IVec ⟨2, ![n, 1]⟩ 32) (a : Fin 1) :
    (dims1 N n wf).start j idx a = (idx (ix2 (j 0) 0)).toInt := by
  unfold ScatterDims.start
  rw [dif_pos (List.mem_singleton.2 (Subsingleton.elim _ _))]
  refine congrArg (fun q => (idx q).toInt) ?_
  funext b
  match b with
  | ⟨0, hb⟩ =>
    unfold ScatterDims.siIdx
    rw [dif_neg (by exact Nat.zero_ne_one)]
    apply Fin.ext
    unfold ScatterDims.siCoord
    show (j _).val = (j 0).val
    exact congrArg (fun q => (j q).val) (Subsingleton.elim _ _)
  | ⟨1, hb⟩ =>
    unfold ScatterDims.siIdx
    rw [dif_pos rfl]
    apply Fin.ext
    have ha0 : a = 0 := Subsingleton.elim _ _
    subst ha0
    rfl

/-- No update has a window: the window coordinate is zero. -/
private theorem window_eq (j : (⟨1, ![n]⟩ : Shape).Idx) (a : Fin 1) :
    (dims1 N n wf).window j a = 0 := by
  unfold ScatterDims.window
  rw [dif_neg (fun h => (of_decide_eq_true (List.mem_filter.1 h).2) (List.mem_singleton.2 (Subsingleton.elim _ _)))]

/-- Update `j` lands on position `k` exactly when its index word is `k`, the words being below the length. -/
private theorem resultIdx_iff (hN : N < 2 ^ 31) (idx : IVec ⟨2, ![n, 1]⟩ 32)
    (hidx : ∀ e : Fin n, (idx (ix2 e 0)).toNat < N) (j : (⟨1, ![n]⟩ : Shape).Idx) (k : Fin N) :
    (dims1 N n wf).resultIdx? j idx = some (ix1 k) ↔ (idx (ix2 (j 0) 0)).toNat = k.val := by
  have hlt := hidx (j 0)
  have hT : (idx (ix2 (j 0) 0)).toInt = ((idx (ix2 (j 0) 0)).toNat : Int) :=
    StableHlo.Predicate.toInt_eq_toNat_of_lt (by omega)
  have hs : ∀ a : Fin 1, (dims1 N n wf).start j idx a + (((dims1 N n wf).window j a : Nat) : Int)
      = ((idx (ix2 (j 0) 0)).toNat : Int) := fun a => by
    rw [start_eq, window_eq, hT]; simp
  unfold ScatterDims.resultIdx?
  split
  · rename_i h
    constructor
    · intro e
      have e0 := congrArg (fun f : (⟨1, ![N]⟩ : Shape).Idx => (f 0).val) (Option.some.inj e)
      change ((dims1 N n wf).start j idx 0 + (((dims1 N n wf).window j 0 : Nat) : Int)).toNat = k.val at e0
      rw [hs, Int.toNat_natCast] at e0
      exact e0
    · intro e
      refine congrArg some (funext fun a => ?_)
      match a with
      | ⟨0, _⟩ =>
        apply Fin.ext
        show ((dims1 N n wf).start j idx 0 + (((dims1 N n wf).window j 0 : Nat) : Int)).toNat = k.val
        rw [hs, Int.toNat_natCast]
        exact e
  · rename_i h
    refine absurd (fun a => ?_) h
    rw [hs a]
    match a with
    | ⟨0, _⟩ =>
      refine ⟨Int.natCast_nonneg _, ?_⟩
      show ((idx (ix2 (j 0) 0)).toNat : Int) < (N : Int)
      exact_mod_cast hlt

/-- The accumulating scatter read at a position: the operand there plus the updates whose index word is the position. -/
private theorem scatter_read (hN : N < 2 ^ 31) (x : (⟨1, ![N]⟩ : Shape).Idx → EReal) (idx : IVec ⟨2, ![n, 1]⟩ 32)
    (hidx : ∀ e : Fin n, (idx (ix2 e 0)).toNat < N) (upd : (⟨1, ![n]⟩ : Shape).Idx → EReal) (k : Fin N) :
    Ideal.hostScatterAdd (dims1 N n wf) x idx upd (ix1 k)
      = x (ix1 k) + ∑ e ∈ Finset.univ.filter (fun e : Fin n => (idx (ix2 e 0)).toNat = k.val), upd (ix1 e) := by
  unfold Ideal.hostScatterAdd
  refine congrArg (x (ix1 k) + ·) ?_
  refine Finset.sum_nbij' (fun j => j 0) (fun e => ix1 e) ?_ ?_ ?_ ?_ ?_
  · intro j hj
    exact Finset.mem_filter.2 ⟨Finset.mem_univ _, (resultIdx_iff wf hN idx hidx j k).1 (Finset.mem_filter.1 hj).2⟩
  · intro e he
    exact Finset.mem_filter.2 ⟨Finset.mem_univ _, (resultIdx_iff wf hN idx hidx (ix1 e) k).2 (Finset.mem_filter.1 he).2⟩
  · intro j _
    exact (eq_ix1 j).symm
  · intro e _
    rfl
  · intro j _
    exact congrArg upd (eq_ix1 j)
end Generic

/-- The accumulating scatter into the flat count array read at a position, for index words below its length: the
    operand plus the sum of the updates of the edges whose index word is the position. -/
theorem scatterFlat_read (x : FVec Ideal S104857600 .f32) (idx : IVec S640000x1 32)
    (hidx : ∀ e : Fin 640000, (idx (ix2 e 0)).toNat < 104857600) (upd : FVec Ideal S640000 .f32) (k : Fin 104857600) :
    Host.scatterAdd (F := Ideal) scatter_S104857600_S640000x1_S640000_n_0_0_1 x idx upd (ix1 k)
      = x (ix1 k) + ∑ e ∈ Finset.univ.filter (fun e : Fin 640000 => (idx (ix2 e 0)).toNat = k.val), upd (ix1 e) :=
  scatter_read (N := 104857600) (n := 640000) scatter_S104857600_S640000x1_S640000_n_0_0_1.wf (by norm_num) x idx hidx upd k

/-- The accumulating scatter into the degree array read at a node, for index words inside the node range. -/
theorem scatterDeg_read (x : FVec Ideal S10000 .f32) (idx : IVec S640000x1 32)
    (hidx : ∀ e : Fin 640000, (idx (ix2 e 0)).toNat < 10000) (upd : FVec Ideal S640000 .f32) (d : Fin 10000) :
    Host.scatterAdd (F := Ideal) scatter_S10000_S640000x1_S640000_n_0_0_1 x idx upd (ix1 d)
      = x (ix1 d) + ∑ e ∈ Finset.univ.filter (fun e : Fin 640000 => (idx (ix2 e 0)).toNat = d.val), upd (ix1 e) :=
  scatter_read (N := 10000) (n := 640000) scatter_S10000_S640000x1_S640000_n_0_0_1.wf (by norm_num) x idx hidx upd d

end Cert.Gnn.KScatter
end
-- ==== Proof.KDeg.lean ====
import proofs.«423882_j12249246728934_2_alg».proof.Proof.Gen.KernelIdeal.Frame
import proofs.«423882_j12249246728934_2_alg».proof.Proof.Spec
import proofs.«423882_j12249246728934_2_alg».proof.Proof.KScatter
import Idealize.ShloMosaic.Lib.KernelVsHost
import Idealize.ShloMosaic.Lib.ValueLayout
import Idealize.ShloMosaic.Lib.IdealHost
set_option maxRecDepth 16384

noncomputable section

open Idealize.ShloMosaic Idealize.ShloMosaic.TcCoe Idealize.ShloMosaic.ValueIdx Idealize.SL.Sem
open Cert.KernelIdeal Cert.KernelIdeal.Gen Cert.Gnn

namespace Cert.Gnn.KDeg
variable (m : (ℓ : Loc nD τ sig) → Buf (Elt Ideal) ℓ) (ρ : Dev nD → PrngReg)

/-- A vector reshaped to a column reads, at a row, the vector at that row. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of 10000 entries with 240 entries of the padding value appended: the vector below 10000, the value
    (zero here) from there on. -/
private theorem pad_tail (x : (⟨1, ![10000]⟩ : Shape).Idx → EReal) (v : (⟨0, ![]⟩ : Shape).Idx → EReal)
    (h : (⟨1, ![10000]⟩ : Shape).Pads ![0] ![240] ![0] ⟨1, ![10240]⟩)
    (hu : 0 < (⟨0, ![]⟩ : Shape).numel) (hv : v ix0 = 0) (r : Fin 10240) :
    pad ⟨1, ![10240]⟩ ![0] ![240] ![0] x v h hu (ix1 r) =
      if hlt : r.val < 10000 then x (ix1 ⟨r.val, hlt⟩) else (0 : EReal) := by
  by_cases hlt : r.val < 10000
  · rw [dif_pos hlt]
    refine pad_apply_of_inside _ _ _ x v h hu (ix1 r) (ix1 ⟨r.val, hlt⟩) (fun a => ?_)
    match a with
    | ⟨0, _⟩ => show r.val = 0 + r.val * (0 + 1); omega
  · rw [dif_neg hlt]
    refine (pad_apply_of_not_inside _ _ _ x v h hu (ix1 r) ⟨0, by decide⟩ (fun hin => hlt ?_)).trans ?_
    · have h3 : (r.val - 0) / (0 + 1) < 10000 := hin.2.2
      omega
    · rw [eq_ix0 (Shape.Idx.first hu)]; exact hv

/-- The integer word zero converted to a float is zero. -/
private theorem sitofp_zero_word :
    (sitofp (F := Ideal) .f32 (constantI ⟨0, ![]⟩ 32 0#32) : (⟨0, ![]⟩ : Shape).Idx → EReal) ix0 = 0 := by
  show ((((0#32 : BitVec 32).toInt : ℤ) : ℝ) : EReal) = 0
  rw [BitVec.toInt_zero, Int.cast_zero, EReal.coe_zero]

/-- Row 1 of the edge array, flattened and stood up as a column, reads at edge `e` the edge's destination word. -/
private theorem dstCol_read (E : (⟨2, ![2, 640000]⟩ : Shape).Idx → BitVec 32)
    (hsl : (⟨2, ![2, 640000]⟩ : Shape).Slices ![1, 0] ⟨2, ![1, 640000]⟩)
    (hsc : (⟨2, ![1, 640000]⟩ : Shape).ShapeCasts ⟨1, ![640000]⟩)
    (hb : (⟨1, ![640000]⟩ : Shape).BroadcastsInDim ⟨2, ![640000, 1]⟩ ![0]) (e : Fin 640000) :
    broadcastInDim ⟨2, ![640000, 1]⟩ ![0] hb
      (shapeCast ⟨1, ![640000]⟩ (extractStridedSlice ⟨2, ![1, 640000]⟩ ![1, 0] E hsl) hsc) (ix2 e (0 : Fin 1))
      = E (ix2 (1 : Fin 2) e) := by
  refine (broadcastInDim_apply _ hb _ _ (ix1 e) (fun a => ?_)).trans ?_
  · match a with
    | ⟨0, _⟩ => rfl
  refine (shapeCast_1a_a_apply _ hsc e).trans ?_
  refine extractStridedSlice_apply _ E hsl _ (ix2 (1 : Fin 2) e) (fun a => ?_)
  match a with
  | ⟨0, _⟩ => rfl
  | ⟨1, _⟩ => show e.val = 0 + e.val; omega

/-- The host's column of reciprocal clamped degrees, as a term of the edge array. -/
private def hostInvDeg (E : IVec S2x640000 32) : S10240x1.Idx → EReal :=
  shapeCast S10240x1
    (Host.divf (F := Ideal) (broadcastInDim S10240 ![] bcast_S_S10240 (constant (F := Ideal) S_ .f32 0x3F800000#32))
      (maximumf (broadcastInDim S10240 ![] bcast_S_S10240 (constant (F := Ideal) S_ .f32 0x3F800000#32))
        (pad S10240 ![0] ![240] ![0]
          (Host.scatterAdd (F := Ideal) scatter_S10000_S640000x1_S640000_n_0_0_1
            (broadcastInDim S10000 ![] bcast_S_S10000 (constant (F := Ideal) S_ .f32 0x00000000#32))
            (broadcastInDim S640000x1 ![0] bcast_S640000_S640000x1_0
              (shapeCast S640000 (extractStridedSlice S1x640000 ![1, 0] E slices_S2x640000_S1x640000_1_0)
                shapeCasts_S1x640000_S640000))
            (broadcastInDim S640000 ![] bcast_S_S640000 (constant (F := Ideal) S_ .f32 0x3F800000#32)))
          (sitofp (F := Ideal) .f32 (constantI S_ 32 0#32)) pads_S10000_S10240_02400 h_S_)))
    shapeCasts_S10240_S10240x1

/-- That term is the reciprocal clamped in-degree, for in-range edge words. -/
private theorem hostInvDeg_eq (E : IVec S2x640000 32) (hE : InRange E) :
    hostInvDeg E = fun i : Idx2 10240 1 => invDeg E (i 0) := by
  funext i
  obtain ⟨r, u, rfl⟩ : ∃ (r : Fin 10240) (u : Fin 1), i = ix2 r u := ⟨i 0, i 1, eq_ix2 i⟩
  show _ = invDeg E r
  have hcol : ∀ e : Fin 640000,
      broadcastInDim S640000x1 ![0] bcast_S640000_S640000x1_0
        (shapeCast S640000 (extractStridedSlice S1x640000 ![1, 0] E slices_S2x640000_S1x640000_1_0)
          shapeCasts_S1x640000_S640000) (ix2 e (0 : Fin 1)) = E (ix2 (1 : Fin 2) e) :=
    fun e => dstCol_read E _ _ _ e
  have hidx : ∀ e : Fin 640000,
      (broadcastInDim S640000x1 ![0] bcast_S640000_S640000x1_0
        (shapeCast S640000 (extractStridedSlice S1x640000 ![1, 0] E slices_S2x640000_S1x640000_1_0)
          shapeCasts_S1x640000_S640000) (ix2 e (0 : Fin 1))).toNat < 10000 :=
    fun e => by rw [hcol e]; exact hE _
  unfold hostInvDeg invDeg
  rw [shapeCast_col_apply, hostDivf_apply, broadcastInDim_scalar_apply, constant_apply, Ideal.ofBits_one_f32,
    maximumf_apply, broadcastInDim_scalar_apply, constant_apply, Ideal.ofBits_one_f32,
    pad_tail _ _ _ _ sitofp_zero_word r]
  refine congrArg (fun z => Ideal.div 1 (max 1 z)) ?_
  unfold degP
  by_cases hlt : r.val < 10000
  · rw [dif_pos hlt, dif_pos hlt, KScatter.scatterDeg_read _ _ hidx _ ⟨r.val, hlt⟩, broadcastInDim_scalar_apply,
      constant_apply, Ideal.ofBits_zero_f32, zero_add]
    unfold deg
    refine Finset.sum_congr (Finset.filter_congr fun e _ => ?_) (fun e _ => ?_)
    · rw [hcol e]
      unfold dst node
      rw [dif_pos (hE _)]
      exact ⟨fun h => Fin.ext h, fun h => congrArg Fin.val h⟩
    · rw [broadcastInDim_scalar_apply, constant_apply, Ideal.ofBits_one_f32]
  · rw [dif_neg hlt, dif_neg hlt]

set_option maxHeartbeats 1600000 in
/-- The reciprocal clamped in-degree over the padded rows, as the host builds it: scatter-add of ones at the
    destinations, 240 zero rows appended, clamped below at one, one over it, as a column. -/
theorem v22_eq (c : Dev nD) (hE : InRange (m ((c : Thread nD τ).loc main_arg1))) :
    V7 (F := Ideal) m ρ c main_v22 = fun i : Idx2 10240 1 => invDeg (m ((c : Thread nD τ).loc main_arg1)) (i 0) := by
  have e : (V7 (F := Ideal) m ρ c main_v22 : Idx2 10240 1 → EReal)
      = hostInvDeg (m ((c : Thread nD τ).loc main_arg1)) := by
    show StableHlo.after hostOps0_6 (W6 m ρ c) (Proc.devRef .tc main_v22) = _
    dsimp only [hostOps0_6]
    after_results <;> rfl
  rw [e]
  exact hostInvDeg_eq _ hE
end Cert.Gnn.KDeg
end
-- ==== Proof.RDense.lean ====
import proofs.«423882_j12249246728934_2_alg».proof.Proof.Gen.ReferenceIdeal.Read
import proofs.«423882_j12249246728934_2_alg».proof.Proof.Spec

noncomputable section

open Idealize.ShloMosaic Idealize.ShloMosaic.TcCoe Idealize.ShloMosaic.ValueIdx Idealize.SL.Sem
open Cert.ReferenceIdeal Cert.ReferenceIdeal.Gen Cert.ReferenceIdeal.Read Cert.Gnn

namespace Cert.Gnn.RDense
/-- The reference's first dense layer, read at an index. -/
theorem v7_read (x0 : (⟨S10000x128, .f32⟩ : BufTy).Contents (Elt Ideal)) (x2 : (⟨S128x128, .f32⟩ : BufTy).Contents (Elt Ideal)) (x3 : (⟨S128, .f32⟩ : BufTy).Contents (Elt Ideal)) (i : Idx2 10000 128) :
    val_main_v7 (F := Ideal) x0 x2 x3 i = dense (fun k => x0 (ix2 (i 0) k)) x2 (fun h => x3 (ix1 h)) (i 1) := by
  obtain ⟨p, q, rfl⟩ : ∃ p q, i = ix2 p q := ⟨i 0, i 1, eq_ix2 i⟩
  have el : ∀ k : Fin 128, lidx_main_v4 (ix2 p q) k = ix2 p k := fun k => funext fun a => Fin.ext (by
    match a with | ⟨0, _⟩ => rfl | ⟨1, _⟩ => rfl)
  have er : ∀ k : Fin 128, ridx_main_v4 (ix2 p q) k = ix2 k q := fun k => funext fun a => Fin.ext (by
    match a with | ⟨0, _⟩ => rfl | ⟨1, _⟩ => rfl)
  have eb : idx_main_v5 (idx_main_v6 (ix2 p q)) = ix1 q := funext fun a => Fin.ext (by
    match a with | ⟨0, _⟩ => rfl)
  rw [val_main_v7_apply, val_main_v4_apply, val_main_v6_apply, val_main_v5_apply]
  simp only [el, er, eb, Ideal.addf_def]
  unfold dense
  rfl
/-- The second dense layer, over the first layer's output. -/
theorem v54_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (i : Idx2 10000 128) :
    val_main_v54 (F := Ideal) x0 x1 x2 x3 x4 x5 x6 x7 i
      = dense (fun k => val_main_v50 (F := Ideal) x0 x1 x2 x3 x4 x5 (ix2 (i 0) k)) x6 (fun h => x7 (ix1 h)) (i 1) := by
  obtain ⟨p, q, rfl⟩ : ∃ p q, i = ix2 p q := ⟨i 0, i 1, eq_ix2 i⟩
  have el : ∀ k : Fin 128, lidx_main_v51 (ix2 p q) k = ix2 p k := fun k => funext fun a => Fin.ext (by
    match a with | ⟨0, _⟩ => rfl | ⟨1, _⟩ => rfl)
  have er : ∀ k : Fin 128, ridx_main_v51 (ix2 p q) k = ix2 k q := fun k => funext fun a => Fin.ext (by
    match a with | ⟨0, _⟩ => rfl | ⟨1, _⟩ => rfl)
  have eb : idx_main_v52 (idx_main_v53 (ix2 p q)) = ix1 q := funext fun a => Fin.ext (by
    match a with | ⟨0, _⟩ => rfl)
  rw [val_main_v54_apply, val_main_v51_apply, val_main_v53_apply, val_main_v52_apply]
  generalize val_main_v50 (F := Ideal) x0 x1 x2 x3 x4 x5 = y
  simp only [el, er, eb, Ideal.addf_def]
  unfold dense
  rfl
/-- The output dense layer plus the input. -/
theorem v103_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (i : Idx2 10000 128) :
    val_main_v103 (F := Ideal) x0 x1 x2 x3 x4 x5 x6 x7 x8 x9 x10 x11 i
      = dense (fun k => val_main_v98 (F := Ideal) x0 x1 x2 x3 x4 x5 x6 x7 x8 x9 (ix2 (i 0) k)) x10 (fun h => x11 (ix1 h)) (i 1) + x0 i := by
  obtain ⟨p, q, rfl⟩ : ∃ p q, i = ix2 p q := ⟨i 0, i 1, eq_ix2 i⟩
  have el : ∀ k : Fin 128, lidx_main_v99 (ix2 p q) k = ix2 p k := fun k => funext fun a => Fin.ext (by
    match a with | ⟨0, _⟩ => rfl | ⟨1, _⟩ => rfl)
  have er : ∀ k : Fin 128, ridx_main_v99 (ix2 p q) k = ix2 k q := fun k => funext fun a => Fin.ext (by
    match a with | ⟨0, _⟩ => rfl | ⟨1, _⟩ => rfl)
  have eb : idx_main_v100 (idx_main_v101 (ix2 p q)) = ix1 q := funext fun a => Fin.ext (by
    match a with | ⟨0, _⟩ => rfl)
  rw [val_main_v103_apply, val_main_v102_apply, val_main_v99_apply, val_main_v101_apply, val_main_v100_apply]
  generalize val_main_v98 (F := Ideal) x0 x1 x2 x3 x4 x5 x6 x7 x8 x9 = y
  simp only [el, er, eb, Ideal.addf_def]
  unfold dense
  rfl
end Cert.Gnn.RDense
end
-- ==== Proof.RNorm.lean ====
import proofs.«423882_j12249246728934_2_alg».proof.Proof.Gen.ReferenceIdeal.Read
import proofs.«423882_j12249246728934_2_alg».proof.Proof.Spec

noncomputable section

open Idealize.ShloMosaic Idealize.ShloMosaic.TcCoe Idealize.ShloMosaic.ValueIdx Idealize.SL.Sem
open Cert.ReferenceIdeal Cert.ReferenceIdeal.Gen Cert.ReferenceIdeal.Read Cert.Gnn

namespace Cert.Gnn.RNorm

/-- The first layer's mean column, read at an index: the mean of the row. -/
private theorem v29_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (j : S10000x1.Idx) :
    val_main_v29 (F := Ideal) x0 x1 x2 x3 j
      = rowMean (fun k => val_main_v25 (F := Ideal) x0 x1 x2 x3 (ix2 (j 0) k)) := by
  rw [val_main_v29_apply, val_main_v27_apply, val_main_v28_apply, val_main_cst_5_apply,
    val_main_v26_apply, val_main_cst_4_apply]
  generalize val_main_v25 (F := Ideal) x0 x1 x2 x3 = Y
  simp only [Ideal.hostDivf_def, Ideal.ofBits_def, Ideal.ofBits_zero_f32, zero_add]
  unfold rowMean c128
  refine congrArg (fun s => Ideal.div s _) (Finset.sum_congr rfl fun k _ => ?_)
  exact congrArg Y (funext fun a => Fin.ext (by match a with | ⟨0, _⟩ => rfl | ⟨1, _⟩ => rfl))

/-- The first layer's variance column plus the offset, under the reciprocal square root, read at an index. -/
private theorem v41_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (j : S10000x1.Idx) :
    val_main_v41 (F := Ideal) x0 x1 x2 x3 j
      = Ideal.rsqrt (rowVar (fun k => val_main_v25 (F := Ideal) x0 x1 x2 x3 (ix2 (j 0) k)) + cEps) := by
  rw [val_main_v41_apply, val_main_v40_apply, val_main_v39_apply, val_main_cst_8_apply,
    val_main_v36_apply, val_main_v35_apply, val_main_cst_7_apply, val_main_v34_apply,
    val_main_v33_apply, val_main_cst_6_apply]
  simp only [val_main_v32_apply, val_main_v31_apply, val_main_v30_apply, v29_read]
  generalize val_main_v25 (F := Ideal) x0 x1 x2 x3 = Y
  simp only [Ideal.hostDivf_def, Ideal.hostUnary_rsqrt_def, Ideal.addf_def, Ideal.subf_def, Ideal.mulf_def,
    Ideal.ofBits_def, Ideal.ofBits_zero_f32, zero_add]
  unfold rowVar c128 cEps
  refine congrArg (fun s => Ideal.rsqrt (Ideal.div s _ + _)) (Finset.sum_congr rfl fun k _ => ?_)
  have e1 : idx_main_v33 (idx_main_v34 j) k = ix2 (j 0) k :=
    funext fun a => Fin.ext (by match a with | ⟨0, _⟩ => rfl | ⟨1, _⟩ => rfl)
  rw [e1]
  rfl

/-- The first layer's normalisation, scale, shift and ReLU, read at an index: `lnRelu` of the aggregated row. -/
theorem v50_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (i : Idx2 10000 128) :
    val_main_v50 (F := Ideal) x0 x1 x2 x3 x4 x5 i
      = lnRelu (fun k => val_main_v25 (F := Ideal) x0 x1 x2 x3 (ix2 (i 0) k)) (fun h => x4 (ix1 h)) (fun h => x5 (ix1 h)) (i 1) := by
  rw [val_main_v50_apply, val_main_call1_v0_apply, val_main_call1_cst_apply, val_main_v49_apply,
    val_main_v48_apply, val_main_v47_apply, val_main_v46_apply, val_main_v45_apply,
    val_main_v44_apply, val_main_v43_apply, val_main_v42_apply, v41_read,
    val_main_v38_apply, val_main_v37_apply, v29_read]
  have e4 : idx_main_v44 (idx_main_v45 i) = ix1 (i 1) :=
    funext fun a => Fin.ext (by match a with | ⟨0, _⟩ => rfl)
  have e5 : idx_main_v47 (idx_main_v48 i) = ix1 (i 1) :=
    funext fun a => Fin.ext (by match a with | ⟨0, _⟩ => rfl)
  rw [e4, e5]
  conv_lhs => rw [eq_ix2 i]
  generalize val_main_v25 (F := Ideal) x0 x1 x2 x3 = Y
  simp only [Ideal.maximumf_def, Ideal.addf_def, Ideal.subf_def, Ideal.mulf_def, Ideal.ofBits_def, Ideal.ofBits_zero_f32]
  unfold lnRelu
  rfl

/-- The second layer's mean column, read at an index: the mean of the row. -/
private theorem v77_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (j : S10000x1.Idx) :
    val_main_v77 (F := Ideal) x0 x1 x2 x3 x4 x5 x6 x7 j
      = rowMean (fun k => val_main_v73 (F := Ideal) x0 x1 x2 x3 x4 x5 x6 x7 (ix2 (j 0) k)) := by
  rw [val_main_v77_apply, val_main_v75_apply, val_main_v76_apply, val_main_cst_16_apply,
    val_main_v74_apply, val_main_cst_15_apply]
  generalize val_main_v73 (F := Ideal) x0 x1 x2 x3 x4 x5 x6 x7 = Y
  simp only [Ideal.hostDivf_def, Ideal.ofBits_def, Ideal.ofBits_zero_f32, zero_add]
  unfold rowMean c128
  refine congrArg (fun s => Ideal.div s _) (Finset.sum_congr rfl fun k _ => ?_)
  exact congrArg Y (funext fun a => Fin.ext (by match a with | ⟨0, _⟩ => rfl | ⟨1, _⟩ => rfl))

/-- The second layer's variance column plus the offset, under the reciprocal square root, read at an index. -/
private theorem v89_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (j : S10000x1.Idx) :
    val_main_v89 (F := Ideal) x0 x1 x2 x3 x4 x5 x6 x7 j
      = Ideal.rsqrt (rowVar (fun k => val_main_v73 (F := Ideal) x0 x1 x2 x3 x4 x5 x6 x7 (ix2 (j 0) k)) + cEps) := by
  rw [val_main_v89_apply, val_main_v88_apply, val_main_v87_apply, val_main_cst_19_apply,
    val_main_v84_apply, val_main_v83_apply, val_main_cst_18_apply, val_main_v82_apply,
    val_main_v81_apply, val_main_cst_17_apply]
  simp only [val_main_v80_apply, val_main_v79_apply, val_main_v78_apply, v77_read]
  generalize val_main_v73 (F := Ideal) x0 x1 x2 x3 x4 x5 x6 x7 = Y
  simp only [Ideal.hostDivf_def, Ideal.hostUnary_rsqrt_def, Ideal.addf_def, Ideal.subf_def, Ideal.mulf_def,
    Ideal.ofBits_def, Ideal.ofBits_zero_f32, zero_add]
  unfold rowVar c128 cEps
  refine congrArg (fun s => Ideal.rsqrt (Ideal.div s _ + _)) (Finset.sum_congr rfl fun k _ => ?_)
  have e1 : idx_main_v81 (idx_main_v82 j) k = ix2 (j 0) k :=
    funext fun a => Fin.ext (by match a with | ⟨0, _⟩ => rfl | ⟨1, _⟩ => rfl)
  rw [e1]
  rfl

/-- The second layer's, over the sum of the first layer's output and the second aggregation. -/
theorem v98_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (i : Idx2 10000 128) :
    val_main_v98 (F := Ideal) x0 x1 x2 x3 x4 x5 x6 x7 x8 x9 i
      = lnRelu (fun k => val_main_v73 (F := Ideal) x0 x1 x2 x3 x4 x5 x6 x7 (ix2 (i 0) k)) (fun h => x8 (ix1 h)) (fun h => x9 (ix1 h)) (i 1) := by
  rw [val_main_v98_apply, val_main_call3_v0_apply, val_main_call3_cst_apply, val_main_v97_apply,
    val_main_v96_apply, val_main_v95_apply, val_main_v94_apply, val_main_v93_apply,
    val_main_v92_apply, val_main_v91_apply, val_main_v90_apply, v89_read,
    val_main_v86_apply, val_main_v85_apply, v77_read]
  have e4 : idx_main_v92 (idx_main_v93 i) = ix1 (i 1) :=
    funext fun a => Fin.ext (by match a with | ⟨0, _⟩ => rfl)
  have e5 : idx_main_v95 (idx_main_v96 i) = ix1 (i 1) :=
    funext fun a => Fin.ext (by match a with | ⟨0, _⟩ => rfl)
  rw [e4, e5]
  conv_lhs => rw [eq_ix2 i]
  generalize val_main_v73 (F := Ideal) x0 x1 x2 x3 x4 x5 x6 x7 = Y
  simp only [Ideal.maximumf_def, Ideal.addf_def, Ideal.subf_def, Ideal.mulf_def, Ideal.ofBits_def, Ideal.ofBits_zero_f32]
  unfold lnRelu
  rfl
end Cert.Gnn.RNorm
end
-- ==== Proof.RAgg.lean ====
import proofs.«423882_j12249246728934_2_alg».proof.Proof.Gen.ReferenceIdeal.Read
import proofs.«423882_j12249246728934_2_alg».proof.Proof.Spec
import Idealize.ShloMosaic.Lib.StableHlo.Predicate
import Idealize.ShloMosaic.Lib.IdealHost

noncomputable section

open Idealize.ShloMosaic Idealize.ShloMosaic.TcCoe Idealize.ShloMosaic.ValueIdx Idealize.SL.Sem
open Cert.ReferenceIdeal Cert.ReferenceIdeal.Gen Cert.ReferenceIdeal.Read Cert.Gnn

namespace Cert.Gnn.RAgg

/-- The gather of rows: result element (e, h) is the operand at row the clamped start index names, column h. -/
private theorem gather_read {α : Type} (Y : S10000x128.Idx → α) (idx : IVec S640000x1 32) (j : S640000x128.Idx) :
    Host.gather gather_S10000x128_S640000x1_S640000x128_1_0_n_n_0_1_1128 Y idx j
      = Y (ix2 ⟨min (idx (ix2 (j 0) 0)).toInt.toNat 9999, by omega⟩ (j 1)) := by
  unfold Host.gather
  congr 1
  funext a
  refine Fin.ext ?_
  match a with
  | ⟨0, _⟩ =>
    show gather_S10000x128_S640000x1_S640000x128_1_0_n_n_0_1_1128.start j idx 0 + gather_S10000x128_S640000x1_S640000x128_1_0_n_n_0_1_1128.batchCoord j 0 + gather_S10000x128_S640000x1_S640000x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S640000x1_S640000x128_1_0_n_n_0_1_1128.startIndexMap from List.mem_singleton.mpr rfl)]
    have hsi : gather_S10000x128_S640000x1_S640000x128_1_0_n_n_0_1_1128.siIdx j ⟨List.idxOf (0 : Fin 2) gather_S10000x128_S640000x1_S640000x128_1_0_n_n_0_1_1128.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show gather_S10000x128_S640000x1_S640000x128_1_0_n_n_0_1_1128.start j idx 1 + gather_S10000x128_S640000x1_S640000x128_1_0_n_n_0_1_1128.batchCoord j 1 + gather_S10000x128_S640000x1_S640000x128_1_0_n_n_0_1_1128.offCoord j 1 = _
    rw [GatherDims.batchCoord_eq_zero _ _ _ List.not_mem_nil]
    unfold GatherDims.start
    rw [dif_neg (show ¬ (1 : Fin 2) ∈ gather_S10000x128_S640000x1_S640000x128_1_0_n_n_0_1_1128.startIndexMap by decide)]
    simp only [Nat.add_zero, Nat.zero_add]
    rfl

/-- Two rank-2 indices with equal coordinates are equal. -/
private theorem idx2_ext {n0 n1 : Nat} (f g : (⟨2, ![n0, n1]⟩ : Shape).Idx) (h0 : (f 0).val = (g 0).val)
    (h1 : (f 1).val = (g 1).val) : f = g := by
  funext a
  match a with
  | ⟨0, _⟩ => exact Fin.ext h0
  | ⟨1, _⟩ => exact Fin.ext h1

private abbrev sc2 := scatter_S10000x128_S640000x1_S640000x128_1_0_0_1
private abbrev sc1 := scatter_S10000_S640000x1_S640000_n_0_0_1

/-- The row scatter's window starts, on the row axis, at the scatter index of the update's row, read signed. -/
private theorem sc2_start0 (j : S640000x128.Idx) (idx : IVec S640000x1 32) :
    sc2.start j idx 0 = (idx (ix2 (j 0) 0)).toInt := by
  unfold ScatterDims.start
  rw [dif_pos (show (0 : Fin 2) ∈ sc2.scatterDimsToOperandDims from List.mem_singleton.mpr rfl)]
  congr 2
  funext b; refine Fin.ext ?_
  match b with
  | ⟨0, _⟩ => rfl
  | ⟨1, _⟩ => rfl

private theorem sc2_start1 (j : S640000x128.Idx) (idx : IVec S640000x1 32) : sc2.start j idx 1 = 0 := by
  unfold ScatterDims.start
  rw [dif_neg (show ¬ (1 : Fin 2) ∈ sc2.scatterDimsToOperandDims by decide)]

private theorem sc2_window0 (j : S640000x128.Idx) : sc2.window j 0 = 0 := by
  unfold ScatterDims.window
  rw [dif_neg (show ¬ (0 : Fin 2) ∈ sc2.sKept by decide)]

private theorem sc2_window1 (j : S640000x128.Idx) : sc2.window j 1 = (j 1).val := by
  unfold ScatterDims.window
  rw [dif_pos (show (1 : Fin 2) ∈ sc2.sKept by decide)]
  rfl

/-- Where an update of the row scatter lands: at the row its scatter index names (when that is a row), in its own column. -/
private theorem sc2_resultIdx (j : S640000x128.Idx) (idx : IVec S640000x1 32) (i : S10000x128.Idx) :
    sc2.resultIdx? j idx = some i ↔ (idx (ix2 (j 0) 0)).toInt = ((i 0).val : Int) ∧ (j 1).val = (i 1).val := by
  have hi0 : (i 0).val < 10000 := (i 0).isLt
  have hi1 : (i 1).val < 128 := (i 1).isLt
  have hj1 : (j 1).val < 128 := (j 1).isLt
  unfold ScatterDims.resultIdx?
  split
  · rename_i hh
    rw [Option.some.injEq]
    rw [Fin.forall_fin_two, sc2_start0, sc2_start1, sc2_window0, sc2_window1] at hh
    constructor
    · intro heq
      have h0 : ((sc2.start j idx 0 + (sc2.window j 0 : Int)).toNat) = (i 0).val := congrArg (fun f => (f 0).val) heq
      have h1 : ((sc2.start j idx 1 + (sc2.window j 1 : Int)).toNat) = (i 1).val := congrArg (fun f => (f 1).val) heq
      rw [sc2_start0, sc2_window0] at h0
      rw [sc2_start1, sc2_window1] at h1
      have := hh.1.1
      constructor <;> omega
    · intro ⟨h0, h1⟩
      refine idx2_ext _ _ ?_ ?_
      · show ((sc2.start j idx 0 + (sc2.window j 0 : Int)).toNat) = (i 0).val
        rw [sc2_start0, sc2_window0, h0]; omega
      · show ((sc2.start j idx 1 + (sc2.window j 1 : Int)).toNat) = (i 1).val
        rw [sc2_start1, sc2_window1]; omega
  · rename_i hh
    constructor
    · intro h; cases h
    · intro ⟨h0, h1⟩
      exfalso; apply hh
      rw [Fin.forall_fin_two, sc2_start0, sc2_start1, sc2_window0, sc2_window1, h0]
      refine ⟨⟨by omega, ?_⟩, ⟨by omega, ?_⟩⟩
      · show ((i 0).val : Int) + ((0 : Nat) : Int) < ((10000 : Nat) : Int); omega
      · show (0 : Int) + ((j 1).val : Int) < ((128 : Nat) : Int); omega

/-- THE ROW SCATTER READ AT (d, h): the operand's element plus the updates of column h over the edges whose index is d. -/
private theorem scatter2_read (X : S10000x128.Idx → EReal) (idx : IVec S640000x1 32) (upd : S640000x128.Idx → EReal)
    (d : Fin 10000) (h : Fin 128) :
    Ideal.hostScatterAdd sc2 X idx upd (ix2 d h)
      = X (ix2 d h) + ∑ e ∈ Finset.univ.filter (fun e : Fin 640000 => (idx (ix2 e 0)).toInt = (d.val : Int)), upd (ix2 e h) := by
  unfold Ideal.hostScatterAdd
  refine congrArg (fun t => X (ix2 d h) + t) ?_
  refine Finset.sum_nbij' (fun j => (j 0 : Fin 640000)) (fun e => ix2 e h) ?_ ?_ ?_ ?_ ?_
  · intro j hj
    exact Finset.mem_filter.mpr ⟨Finset.mem_univ _, ((sc2_resultIdx j idx _).mp (Finset.mem_filter.mp hj).2).1⟩
  · intro e he
    exact Finset.mem_filter.mpr ⟨Finset.mem_univ _, (sc2_resultIdx _ idx _).mpr ⟨(Finset.mem_filter.mp he).2, rfl⟩⟩
  · intro j hj
    rw [Finset.mem_filter] at hj
    exact idx2_ext _ _ rfl ((sc2_resultIdx j idx _).mp hj.2).2.symm
  · intro e he; rfl
  · intro j hj
    rw [Finset.mem_filter] at hj
    congr 1
    exact idx2_ext _ _ rfl ((sc2_resultIdx j idx _).mp hj.2).2

/-- The degree scatter's window starts at the scatter index of the update, read signed. -/
private theorem sc1_start0 (j : S640000.Idx) (idx : IVec S640000x1 32) :
    sc1.start j idx 0 = (idx (ix2 (j 0) 0)).toInt := by
  unfold ScatterDims.start
  rw [dif_pos (show (0 : Fin 1) ∈ sc1.scatterDimsToOperandDims from List.mem_singleton.mpr rfl)]
  congr 2
  funext b; refine Fin.ext ?_
  match b with
  | ⟨0, _⟩ => rfl
  | ⟨1, _⟩ => rfl

private theorem sc1_window0 (j : S640000.Idx) : sc1.window j 0 = 0 := by
  unfold ScatterDims.window
  rw [dif_neg (show ¬ (0 : Fin 1) ∈ sc1.sKept by decide)]

/-- Where an update of the degree scatter lands: at the node its scatter index names, when that is a node. -/
private theorem sc1_resultIdx (j : S640000.Idx) (idx : IVec S640000x1 32) (i : S10000.Idx) :
    sc1.resultIdx? j idx = some i ↔ (idx (ix2 (j 0) 0)).toInt = ((i 0).val : Int) := by
  have hi0 : (i 0).val < 10000 := (i 0).isLt
  unfold ScatterDims.resultIdx?
  split
  · rename_i hh
    rw [Option.some.injEq]
    rw [Fin.forall_fin_one, sc1_start0, sc1_window0] at hh
    constructor
    · intro heq
      have h0 : ((sc1.start j idx 0 + (sc1.window j 0 : Int)).toNat) = (i 0).val := congrArg (fun f => (f 0).val) heq
      rw [sc1_start0, sc1_window0] at h0
      have := hh.1
      omega
    · intro h0
      funext a
      match a with
      | ⟨0, _⟩ =>
        refine Fin.ext ?_
        show ((sc1.start j idx 0 + (sc1.window j 0 : Int)).toNat) = (i 0).val
        rw [sc1_start0, sc1_window0, h0]; omega
  · rename_i hh
    constructor
    · intro h; cases h
    · intro h0
      exfalso; apply hh
      rw [Fin.forall_fin_one, sc1_start0, sc1_window0, h0]
      refine ⟨by omega, ?_⟩
      show ((i 0).val : Int) + ((0 : Nat) : Int) < ((10000 : Nat) : Int); omega

/-- THE DEGREE SCATTER READ AT d: the operand's element plus the updates over the edges whose index is d. -/
private theorem scatter1_read (X : S10000.Idx → EReal) (idx : IVec S640000x1 32) (upd : S640000.Idx → EReal)
    (d : Fin 10000) :
    Ideal.hostScatterAdd sc1 X idx upd (ix1 d)
      = X (ix1 d) + ∑ e ∈ Finset.univ.filter (fun e : Fin 640000 => (idx (ix2 e 0)).toInt = (d.val : Int)), upd (ix1 e) := by
  unfold Ideal.hostScatterAdd
  refine congrArg (fun t => X (ix1 d) + t) ?_
  refine Finset.sum_nbij' (fun j => (j 0 : Fin 640000)) (fun e => ix1 e) ?_ ?_ ?_ ?_ ?_
  · intro j hj
    exact Finset.mem_filter.mpr ⟨Finset.mem_univ _, (sc1_resultIdx j idx _).mp (Finset.mem_filter.mp hj).2⟩
  · intro e he
    exact Finset.mem_filter.mpr ⟨Finset.mem_univ _, (sc1_resultIdx _ idx _).mpr (Finset.mem_filter.mp he).2⟩
  · intro j hj
    exact (eq_ix1 j).symm
  · intro e he; rfl
  · intro j hj
    exact congrArg upd (eq_ix1 j)

/-- An edge word in the node range reads the same signed, and names the node of its value. -/
private theorem toInt_node (w : BitVec 32) (hw : w.toNat < 10000) : w.toInt = ((node w).val : Int) := by
  rw [StableHlo.Predicate.toInt_eq_toNat_of_lt (by omega)]
  unfold node
  rw [dif_pos hw]

/-- The edge array's row 0 as the flat source words. -/
private theorem v1_read (x1 : (⟨S2x640000, .i32⟩ : BufTy).Contents (Elt Ideal)) (e : Fin 640000) :
    val_main_v1 (F := Ideal) x1 (ix1 e) = x1 (ix2 0 e) := by
  rw [val_main_v1_apply, val_main_v0_apply]
  refine congrArg x1 (idx2_ext _ _ rfl ?_)
  show e.val % 640000 = e.val
  exact Nat.mod_eq_of_lt e.isLt

/-- The edge array's row 1 as the flat destination words. -/
private theorem v3_read (x1 : (⟨S2x640000, .i32⟩ : BufTy).Contents (Elt Ideal)) (e : Fin 640000) :
    val_main_v3 (F := Ideal) x1 (ix1 e) = x1 (ix2 1 e) := by
  rw [val_main_v3_apply, val_main_v2_apply]
  refine congrArg x1 (idx2_ext _ _ rfl ?_)
  show e.val % 640000 = e.val
  exact Nat.mod_eq_of_lt e.isLt

/-- A source word in the node range is not negative: the wrap-around select keeps it. -/
private theorem wrap_keep (w a : BitVec 32) (hw : w.toNat < 10000) :
    Scalar.select (IntOp.cmpi .slt w 0#32) a w = w := by
  have h0 : IntOp.cmpi .slt w 0#32 = 0#1 := by
    refine eq_zero_of_ne_one (fun h => ?_)
    have := (StableHlo.Predicate.slt_iff_toNat (a := w) (b := 0#32) (by omega) (by decide)).mp h
    simp at this
  rw [h0, select_zero]

/-- The source column (first aggregation): under the range condition, the edge's source word. -/
private theorem v13_read (x1 : (⟨S2x640000, .i32⟩ : BufTy).Contents (Elt Ideal)) (hE : InRange x1) (e : Fin 640000) :
    val_main_v13 (F := Ideal) x1 (ix2 e 0) = x1 (ix2 0 e) := by
  rw [val_main_v13_apply, val_main_v12_apply, val_main_v9_apply, val_main_v8_apply, val_main_c_apply]
  have hk : idx_main_v13 (ix2 e 0) = ix1 e := by
    funext a
    match a with
    | ⟨0, _⟩ => rfl
  rw [hk, v1_read]
  exact wrap_keep _ _ (hE _)

/-- The destination column (first aggregation) for the row scatter: the edge's destination word. -/
private theorem v16_read (x1 : (⟨S2x640000, .i32⟩ : BufTy).Contents (Elt Ideal)) (e : Fin 640000) :
    val_main_v16 (F := Ideal) x1 (ix2 e 0) = x1 (ix2 1 e) := by
  rw [val_main_v16_apply]
  have hk : idx_main_v16 (ix2 e 0) = ix1 e := by
    funext a
    match a with
    | ⟨0, _⟩ => rfl
  rw [hk, v3_read]

/-- The destination column (first aggregation) for the degree scatter: the edge's destination word. -/
private theorem v20_read (x1 : (⟨S2x640000, .i32⟩ : BufTy).Contents (Elt Ideal)) (e : Fin 640000) :
    val_main_v20 (F := Ideal) x1 (ix2 e 0) = x1 (ix2 1 e) := by
  rw [val_main_v20_apply]
  have hk : idx_main_v20 (ix2 e 0) = ix1 e := by
    funext a
    match a with
    | ⟨0, _⟩ => rfl
  rw [hk, v3_read]

/-- The row scatter's operand (first aggregation) is zero. -/
private theorem v15_read (i : S10000x128.Idx) : val_main_v15 (F := Ideal) i = 0 := by
  rw [val_main_v15_apply, val_main_cst_apply]
  exact Ideal.ofBits_zero_f32

/-- The degree (first aggregation): the scatter of ones at the destinations. -/
private theorem v21_read (x1 : (⟨S2x640000, .i32⟩ : BufTy).Contents (Elt Ideal)) (hE : InRange x1) (d : Fin 10000) :
    val_main_v21 (F := Ideal) x1 (ix1 d) = deg x1 d := by
  unfold val_main_v21 Host.scatterAdd
  rw [Ideal.hostScatterAdd_def, scatter1_read, val_main_v19_apply, val_main_cst_2_apply]
  unfold deg
  rw [show FloatOps.ofBits (F := Ideal) .f32 0x00000000#32 = (0 : EReal) from Ideal.ofBits_zero_f32, zero_add]
  refine Finset.sum_congr (Finset.filter_congr (fun e _ => ?_)) (fun e _ => ?_)
  · rw [v20_read, toInt_node _ (hE _)]
    unfold dst
    constructor
    · intro h; exact Fin.ext (by exact_mod_cast h)
    · intro h; rw [h]
  · rw [val_main_v18_apply, val_main_cst_1_apply]
    exact Ideal.ofBits_one_f32

/-- The divisor (first aggregation): the degree clamped below at one, along the row. -/
private theorem v24_read (x1 : (⟨S2x640000, .i32⟩ : BufTy).Contents (Elt Ideal)) (hE : InRange x1) (i : S10000x128.Idx) :
    val_main_v24 (F := Ideal) x1 i = max 1 (deg x1 (i 0)) := by
  obtain ⟨a, b, rfl⟩ : ∃ a b, i = ix2 a b := ⟨i 0, i 1, eq_ix2 i⟩
  show val_main_v24 (F := Ideal) x1 (ix2 a b) = max 1 (deg x1 a)
  rw [val_main_v24_apply, val_main_v23_apply, val_main_v22_apply, val_main_call0_v1_apply, val_main_call0_v0_apply,
    val_main_cst_3_apply]
  have hk : idx_main_v23 (idx_main_v24 (ix2 a b)) = ix1 a := by
    funext k
    match k with
    | ⟨0, _⟩ => rfl
  rw [hk, v21_read x1 hE, Ideal.maximumf_def]
  rw [show FloatOps.ofBits (F := Ideal) .f32 0x3F800000#32 = (1 : EReal) from Ideal.ofBits_one_f32]

/-- The source column (second aggregation): under the range condition, the edge's source word. -/
private theorem v60_read (x1 : (⟨S2x640000, .i32⟩ : BufTy).Contents (Elt Ideal)) (hE : InRange x1) (e : Fin 640000) :
    val_main_v60 (F := Ideal) x1 (ix2 e 0) = x1 (ix2 0 e) := by
  rw [val_main_v60_apply, val_main_v59_apply, val_main_v56_apply, val_main_v55_apply, val_main_c_9_apply]
  have hk : idx_main_v60 (ix2 e 0) = ix1 e := by
    funext a
    match a with
    | ⟨0, _⟩ => rfl
  rw [hk, v1_read]
  exact wrap_keep _ _ (hE _)

/-- The destination column (second aggregation) for the row scatter: the edge's destination word. -/
private theorem v63_read (x1 : (⟨S2x640000, .i32⟩ : BufTy).Contents (Elt Ideal)) (e : Fin 640000) :
    val_main_v63 (F := Ideal) x1 (ix2 e 0) = x1 (ix2 1 e) := by
  rw [val_main_v63_apply]
  have hk : idx_main_v63 (ix2 e 0) = ix1 e := by
    funext a
    match a with
    | ⟨0, _⟩ => rfl
  rw [hk, v3_read]

/-- The destination column (second aggregation) for the degree scatter: the edge's destination word. -/
private theorem v67_read (x1 : (⟨S2x640000, .i32⟩ : BufTy).Contents (Elt Ideal)) (e : Fin 640000) :
    val_main_v67 (F := Ideal) x1 (ix2 e 0) = x1 (ix2 1 e) := by
  rw [val_main_v67_apply]
  have hk : idx_main_v67 (ix2 e 0) = ix1 e := by
    funext a
    match a with
    | ⟨0, _⟩ => rfl
  rw [hk, v3_read]

/-- The row scatter's operand (second aggregation) is zero. -/
private theorem v62_read (i : S10000x128.Idx) : val_main_v62 (F := Ideal) i = 0 := by
  rw [val_main_v62_apply, val_main_cst_11_apply]
  exact Ideal.ofBits_zero_f32

/-- The degree (second aggregation): the scatter of ones at the destinations. -/
private theorem v68_read (x1 : (⟨S2x640000, .i32⟩ : BufTy).Contents (Elt Ideal)) (hE : InRange x1) (d : Fin 10000) :
    val_main_v68 (F := Ideal) x1 (ix1 d) = deg x1 d := by
  unfold val_main_v68 Host.scatterAdd
  rw [Ideal.hostScatterAdd_def, scatter1_read, val_main_v66_apply, val_main_cst_13_apply]
  unfold deg
  rw [show FloatOps.ofBits (F := Ideal) .f32 0x00000000#32 = (0 : EReal) from Ideal.ofBits_zero_f32, zero_add]
  refine Finset.sum_congr (Finset.filter_congr (fun e _ => ?_)) (fun e _ => ?_)
  · rw [v67_read, toInt_node _ (hE _)]
    unfold dst
    constructor
    · intro h; exact Fin.ext (by exact_mod_cast h)
    · intro h; rw [h]
  · rw [val_main_v65_apply, val_main_cst_12_apply]
    exact Ideal.ofBits_one_f32

/-- The divisor (second aggregation): the degree clamped below at one, along the row. -/
private theorem v71_read (x1 : (⟨S2x640000, .i32⟩ : BufTy).Contents (Elt Ideal)) (hE : InRange x1) (i : S10000x128.Idx) :
    val_main_v71 (F := Ideal) x1 i = max 1 (deg x1 (i 0)) := by
  obtain ⟨a, b, rfl⟩ : ∃ a b, i = ix2 a b := ⟨i 0, i 1, eq_ix2 i⟩
  show val_main_v71 (F := Ideal) x1 (ix2 a b) = max 1 (deg x1 a)
  rw [val_main_v71_apply, val_main_v70_apply, val_main_v69_apply, val_main_call2_v1_apply, val_main_call2_v0_apply,
    val_main_cst_14_apply]
  have hk : idx_main_v70 (idx_main_v71 (ix2 a b)) = ix1 a := by
    funext k
    match k with
    | ⟨0, _⟩ => rfl
  rw [hk, v68_read x1 hE, Ideal.maximumf_def]
  rw [show FloatOps.ofBits (F := Ideal) .f32 0x3F800000#32 = (1 : EReal) from Ideal.ofBits_one_f32]

/-- THE MEAN AGGREGATION, over variable arrays: gather `Y` at the source column, scatter-add at the destination column
    onto zeros, divide by the clamped degree. -/
private theorem agg_read (x1 : (⟨S2x640000, .i32⟩ : BufTy).Contents (Elt Ideal)) (hE : InRange x1)
    (Y Z D : FVec Ideal S10000x128 .f32) (cs cd : IVec S640000x1 32)
    (hZ : ∀ i, Z i = 0) (hcs : ∀ e, cs (ix2 e 0) = x1 (ix2 0 e)) (hcd : ∀ e, cd (ix2 e 0) = x1 (ix2 1 e))
    (hD : ∀ i, D i = max 1 (deg x1 (i 0))) (i : Idx2 10000 128) :
    Host.divf (Host.scatterAdd sc2 Z cd (Host.gather gather_S10000x128_S640000x1_S640000x128_1_0_n_n_0_1_1128 Y cs)) D i
      = meanAgg x1 (fun r h => Y (ix2 r h)) (i 0) (i 1) := by
  obtain ⟨a, b, rfl⟩ : ∃ a b, i = ix2 a b := ⟨i 0, i 1, eq_ix2 i⟩
  show FloatOps.hostDivf (Host.scatterAdd sc2 Z cd (Host.gather gather_S10000x128_S640000x1_S640000x128_1_0_n_n_0_1_1128 Y cs) (ix2 a b)) (D (ix2 a b))
    = meanAgg x1 (fun r h => Y (ix2 r h)) a b
  unfold Host.scatterAdd meanAgg
  rw [Ideal.hostDivf_def, Ideal.hostScatterAdd_def, scatter2_read, hZ, zero_add, hD]
  refine congrArg (fun t => Ideal.div t (max 1 (deg x1 a))) ?_
  refine Finset.sum_congr (Finset.filter_congr (fun e _ => ?_)) (fun e _ => ?_)
  · rw [hcd, toInt_node _ (hE _)]
    unfold dst
    constructor
    · intro h; exact Fin.ext (by exact_mod_cast h)
    · intro h; rw [h]
  · rw [gather_read]
    refine congrArg Y (idx2_ext _ _ ?_ rfl)
    show min (cs (ix2 e 0)).toInt.toNat 9999 = (src x1 e).val
    rw [hcs, toInt_node _ (hE _)]
    unfold src
    have := (node (x1 (ix2 0 e))).isLt
    omega

/-- The first mean aggregation (gather at the sources, scatter-add at the destinations, divide by the clamped degree),
    read at an index, for edge words in the node range. -/
theorem v25_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (hE : InRange x1) (i : Idx2 10000 128) :
    val_main_v25 (F := Ideal) x0 x1 x2 x3 i
      = meanAgg x1 (fun r h => val_main_v7 (F := Ideal) x0 x2 x3 (ix2 r h)) (i 0) (i 1) := by
  unfold val_main_v25 val_main_v17 val_main_v14
  exact agg_read x1 hE (val_main_v7 (F := Ideal) x0 x2 x3) (val_main_v15 (F := Ideal)) (val_main_v24 (F := Ideal) x1)
    (val_main_v13 (F := Ideal) x1) (val_main_v16 (F := Ideal) x1) v15_read (v13_read x1 hE) (v16_read x1) (v24_read x1 hE) i
/-- The second mean aggregation. -/
theorem v72_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (hE : InRange x1) (i : Idx2 10000 128) :
    val_main_v72 (F := Ideal) x0 x1 x2 x3 x4 x5 x6 x7 i
      = meanAgg x1 (fun r h => val_main_v54 (F := Ideal) x0 x1 x2 x3 x4 x5 x6 x7 (ix2 r h)) (i 0) (i 1) := by
  unfold val_main_v72 val_main_v64 val_main_v61
  exact agg_read x1 hE (val_main_v54 (F := Ideal) x0 x1 x2 x3 x4 x5 x6 x7) (val_main_v62 (F := Ideal)) (val_main_v71 (F := Ideal) x1)
    (val_main_v60 (F := Ideal) x1) (val_main_v63 (F := Ideal) x1) v62_read (v60_read x1 hE) (v63_read x1) (v71_read x1 hE) i
end Cert.Gnn.RAgg
end
-- ==== Proof.RChain.lean ====
import proofs.«423882_j12249246728934_2_alg».proof.Proof.Gen.ReferenceIdeal.Read
import proofs.«423882_j12249246728934_2_alg».proof.Proof.Spec
import proofs.«423882_j12249246728934_2_alg».proof.Proof.RDense
import proofs.«423882_j12249246728934_2_alg».proof.Proof.RNorm
import proofs.«423882_j12249246728934_2_alg».proof.Proof.RAgg

noncomputable section

open Idealize.ShloMosaic Idealize.ShloMosaic.TcCoe Idealize.ShloMosaic.ValueIdx Idealize.SL.Sem
open Cert.ReferenceIdeal Cert.ReferenceIdeal.Gen Cert.ReferenceIdeal.Read Cert.Gnn

namespace Cert.Gnn.RChain

/-- The first layer's output, read at a node and a feature: dense map, mean aggregation, normalisation. -/
theorem layer1_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (hE : InRange x1) (r : Fin 10000) (k : Fin 128) :
    val_main_v50 (F := Ideal) x0 x1 x2 x3 x4 x5 (ix2 r k)
      = refLayer1 (fun r h => x0 (ix2 r h)) x1 x2 (fun h => x3 (ix1 h)) (fun h => x4 (ix1 h)) (fun h => x5 (ix1 h)) r k := by
  rw [RNorm.v50_read]
  unfold refLayer1
  refine congrArg (fun v => lnRelu v (fun h => x4 (ix1 h)) (fun h => x5 (ix1 h)) k) (funext fun k' => ?_)
  rw [RAgg.v25_read x0 x1 x2 x3 hE]
  refine congrArg (fun R => meanAgg x1 R r k') (funext fun r' => funext fun h' => ?_)
  exact RDense.v7_read x0 x2 x3 (ix2 r' h')

/-- The second layer's output: the first layer's output plus the aggregation of its dense image, normalised. -/
theorem layer2_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (hE : InRange x1) (r : Fin 10000) (k : Fin 128) :
    val_main_v98 (F := Ideal) x0 x1 x2 x3 x4 x5 x6 x7 x8 x9 (ix2 r k)
      = refLayer2 (refLayer1 (fun r h => x0 (ix2 r h)) x1 x2 (fun h => x3 (ix1 h)) (fun h => x4 (ix1 h)) (fun h => x5 (ix1 h)))
          x1 x6 (fun h => x7 (ix1 h)) (fun h => x8 (ix1 h)) (fun h => x9 (ix1 h)) r k := by
  rw [RNorm.v98_read]
  unfold refLayer2
  refine congrArg (fun v => lnRelu v (fun h => x8 (ix1 h)) (fun h => x9 (ix1 h)) k) (funext fun k' => ?_)
  rw [val_main_v73_apply, Ideal.addf_def, RAgg.v72_read x0 x1 x2 x3 x4 x5 x6 x7 hE]
  refine congrArg₂ (· + ·) (layer1_read x0 x1 x2 x3 x4 x5 hE r k') ?_
  refine congrArg (fun R => meanAgg x1 R r k') (funext fun r' => funext fun h' => ?_)
  rw [RDense.v54_read]
  refine congrArg (fun v => dense v x6 (fun h => x7 (ix1 h)) h') (funext fun k'' => ?_)
  exact layer1_read x0 x1 x2 x3 x4 x5 hE r' k''

/-- The reference's result, read at an index, is the network of the specification. -/
theorem ref_read (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (hE : InRange x1) (i : Idx2 10000 128) :
    val_main_v103 (F := Ideal) x0 x1 x2 x3 x4 x5 x6 x7 x8 x9 x10 x11 i = refOut (fun r h => x0 (ix2 r h)) x1 x2 (fun h => x3 (ix1 h)) (fun h => x4 (ix1 h)) (fun h => x5 (ix1 h)) x6 (fun h => x7 (ix1 h)) (fun h => x8 (ix1 h)) (fun h => x9 (ix1 h)) x10 (fun h => x11 (ix1 h)) (i 0) (i 1) := by
  rw [RDense.v103_read]
  unfold refOut
  refine congrArg₂ (· + ·) ?_ (congrArg x0 (eq_ix2 i))
  refine congrArg (fun v => dense v x10 (fun h => x11 (ix1 h)) (i 1)) (funext fun k => ?_)
  exact layer2_read x0 x1 x2 x3 x4 x5 x6 x7 x8 x9 hE (i 0) k

end Cert.Gnn.RChain
end
-- ==== Proof.AggBridge.lean ====
import proofs.«423882_j12249246728934_2_alg».proof.Proof.Spec
import Mathlib.Data.EReal.Operations
import Mathlib.Data.EReal.Inv

noncomputable section

open Idealize.ShloMosaic Idealize.ShloMosaic.ValueIdx Cert.Gnn

namespace Cert.Gnn

/-- A sum of ones times `y` is the sum of as many `y`s; no finiteness of `y` is needed, since the ones are
    nonnegative. -/
private theorem sum_ones_mul {ι : Type} (F : Finset ι) (y : EReal) :
    (∑ _e ∈ F, (1 : EReal)) * y = ∑ _e ∈ F, y := by
  classical
  induction F using Finset.induction_on with
  | empty => rw [Finset.sum_empty, Finset.sum_empty, zero_mul]
  | insert a s ha ih =>
    rw [Finset.sum_insert ha, Finset.sum_insert ha,
      EReal.right_distrib_of_nonneg zero_le_one (Finset.sum_nonneg (fun _ _ => zero_le_one)), one_mul, ih]

/-- Summing over the fibres of `g` inside the set cut out by `P` is summing over that set. -/
private theorem sum_fibres {α β : Type} [Fintype α] [Fintype β] [DecidableEq α]
    (P : β → Prop) [DecidablePred P] (g : β → α) (f : α → EReal)
    [∀ s, DecidablePred (fun e => P e ∧ g e = s)] :
    ∑ s : α, ∑ e ∈ Finset.univ.filter (fun e => P e ∧ g e = s), f s
      = ∑ e ∈ Finset.univ.filter P, f (g e) := by
  have h1 : ∀ s : α, ∑ e ∈ Finset.univ.filter (fun e => P e ∧ g e = s), f s
      = ∑ e ∈ Finset.univ.filter P, (if g e = s then f s else 0) := by
    intro s
    rw [Finset.sum_filter, Finset.sum_filter]
    refine Finset.sum_congr rfl (fun e _ => ?_)
    by_cases hp : P e <;> by_cases hg : g e = s <;> simp [hp, hg]
  rw [Finset.sum_congr rfl (fun s _ => h1 s), Finset.sum_comm]
  refine Finset.sum_congr rfl (fun e _ => ?_)
  rw [Finset.sum_ite_eq, if_pos (Finset.mem_univ _)]

/-- The product with the count matrix, scaled by the reciprocal clamped degree, is the mean aggregation along the edge
    list, when the padded array agrees with the node array on the first 10000 rows. -/
theorem agg_bridge (E : Idx2 2 640000 → BitVec 32) (hE : InRange E) (XT : Idx2 10240 128 → EReal)
    (R : Fin 10000 → Fin 128 → EReal) (hXT : ∀ (r : Fin 10000) (h : Fin 128), XT (ix2 (up r) h) = R r h)
    (r : Fin 10000) (h : Fin 128) :
    (∑ s : Fin 10240, adj E (up r) s * XT (ix2 s h)) * invDeg E (up r) = meanAgg E R r h := by
  -- the padded degree at a node's row is the node's degree
  have hdeg : degP E (up r) = deg E r := by
    unfold degP
    have hlt : (up r).val < 10000 := r.isLt
    rw [dif_pos hlt]
    rfl
  -- the clamped degree is at least one, so it is not zero
  have hc1 : (1 : EReal) ≤ max 1 (deg E r) := le_max_left _ _
  have hc0 : max 1 (deg E r) ≠ 0 := by
    intro h0
    rw [h0] at hc1
    exact absurd hc1 (not_le.mpr zero_lt_one)
  -- the matrix row against the padded array is the sum along the edges that end at the node
  have hsum : (∑ s : Fin 10240, adj E (up r) s * XT (ix2 s h))
      = ∑ e ∈ Finset.univ.filter (fun e : Fin 640000 => dst E e = r), R (src E e) h := by
    have h1 : ∀ s : Fin 10240, adj E (up r) s * XT (ix2 s h)
        = ∑ e ∈ Finset.univ.filter (fun e : Fin 640000 => dst E e = r ∧ up (src E e) = s), XT (ix2 s h) := by
      intro s
      unfold adj
      rw [sum_ones_mul]
      refine Finset.sum_congr (Finset.filter_congr (fun e _ => ?_)) (fun _ _ => rfl)
      constructor
      · rintro ⟨hd, hs⟩
        exact ⟨Fin.ext hd, Fin.ext hs⟩
      · rintro ⟨hd, hs⟩
        exact ⟨congrArg Fin.val hd, congrArg Fin.val hs⟩
    rw [Finset.sum_congr rfl (fun s _ => h1 s),
      sum_fibres (fun e : Fin 640000 => dst E e = r) (fun e => up (src E e)) (fun s => XT (ix2 s h))]
    exact Finset.sum_congr rfl (fun e _ => hXT _ _)
  rw [hsum]
  unfold invDeg meanAgg
  rw [hdeg]
  unfold Ideal.div
  rw [if_neg hc0, if_neg hc0, one_mul]
end Cert.Gnn
end
-- ==== Proof.NetBridge.lean ====
import proofs.«423882_j12249246728934_2_alg».proof.Proof.Spec
import proofs.«423882_j12249246728934_2_alg».proof.Proof.AggBridge

noncomputable section

open Idealize.ShloMosaic Idealize.ShloMosaic.ValueIdx Cert.Gnn

namespace Cert.Gnn

/-! Rows of the padded network, one definition at a time. -/

theorem linP_row (X : Idx2 10240 128 → EReal) (W : Idx2 128 128 → EReal) (b : Idx2 1 128 → EReal) (r : Fin 10240) (h : Fin 128) :
    linP X W b (ix2 r h) = dense (fun k => X (ix2 r k)) W (fun h => b (ix2 0 h)) h := rfl

theorem aggP_row (A : Idx2 10240 10240 → EReal) (XT : Idx2 10240 128 → EReal) (r : Fin 10240) (h : Fin 128) :
    aggP A XT (ix2 r h) = ∑ s : Fin 10240, A (ix2 r s) * XT (ix2 s h) := rfl

theorem lnP_row (AG : Idx2 10240 128 → EReal) (inv : Idx2 10240 1 → EReal) (res : Idx2 10240 128 → EReal)
    (g be : Idx2 1 128 → EReal) (r : Fin 10240) (k : Fin 128) :
    lnP AG inv res g be (ix2 r k)
      = lnRelu (fun k' => AG (ix2 r k') * inv (ix2 r 0) + res (ix2 r k')) (fun h => g (ix2 0 h)) (fun h => be (ix2 0 h)) k := rfl

section
variable (E : Idx2 2 640000 → BitVec 32) (hE : InRange E)
  (A : Idx2 10240 10240 → EReal) (hA : ∀ d s : Fin 10240, A (ix2 d s) = adj E d s)
  (inv : Idx2 10240 1 → EReal) (hinv : ∀ d : Fin 10240, inv (ix2 d 0) = invDeg E d)
include hE hA hinv

/-- On a node's row, the count-matrix product scaled by the reciprocal degree is the mean aggregation, whenever the
    padded operand agrees with the node array on the node rows. -/
theorem agg_row (XT : Idx2 10240 128 → EReal) (R : Fin 10000 → Fin 128 → EReal)
    (hXT : ∀ (r : Fin 10000) (h : Fin 128), XT (ix2 (up r) h) = R r h) (r : Fin 10000) (k : Fin 128) :
    aggP A XT (ix2 (up r) k) * inv (ix2 (up r) 0) = meanAgg E R r k := by
  rw [aggP_row, hinv, ← agg_bridge E hE XT R hXT r k]
  refine congrArg (· * invDeg E (up r)) (Finset.sum_congr rfl fun s _ => ?_)
  rw [hA]

/-- The first layer on a node's row: zero residual. -/
theorem layer1_row (X0p : Idx2 10240 128 → EReal) (x0c : Fin 10000 → Fin 128 → EReal)
    (hX0 : ∀ (r : Fin 10000) (k : Fin 128), X0p (ix2 (up r) k) = x0c r k)
    (Z : Idx2 10240 128 → EReal) (hZ : ∀ i, Z i = 0)
    (W1 : Idx2 128 128 → EReal) (b1 g1 be1 : Idx2 1 128 → EReal) (r : Fin 10000) (k : Fin 128) :
    lnP (aggP A (linP X0p W1 b1)) inv Z g1 be1 (ix2 (up r) k)
      = refLayer1 x0c E W1 (fun h => b1 (ix2 0 h)) (fun h => g1 (ix2 0 h)) (fun h => be1 (ix2 0 h)) r k := by
  rw [lnP_row]
  unfold refLayer1
  refine congrArg (fun v => lnRelu v (fun h => g1 (ix2 0 h)) (fun h => be1 (ix2 0 h)) k) (funext fun k' => ?_)
  rw [hZ, add_zero]
  refine agg_row E hE A hA inv hinv (linP X0p W1 b1) _ (fun r' h' => ?_) r k'
  rw [linP_row]
  exact congrArg (fun v => dense v W1 (fun h => b1 (ix2 0 h)) h') (funext fun k'' => hX0 r' k'')

/-- The second layer on a node's row: the residual is the first layer's output. -/
theorem layer2_row (X : Idx2 10240 128 → EReal) (X1c : Fin 10000 → Fin 128 → EReal)
    (hX : ∀ (r : Fin 10000) (k : Fin 128), X (ix2 (up r) k) = X1c r k)
    (W2 : Idx2 128 128 → EReal) (b2 g2 be2 : Idx2 1 128 → EReal) (r : Fin 10000) (k : Fin 128) :
    lnP (aggP A (linP X W2 b2)) inv X g2 be2 (ix2 (up r) k)
      = refLayer2 X1c E W2 (fun h => b2 (ix2 0 h)) (fun h => g2 (ix2 0 h)) (fun h => be2 (ix2 0 h)) r k := by
  rw [lnP_row]
  unfold refLayer2
  refine congrArg (fun v => lnRelu v (fun h => g2 (ix2 0 h)) (fun h => be2 (ix2 0 h)) k) (funext fun k' => ?_)
  rw [hX, add_comm]
  refine congrArg (X1c r k' + ·) ?_
  refine agg_row E hE A hA inv hinv (linP X W2 b2) _ (fun r' h' => ?_) r k'
  rw [linP_row]
  exact congrArg (fun v => dense v W2 (fun h => b2 (ix2 0 h)) h') (funext fun k'' => hX r' k'')

end

/-- The whole padded network on a node's row, over any arrays with the stated contents. -/
theorem kerOutP_row (E : Idx2 2 640000 → BitVec 32) (hE : InRange E)
    (A : Idx2 10240 10240 → EReal) (hA : ∀ d s : Fin 10240, A (ix2 d s) = adj E d s)
    (inv : Idx2 10240 1 → EReal) (hinv : ∀ d : Fin 10240, inv (ix2 d 0) = invDeg E d)
    (X0p : Idx2 10240 128 → EReal) (x0c : Fin 10000 → Fin 128 → EReal)
    (hX0 : ∀ (r : Fin 10000) (k : Fin 128), X0p (ix2 (up r) k) = x0c r k)
    (Z : Idx2 10240 128 → EReal) (hZ : ∀ i, Z i = 0)
    (W1 : Idx2 128 128 → EReal) (b1 g1 be1 : Idx2 1 128 → EReal)
    (W2 : Idx2 128 128 → EReal) (b2 g2 be2 : Idx2 1 128 → EReal)
    (Wo : Idx2 128 128 → EReal) (bo : Idx2 1 128 → EReal) (r : Fin 10000) (h : Fin 128) :
    kerOutP X0p A inv Z W1 b1 g1 be1 W2 b2 g2 be2 Wo bo (ix2 (up r) h)
      = refOut x0c E W1 (fun h => b1 (ix2 0 h)) (fun h => g1 (ix2 0 h)) (fun h => be1 (ix2 0 h))
          W2 (fun h => b2 (ix2 0 h)) (fun h => g2 (ix2 0 h)) (fun h => be2 (ix2 0 h)) Wo (fun h => bo (ix2 0 h)) r h := by
  unfold kerOutP refOut linResP
  rw [linP_row, hX0]
  refine congrArg (· + x0c r h) ?_
  refine congrArg (fun v => dense v Wo (fun h => bo (ix2 0 h)) h) (funext fun k => ?_)
  exact layer2_row E hE A hA inv hinv (lnP (aggP A (linP X0p W1 b1)) inv Z g1 be1)
    (refLayer1 x0c E W1 (fun h => b1 (ix2 0 h)) (fun h => g1 (ix2 0 h)) (fun h => be1 (ix2 0 h)))
    (fun r' k' => layer1_row E hE A hA inv hinv X0p x0c hX0 Z hZ W1 b1 g1 be1 r' k') W2 b2 g2 be2 r k

/-- The padded network over the count matrix agrees with the edge-list network on the first 10000 rows. -/
theorem ker_eq_ref (x0 : Idx2 10000 128 → EReal) (E : Idx2 2 640000 → BitVec 32) (hE : InRange E)
    (W1 : Idx2 128 128 → EReal) (b1 g1 be1 : Idx1 128 → EReal)
    (W2 : Idx2 128 128 → EReal) (b2 g2 be2 : Idx1 128 → EReal)
    (Wo : Idx2 128 128 → EReal) (bo : Idx1 128 → EReal) (r : Fin 10000) (h : Fin 128) :
    kerOutP (fun i : Idx2 10240 128 => if hh : (i 0).val < 10000 then x0 (ix2 ⟨(i 0).val, hh⟩ (i 1)) else (0 : EReal))
        (fun i : Idx2 10240 10240 => adj E (i 0) (i 1)) (fun i : Idx2 10240 1 => invDeg E (i 0)) (fun _ : Idx2 10240 128 => (0 : EReal))
        W1 (fun i : Idx2 1 128 => b1 (ix1 (i 1))) (fun i : Idx2 1 128 => g1 (ix1 (i 1))) (fun i : Idx2 1 128 => be1 (ix1 (i 1)))
        W2 (fun i : Idx2 1 128 => b2 (ix1 (i 1))) (fun i : Idx2 1 128 => g2 (ix1 (i 1))) (fun i : Idx2 1 128 => be2 (ix1 (i 1)))
        Wo (fun i : Idx2 1 128 => bo (ix1 (i 1))) (ix2 (up r) h)
      = refOut (fun r h => x0 (ix2 r h)) E W1 (fun h => b1 (ix1 h)) (fun h => g1 (ix1 h)) (fun h => be1 (ix1 h))
          W2 (fun h => b2 (ix1 h)) (fun h => g2 (ix1 h)) (fun h => be2 (ix1 h)) Wo (fun h => bo (ix1 h)) r h :=
  kerOutP_row E hE (fun i : Idx2 10240 10240 => adj E (i 0) (i 1)) (fun _ _ => rfl)
    (fun i : Idx2 10240 1 => invDeg E (i 0)) (fun _ => rfl)
    (fun i : Idx2 10240 128 => if hh : (i 0).val < 10000 then x0 (ix2 ⟨(i 0).val, hh⟩ (i 1)) else (0 : EReal))
    (fun r h => x0 (ix2 r h)) (fun r k => dif_pos r.isLt)
    (fun _ : Idx2 10240 128 => (0 : EReal)) (fun _ => rfl)
    W1 (fun i : Idx2 1 128 => b1 (ix1 (i 1))) (fun i : Idx2 1 128 => g1 (ix1 (i 1))) (fun i : Idx2 1 128 => be1 (ix1 (i 1)))
    W2 (fun i : Idx2 1 128 => b2 (ix1 (i 1))) (fun i : Idx2 1 128 => g2 (ix1 (i 1))) (fun i : Idx2 1 128 => be2 (ix1 (i 1)))
    Wo (fun i : Idx2 1 128 => bo (ix1 (i 1))) r h

end Cert.Gnn
end
-- ==== Proof.PreDecode.lean ====
import proofs.«423882_j12249246728934_2_alg».proof.Pre_finite_inputs
import proofs.«423882_j12249246728934_2_alg».proof.Proof.Spec
import Idealize.ShloMosaic.Lib.ReduceAll
import Idealize.ShloMosaic.Lib.StableHlo.Predicate

noncomputable section

open Idealize.ShloMosaic Idealize.ShloMosaic.ValueIdx Cert.Gnn

namespace Cert.Gnn

/-- A scalar array has one index. -/
private instance subsingleton_scalar_idx : Subsingleton Cert.Pre_finite_inputs.S_.Idx :=
  ⟨fun a b => funext fun d => d.elim0⟩

/-- A 32-bit word that is non-negative and below 10000 as a signed number has a value below 10000. -/
private theorem toNat_lt_of_signed_range (w : BitVec 32) (h0 : IntOp.cmpi .sge w 0#32 = 1#1)
    (h1 : IntOp.cmpi .slt w 10000#32 = 1#1) : w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have hw := w.isLt
  rw [BitVec.toInt_eq_toNat_cond] at h0 h1
  split at h0 <;> omega

/-- The last part of the printed precondition: when it is one, its last two conjuncts (every edge word is
    at least zero, every edge word is below 10000, each a conjunction over all entries) hold entry by entry. -/
private theorem part3_decode [Cert.Pre_finite_inputs.Facts]
    (x1 : IVec Cert.Pre_finite_inputs.S2x640000 32) (v48 : IVec Cert.Pre_finite_inputs.S_ 1)
    (v49 v50 : FVec Ideal Cert.Pre_finite_inputs.S128 .f32) (j : Cert.Pre_finite_inputs.S_.Idx)
    (h : Cert.Pre_finite_inputs.fn_part3 (F := Ideal) x1 v48 v49 v50 j = 1#1)
    (i : Cert.Pre_finite_inputs.S2x640000.Idx) : (x1 i).toNat < 10000 := by
  unfold Cert.Pre_finite_inputs.fn_part3 at h
  dsimp only [andi] at h
  rw [IntOp.andi_eq_one, IntOp.andi_eq_one] at h
  obtain ⟨⟨_, h56⟩, h60⟩ := h
  have a := Host.reduce_andi_all _ _ _ _ j h56 i
  have b := Host.reduce_andi_all _ _ _ _ j h60 i
  simp only [cmpi, StableHlo.Predicate.bcast_scalar, constantI] at a b
  exact toNat_lt_of_signed_range _ a b

/-- The precondition's last two conjuncts say every edge word is a node: non-negative and below 10000. -/
theorem inRange_of_pre [Cert.Pre_finite_inputs.Facts]
    (x0 : (⟨Cert.Pre_finite_inputs.S10000x128, .f32⟩ : BufTy).Contents (Elt Ideal))
    (x1 : (⟨Cert.Pre_finite_inputs.S2x640000, .i32⟩ : BufTy).Contents (Elt Ideal))
    (x2 : (⟨Cert.Pre_finite_inputs.S128x128, .f32⟩ : BufTy).Contents (Elt Ideal))
    (x3 x4 x5 : (⟨Cert.Pre_finite_inputs.S128, .f32⟩ : BufTy).Contents (Elt Ideal))
    (x6 : (⟨Cert.Pre_finite_inputs.S128x128, .f32⟩ : BufTy).Contents (Elt Ideal))
    (x7 x8 x9 : (⟨Cert.Pre_finite_inputs.S128, .f32⟩ : BufTy).Contents (Elt Ideal))
    (x10 : (⟨Cert.Pre_finite_inputs.S128x128, .f32⟩ : BufTy).Contents (Elt Ideal))
    (x11 : (⟨Cert.Pre_finite_inputs.S128, .f32⟩ : BufTy).Contents (Elt Ideal))
    (hp : Cert.Pre_finite_inputs.fn (F := Ideal) x0 x1 x2 x3 x4 x5 x6 x7 x8 x9 x10 x11 = fun _ => 1#1) :
    InRange x1 := by
  intro i
  have e := congrFun hp ValueIdx.ix0
  unfold Cert.Pre_finite_inputs.fn Cert.Pre_finite_inputs.fn_part1 Cert.Pre_finite_inputs.fn_part2 at e
  exact part3_decode _ _ _ _ _ e i
end Cert.Gnn
end
-- ==== Proof.lean ====
/-
  The certificate's claim: the kernel program (seven Pallas regions around a dense matrix of edge counts) and the
  reference (gather and scatter-add along the edge list) compute the same two-layer message-passing network over the
  extended reals, for edge words inside the node range [0, 10000).

  The three frames are the generated ones (the reference's is its generated run with the result dropped); the ideal
  pass rewrote nothing, so `preserves` is trivial. The value claim: the kernel program's run leaves its result buffer
  at the first 10000 rows of the padded network `kerOutP` of the arrays its first region finds (Proof/KChain.lean over
  the per-region arrays of KLin / KAgg / KLn), those arrays are the padded input, the count matrix, the reciprocal
  clamped degrees and the parameter rows (KHost, KGraph, KDeg), the reference's result is `refOut` (RChain over RDense /
  RNorm / RAgg), and the two networks agree on the node rows (NetBridge over AggBridge: a sum of ones times a value is
  the sum of the values, so the count-matrix product is the sum over the edges). The node range comes from the
  precondition's last two conjuncts (PreDecode).
-/
import proofs.«423882_j12249246728934_2_alg».proof.Defs
import proofs.«423882_j12249246728934_2_alg».proof.Proof.Gen.Kernel
import proofs.«423882_j12249246728934_2_alg».proof.Proof.Gen.Kernel.Frame
import proofs.«423882_j12249246728934_2_alg».proof.Proof.Gen.KernelIdeal
import proofs.«423882_j12249246728934_2_alg».proof.Proof.Gen.KernelIdeal.Frame
import proofs.«423882_j12249246728934_2_alg».proof.Proof.Gen.ReferenceIdeal
import proofs.«423882_j12249246728934_2_alg».proof.Proof.Gen.ReferenceIdeal.Run
import proofs.«423882_j12249246728934_2_alg».proof.Proof.Gen.ReferenceIdeal.Read
import proofs.«423882_j12249246728934_2_alg».proof.Proof.Gen.Pre_finite_inputs
import proofs.«423882_j12249246728934_2_alg».proof.Proof.RunValue
import proofs.«423882_j12249246728934_2_alg».proof.Proof.KChain
import proofs.«423882_j12249246728934_2_alg».proof.Proof.KHost
import proofs.«423882_j12249246728934_2_alg».proof.Proof.KGraph
import proofs.«423882_j12249246728934_2_alg».proof.Proof.KDeg
import proofs.«423882_j12249246728934_2_alg».proof.Proof.RChain
import proofs.«423882_j12249246728934_2_alg».proof.Proof.NetBridge
import proofs.«423882_j12249246728934_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem Cert.Gnn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two results are one array: the reference's term is the edge-list network of the arguments, the kernel
    program's last contents at its result buffer the padded count-matrix network of the same arguments, and the two
    agree on every node row. -/
theorem result_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v103 m' c
      = Cert.KernelIdeal.Gen.W15 (F := Ideal) m ρ c (Proc.devRef .tc Cert.KernelIdeal.main_v38) := by
  have hE : InRange (m ((c.tc : Thread Cert.KernelIdeal.nD Cert.KernelIdeal.τ).loc Cert.KernelIdeal.main_arg1)) :=
    inRange_of_pre _ _ _ _ _ _ _ _ _ _ _ _ (hpre c)
  rw [Cert.ReferenceIdeal.Read.val_main_v103_eq, h0, h1, h2, h3, h4, h5, h6, h7, h8, h9, h10, h11]
  funext i
  rw [RChain.ref_read _ _ _ _ _ _ _ _ _ _ _ _ hE i, KChain.result_eq m ρ c]
  rw [KHost.v0_eq m ρ c, KGraph.v13_eq m ρ c hE, KDeg.v22_eq m ρ c hE, KHost.v23_eq m ρ c,
    KHost.arg2_eq m ρ c, KHost.v24_eq m ρ c, KHost.v25_eq m ρ c, KHost.v26_eq m ρ c,
    KHost.arg6_eq m ρ c, KHost.v27_eq m ρ c, KHost.v28_eq m ρ c, KHost.v29_eq m ρ c,
    KHost.arg10_eq m ρ c, KHost.v30_eq m ρ c]
  exact (ker_eq_ref _ _ hE _ _ _ _ _ _ _ _ _ _ (i 0) (i 1)).symm

/-- The ideal pass rewrote nothing: the ledger is empty. -/
theorem preserves : Cert.preserves_Kernel_KernelIdeal := trivial

/-- Both programs run, the kernel program to the last boundary's contents at its result buffer, the reference to its
    composed term, and the two are one array (`result_agree`). -/
theorem algebraic : Cert.algebraic_KernelIdeal_ReferenceIdeal := by
  intro m ρ m' ρ' hpre hagree
  refine ⟨fun c => Cert.KernelIdeal.Gen.W15 (F := Ideal) m ρ c (Proc.devRef .tc Cert.KernelIdeal.main_v38),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  exact result_agree m ρ m' hpre c h0 h1 h2 h3 h4 h5 h6 h7 h8 h9 h10 h11

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
